-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v49)) (v1 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49) = v0 c
          ∧ r.2.mem ((c.tc : Thread Cert.KernelIdeal.nD Cert.KernelIdeal.τ).loc Cert.KernelIdeal.main_v43) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_v42) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S400000x32 : Shape := ⟨2, ![400000, 32]⟩
abbrev S2x400000 : Shape := ⟨2, ![2, 400000]⟩
abbrev S128x64 : Shape := ⟨2, ![128, 64]⟩
abbrev S64 : Shape := ⟨1, ![64]⟩
abbrev S160x1 : Shape := ⟨2, ![160, 1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S400000x32 : S_.BroadcastsInDim S400000x32 (![] : Fin 0 → Fin S400000x32.rank)
  reducesTo_S400000x32_S_d0_1 : S400000x32.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S160x1 : S_.BroadcastsInDim S160x1 (![] : Fin 0 → Fin S160x1.rank)
  reducesTo_S160x1_S_d0_1 : S160x1.ReducesTo [0, 1] S_
  reducesTo_S_S_d : S_.ReducesTo [] S_

variable [Facts]

def fn_part1 {F : FTy → Type} [FloatOps F] (main_arg5 : FVec F S160x1 .f32) (main_arg6 : FVec F S_ .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S160x1 .f32 := Host.absf main_arg5
  let main_cst_6 : FVec F S_ .f32 := constant S_ .f32 0x7F800000#32
  let main_v20 : FVec F S160x1 .f32 := broadcastInDim S160x1 ![] bcast_S_S160x1 main_cst_6
  let main_v21 : IVec S160x1 1 := cmpf .olt main_v19 main_v20
  let main_c_7 : IVec S_ 1 := constantI S_ 1 1#1
  let main_v22 : IVec S_ 1 := (fun x v => Host.reduce IntOp.andi x v reducesTo_S160x1_S_d0_1 h_S_) main_v21 main_c_7
  let main_v23 : IVec S_ 1 := andi main_v18 main_v22
  let main_v24 : FVec F S_ .f32 := Host.absf main_arg6
  let main_cst_8 : FVec F S_ .f32 := constant S_ .f32 0x7F800000#32
  let main_v25 : IVec S_ 1 := cmpf .olt main_v24 main_cst_8
  let main_c_9 : IVec S_ 1 := constantI S_ 1 1#1
  let main_v26 : IVec S_ 1 := (fun x v => Host.reduce IntOp.andi x v reducesTo_S_S_d h_S_) main_v25 main_c_9
  let main_v27 : IVec S_ 1 := andi main_v23 main_v26
  main_v27

def fn {F : FTy → Type} [FloatOps F] (main_arg0 : FVec F S50000x128 .f32) (main_arg1 : FVec F S400000x32 .f32) (main_arg2 : IVec S2x400000 32) (main_arg3 : FVec F S128x64 .f32) (main_arg4 : FVec F S64 .f32) (main_arg5 : FVec F S160x1 .f32) (main_arg6 : FVec F S_ .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S400000x32 .f32 := Host.absf main_arg1
  let main_cst_0 : FVec F S_ .f32 := constant S_ .f32 0x7F800000#32
  let main_v5 : FVec F S400000x32 .f32 := broadcastInDim S400000x32 ![] bcast_S_S400000x32 main_cst_0
  let main_v6 : IVec S400000x32 1 := cmpf .olt main_v4 main_v5
  let main_c_1 : IVec S_ 1 := constantI S_ 1 1#1
  let main_v7 : IVec S_ 1 := (fun x v => Host.reduce IntOp.andi x v reducesTo_S400000x32_S_d0_1 h_S_) main_v6 main_c_1
  let main_v8 : IVec S_ 1 := andi main_v3 main_v7
  let main_v9 : FVec F S128x64 .f32 := Host.absf main_arg3
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_v13 main_v16
-- ==== Kernel.lean ====
abbrev S50000x128 : Shape := ⟨2, ![50000, 128]⟩
abbrev S400000x32 : Shape := ⟨2, ![400000, 32]⟩
abbrev S2x400000 : Shape := ⟨2, ![2, 400000]⟩
abbrev S128x64 : Shape := ⟨2, ![128, 64]⟩
abbrev S64 : Shape := ⟨1, ![64]⟩
abbrev S160x1 : Shape := ⟨2, ![160, 1]⟩
abbrev S_ : Shape := ⟨0, ![]⟩
abbrev S1x64 : Shape := ⟨2, ![1, 64]⟩
abbrev S50000x64 : Shape := ⟨2, ![50000, 64]⟩
abbrev S5000x128 : Shape := ⟨2, ![5000, 128]⟩
abbrev S5000x64 : Shape := ⟨2, ![5000, 64]⟩
abbrev S400000x2 : Shape := ⟨2, ![400000, 2]⟩
abbrev S800000x2 : Shape := ⟨2, ![800000, 2]⟩
abbrev S800000x32 : Shape := ⟨2, ![800000, 32]⟩
abbrev S800000x1 : Shape := ⟨2, ![800000, 1]⟩
abbrev S800000 : Shape := ⟨1, ![800000]⟩
abbrev S800000x64 : Shape := ⟨2, ![800000, 64]⟩
abbrev S64x1 : Shape := ⟨2, ![64, 1]⟩
abbrev S32x1 : Shape := ⟨2, ![32, 1]⟩
abbrev S1x32 : Shape := ⟨2, ![1, 32]⟩
abbrev S16000x64 : Shape := ⟨2, ![16000, 64]⟩
abbrev S16000x32 : Shape := ⟨2, ![16000, 32]⟩
abbrev S16000x1 : Shape := ⟨2, ![16000, 1]⟩
abbrev S16000 : Shape := ⟨1, ![16000]⟩
abbrev S50000x1 : Shape := ⟨2, ![50000, 1]⟩
abbrev S1x1 : Shape := ⟨2, ![1, 1]⟩
abbrev S5000 : Shape := ⟨1, ![5000]⟩
abbrev S5000x1 : Shape := ⟨2, ![5000, 1]⟩

abbrev nBuf : Space → Nat
  | .hbm => 85
  | .vmem => 30
  | .smem => 0
  | _ => 0

abbrev bufTy : (tb : Table) → Fin (tcTables nBuf tb) → BufTy
  | .hbm, ⟨0, _⟩ => ⟨S50000x128, .f32⟩
  | .hbm, ⟨1, _⟩ => ⟨S400000x32, .f32⟩
  | .hbm, ⟨2, _⟩ => ⟨S2x400000, .i32⟩
  | .hbm, ⟨3, _⟩ => ⟨S128x64, .f32⟩
  | .hbm, ⟨4, _⟩ => ⟨S64, .f32⟩
  | .hbm, ⟨5, _⟩ => ⟨S160x1, .f32⟩
  | .hbm, ⟨6, _⟩ => ⟨S_, .f32⟩
  | .hbm, ⟨7, _⟩ => ⟨S1x64, .f32⟩
  | .hbm, ⟨8, _⟩ => ⟨S50000x64, .f32⟩
  | .hbm, ⟨9, _⟩ => ⟨S400000x2, .i32⟩
  | .hbm, ⟨10, _⟩ => ⟨S400000x2, .i32⟩
  | .hbm, ⟨11, _⟩ => ⟨S800000x2, .i32⟩
  | .hbm, ⟨12, _⟩ => ⟨S800000x32, .f32⟩
  | .hbm, ⟨13, _⟩ => ⟨S800000x1, .i32⟩
  | .hbm, ⟨14, _⟩ => ⟨S800000, .i32⟩
  | .hbm, ⟨15, _⟩ => ⟨S800000x1, .i32⟩
  | .hbm, ⟨16, _⟩ => ⟨S800000, .i32⟩
  | .hbm, ⟨17, _⟩ => ⟨S_, .i32⟩
  | .hbm, ⟨18, _⟩ => ⟨S800000, .i32⟩
  | .hbm, ⟨19, _⟩ => ⟨S800000, .i1⟩
  | .hbm, ⟨20, _⟩ => ⟨S_, .i32⟩
  | .hbm, ⟨21, _⟩ => ⟨S800000, .i32⟩
  | .hbm, ⟨22, _⟩ => ⟨S800000, .i32⟩
  | .hbm, ⟨23, _⟩ => ⟨S800000, .i32⟩
  | .hbm, ⟨24, _⟩ => ⟨S800000x1, .i32⟩
  | .hbm, ⟨25, _⟩ => ⟨S800000x64, .f32⟩
  | .hbm, ⟨26, _⟩ => ⟨S_, .i32⟩
  | .hbm, ⟨27, _⟩ => ⟨S800000, .i32⟩
  | .hbm, ⟨28, _⟩ => ⟨S800000, .i1⟩
  | .hbm, ⟨29, _⟩ => ⟨S_, .i32⟩
  | .hbm, ⟨30, _⟩ => ⟨S800000, .i32⟩
  | .hbm, ⟨31, _⟩ => ⟨S800000, .i32⟩
  | .hbm, ⟨32, _⟩ => ⟨S800000, .i32⟩
  | .hbm, ⟨33, _⟩ => ⟨S800000x1, .i32⟩
  | .hbm, ⟨34, _⟩ => ⟨S800000x64, .f32⟩
  | .hbm, ⟨35, _⟩ => ⟨S64x1, .f32⟩
  | .hbm, ⟨36, _⟩ => ⟨S1x64, .f32⟩
  | .hbm, ⟨37, _⟩ => ⟨S64x1, .f32⟩
  | .hbm, ⟨38, _⟩ => ⟨S1x64, .f32⟩
  | .hbm, ⟨39, _⟩ => ⟨S32x1, .f32⟩
  | .hbm, ⟨40, _⟩ => ⟨S1x32, .f32⟩
  | .hbm, ⟨41, _⟩ => ⟨S800000x1, .f32⟩
  | .hbm, ⟨42, _⟩ => ⟨S_, .f32⟩
  | .hbm, ⟨43, _⟩ => ⟨S50000x1, .f32⟩
  | .hbm, ⟨44, _⟩ => ⟨S800000x1, .i32⟩
  | .hbm, ⟨45, _⟩ => ⟨S50000x1, .f32⟩
  | .hbm, ⟨46, _⟩ => ⟨S_, .i32⟩
  | .hbm, ⟨47, _⟩ => ⟨S800000, .i32⟩
  | .hbm, ⟨48, _⟩ => ⟨S800000, .i1⟩
  | .hbm, ⟨49, _⟩ => ⟨S_, .i32⟩
  | .hbm, ⟨50, _⟩ => ⟨S800000, .i32⟩
  | .hbm, ⟨51, _⟩ => ⟨S800000, .i32⟩
  | .hbm, ⟨52, _⟩ => ⟨S800000, .i32⟩
  | .hbm, ⟨53, _⟩ => ⟨S800000x1, .i32⟩
  | .hbm, ⟨54, _⟩ => ⟨S800000x1, .f32⟩
  | .hbm, ⟨55, _⟩ => ⟨S800000x1, .f32⟩
  | .hbm, ⟨56, _⟩ => ⟨S800000x1, .f32⟩
  | .hbm, ⟨57, _⟩ => ⟨S_, .i32⟩
  | .hbm, ⟨58, _⟩ => ⟨S_, .f32⟩
  | .hbm, ⟨59, _⟩ => ⟨S_, .f32⟩
  | .hbm, ⟨60, _⟩ => ⟨S1x1, .f32⟩
  | .hbm, ⟨61, _⟩ => ⟨S_, .f32⟩
  | .hbm, ⟨62, _⟩ => ⟨S1x1, .f32⟩
  | .hbm, ⟨63, _⟩ => ⟨S1x1, .f32⟩
  | .hbm, ⟨64, _⟩ => ⟨S800000x1, .f32⟩
  | .hbm, ⟨65, _⟩ => ⟨S800000x1, .f32⟩
  | .hbm, ⟨66, _⟩ => ⟨S800000x1, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .i1⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S800000x64, .f32⟩
  | .hbm, ⟨79, _⟩ => ⟨S_, .f32⟩
  | .hbm, ⟨80, _⟩ => ⟨S50000x64, .f32⟩
  | .hbm, ⟨81, _⟩ => ⟨S800000x1, .i32⟩
  | .hbm, ⟨82, _⟩ => ⟨S50000x64, .f32⟩
  | .hbm, ⟨83, _⟩ => ⟨S1x1, .f32⟩
  | .hbm, ⟨84, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S1x64, .f32⟩
  | .local _ .vmem, ⟨4, _⟩ => ⟨S5000x64, .f32⟩
  | .local _ .vmem, ⟨5, _⟩ => ⟨S5000x64, .f32⟩
  | .local _ .vmem, ⟨6, _⟩ => ⟨S16000x64, .f32⟩
  | .local _ .vmem, ⟨7, _⟩ => ⟨S16000x64, .f32⟩
  | .local _ .vmem, ⟨8, _⟩ => ⟨S16000x64, .f32⟩
  | .local _ .vmem, ⟨9, _⟩ => ⟨S16000x64, .f32⟩
  | .local _ .vmem, ⟨10, _⟩ => ⟨S16000x32, .f32⟩
  | .local _ .vmem, ⟨11, _⟩ => ⟨S16000x32, .f32⟩
  | .local _ .vmem, ⟨12, _⟩ => ⟨S1x64, .f32⟩
  | .local _ .vmem, ⟨13, _⟩ => ⟨S1x64, .f32⟩
  | .local _ .vmem, ⟨14, _⟩ => ⟨S1x32, .f32⟩
  | .local _ .vmem, ⟨15, _⟩ => ⟨S16000x1, .f32⟩
  | .local _ .vmem, ⟨16, _⟩ => ⟨S16000x1, .f32⟩
  | .local _ .vmem, ⟨17, _⟩ => ⟨S16000x64, .f32⟩
  | .local _ .vmem, ⟨18, _⟩ => ⟨S16000x64, .f32⟩
  | .local _ .vmem, ⟨19, _⟩ => ⟨S16000x1, .f32⟩
  | .local _ .vmem, ⟨20, _⟩ => ⟨S16000x1, .f32⟩
  | .local _ .vmem, ⟨21, _⟩ => ⟨S16000x64, .f32⟩
  | .local _ .vmem, ⟨22, _⟩ => ⟨S16000x64, .f32⟩
  | .local _ .vmem, ⟨23, _⟩ => ⟨S5000x64, .f32⟩
  | .local _ .vmem, ⟨24, _⟩ => ⟨S5000x64, .f32⟩
  | .local _ .vmem, ⟨25, _⟩ => ⟨S5000x64, .f32⟩
  | .local _ .vmem, ⟨26, _⟩ => ⟨S5000x64, .f32⟩
  | .local _ .vmem, ⟨27, _⟩ => ⟨S1x1, .f32⟩
  | .local _ .vmem, ⟨28, _⟩ => ⟨S5000x128, .f32⟩
  | .local _ .vmem, ⟨29, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c : Ref sig .tc := ⟨.hbm, 17, rfl⟩
abbrev main_v10 : Ref sig .tc := ⟨.hbm, 18, rfl⟩
abbrev main_v11 : Ref sig .tc := ⟨.hbm, 19, rfl⟩
abbrev main_c_0 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_c_1 : Ref sig .tc := ⟨.hbm, 26, rfl⟩
abbrev main_v17 : Ref sig .tc := ⟨.hbm, 27, rfl⟩
abbrev main_v18 : Ref sig .tc := ⟨.hbm, 28, rfl⟩
abbrev main_c_2 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_c_3 : Ref sig .tc := ⟨.hbm, 46, rfl⟩
abbrev main_v34 : Ref sig .tc := ⟨.hbm, 47, rfl⟩
abbrev main_v35 : Ref sig .tc := ⟨.hbm, 48, rfl⟩
abbrev main_c_4 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_c_5 : Ref sig .tc := ⟨.hbm, 57, rfl⟩
abbrev main_call0_cst : Ref sig .tc := ⟨.hbm, 58, rfl⟩
abbrev main_call0_v0 : Ref sig .tc := ⟨.hbm, 59, rfl⟩
abbrev main_call0_v1 : Ref sig .tc := ⟨.hbm, 60, rfl⟩
abbrev main_call0_cst_0 : Ref sig .tc := ⟨.hbm, 61, rfl⟩
abbrev main_call0_v2 : Ref sig .tc := ⟨.hbm, 62, rfl⟩
abbrev main_call0_v3 : Ref sig .tc := ⟨.hbm, 63, rfl⟩
abbrev main_call0_v4 : Ref sig .tc := ⟨.hbm, 64, rfl⟩
abbrev main_call0_v5 : Ref sig .tc := ⟨.hbm, 65, rfl⟩
abbrev main_call0_v6 : Ref sig .tc := ⟨.hbm, 66, rfl⟩
abbrev main_call0_v7 : Ref sig .tc := ⟨.hbm, 67, rfl⟩
abbrev main_call0_cst_1 : Ref sig .tc := ⟨.hbm, 68, rfl⟩
abbrev main_call0_v8 : Ref sig .tc := ⟨.hbm, 69, rfl⟩
abbrev main_call0_cst_2 : Ref sig .tc := ⟨.hbm, 70, rfl⟩
abbrev main_call0_v9 : Ref sig .tc := ⟨.hbm, 71, rfl⟩
abbrev main_call0_v10 : Ref sig .tc := ⟨.hbm, 72, rfl⟩
abbrev main_call0_cst_3 : Ref sig .tc := ⟨.hbm, 73, rfl⟩
abbrev main_call0_v11 : Ref sig .tc := ⟨.hbm, 74, rfl⟩
abbrev main_call0_cst_4 : Ref sig .tc := ⟨.hbm, 75, rfl⟩
abbrev main_call0_call0_v0 : Ref sig .tc := ⟨.hbm, 76, rfl⟩
abbrev main_v43 : Ref sig .tc := ⟨.hbm, 77, rfl⟩
abbrev main_v44 : Ref sig .tc := ⟨.hbm, 78, rfl⟩
abbrev main_cst_6 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg6_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg2_1 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg1_1 : Ref sig .tc := ⟨.vmem, 26, rfl⟩
abbrev cc3_stg2_0 : Ref sig .tc := ⟨.vmem, 27, rfl⟩
abbrev cc3_stg3_0 : Ref sig .tc := ⟨.vmem, 28, rfl⟩
abbrev cc3_stg3_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem6_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem2_1 : DmaSem sig := 22
abbrev cc3_sem0_0 : DmaSem sig := 23
abbrev cc3_sem0_1 : DmaSem sig := 24
abbrev cc3_sem1_0 : DmaSem sig := 25
abbrev cc3_sem1_1 : DmaSem sig := 26
abbrev cc3_sem2_0 : DmaSem sig := 27
abbrev cc3_sem3_0 : DmaSem sig := 28
abbrev cc3_sem3_1 : DmaSem sig := 29

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S16000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S16000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S16000x32 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x32 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S16000x1 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S16000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S16000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S16000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x1 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  shapeCasts_S64_S1x64 : S64.ShapeCasts S1x64
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  shapeCasts_S2x400000_S400000x2 : S2x400000.ShapeCasts S400000x2
  concatenates_S400000x2_S400000x2_S800000x2_d0 : Shape.Concatenates [S400000x2, S400000x2] S800000x2 0
  concatenates_S400000x32_S400000x32_S800000x32_d0 : Shape.Concatenates [S400000x32, S400000x32] S800000x32 0
  slices_S800000x2_S800000x1_0_0 : S800000x2.Slices ![0, 0] S800000x1
  shapeCasts_S800000x1_S800000 : S800000x1.ShapeCasts S800000
  slices_S800000x2_S800000x1_0_1 : S800000x2.Slices ![0, 1] S800000x1
  bcast_S_S800000 : S_.BroadcastsInDim S800000 (![] : Fin 0 → Fin S800000.rank)
  bcast_S800000_S800000x1_0 : S800000.BroadcastsInDim S800000x1 (![0] : Fin 1 → Fin S800000x1.rank)
  slices_S160x1_S64x1_0_0 : S160x1.Slices ![0, 0] S64x1
  shapeCasts_S64x1_S1x64 : S64x1.ShapeCasts S1x64
  slices_S160x1_S64x1_64_0 : S160x1.Slices ![64, 0] S64x1
  slices_S160x1_S32x1_128_0 : S160x1.Slices ![128, 0] S32x1
  shapeCasts_S32x1_S1x32 : S32x1.ShapeCasts S1x32
  inb_S16000x64_S16000x64_0_0 : ∀ a, (![0, 0] : Fin 2 → Nat) a + S16000x64.size a ≤ S16000x64.size a
  h_S16000x64 : 0 < S16000x64.numel
  shapeCasts_S16000x64_S16000x64 : S16000x64.ShapeCasts S16000x64
  broadcasts_S1x64_S16000x64 : S1x64.Broadcasts S16000x64
  reduces_S16000x64_S16000 : S16000x64.Reduces [1] S16000
  shapeCasts_S16000_S16000x1 : S16000.ShapeCasts S16000x1
  inb_S16000x32_S16000x32_0_0 : ∀ a, (![0, 0] : Fin 2 → Nat) a + S16000x32.size a ≤ S16000x32.size a
  h_S16000x32 : 0 < S16000x32.numel
  shapeCasts_S16000x32_S16000x32 : S16000x32.ShapeCasts S16000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S16000x32 : S1x32.Broadcasts S16000x32
  reduces_S16000x32_S16000 : S16000x32.Reduces [1] S16000
  inb_S16000x1_S16000x1_0_0 : ∀ a, (![0, 0] : Fin 2 → Nat) a + S16000x1.size a ≤ S16000x1.size a
  h_S16000x1 : 0 < S16000x1.numel
  bcast_S_S50000x1 : S_.BroadcastsInDim S50000x1 (![] : Fin 0 → Fin S50000x1.rank)
  reducesTo_S800000x1_S_d0_1 : S800000x1.ReducesTo [0, 1] S_
  h_S_ : 0 < S_.numel
  bcast_S_S1x1 : S_.BroadcastsInDim S1x1 (![] : Fin 0 → Fin S1x1.rank)
  bcast_S1x1_S800000x1_0_1 : S1x1.BroadcastsInDim S800000x1 (![0, 1] : Fin 2 → Fin S800000x1.rank)
  shapeCasts_S16000x1_S16000x1 : S16000x1.ShapeCasts S16000x1
  broadcasts_S16000x1_S16000x64 : S16000x1.Broadcasts S16000x64
  bcast_S_S50000x64 : S_.BroadcastsInDim S50000x64 (![] : Fin 0 → Fin S50000x64.rank)
  shapeCasts_S_S1x1 : S_.ShapeCasts S1x1
  shapeCasts_S5000x64_S5000x64 : S5000x64.ShapeCasts S5000x64
  reduces_S5000x64_S5000 : S5000x64.Reduces [1] S5000
  shapeCasts_S5000_S5000x1 : S5000.ShapeCasts S5000x1
  broadcasts_S5000x1_S5000x64 : S5000x1.Broadcasts S5000x64
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  concatenates_S5000x64_S5000x64_S5000x128_d1 : Shape.Concatenates [S5000x64, S5000x64] S5000x128 1
  dot_S5000x128_S128x64_S5000x64_1_0_0_1_n_n_wf : DotDims.WF S5000x128 S128x64 S5000x64 [1] [0] [0] [1] [] []
  gather_S50000x64_S800000x1_S800000x64_1_0_n_n_0_1_164_wf : GatherDims.WF S50000x64 S800000x1 S800000x64 [1] [0] [] [0] [] 1 ![1, 64]
  scatter_S50000x1_S800000x1_S800000x1_1_0_0_1_wf : ScatterDims.WF S50000x1 S800000x1 S800000x1 [1] [0] [0] 1
  gather_S50000x1_S800000x1_S800000x1_1_0_n_n_0_1_11_wf : GatherDims.WF S50000x1 S800000x1 S800000x1 [1] [0] [] [0] [] 1 ![1, 1]
  scatter_S50000x64_S800000x1_S800000x64_1_0_0_1_wf : ScatterDims.WF S50000x64 S800000x1 S800000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S50000x64.size a
  hwx0_3 : ∀ i : grid0.Coords, EltTy.bits .f32 = 32 ∨ (Rect.block (s := S50000x64) S5000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S16000x64.size a ≤ S800000x64.size a
  hwx1_0 : ∀ i : grid1.Coords, EltTy.bits .f32 = 32 ∨ (Rect.block (s := S800000x64) S16000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S16000x64.size a ≤ S800000x64.size a
  hwx1_1 : ∀ i : grid1.Coords, EltTy.bits .f32 = 32 ∨ (Rect.block (s := S800000x64) S16000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S16000x32.size a ≤ S800000x32.size a
  hwx1_2 : ∀ i : grid1.Coords, EltTy.bits .f32 = 32 ∨ (Rect.block (s := S800000x32) S16000x32.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x32.size a ≤ S1x32.size a
  hwx1_5 : ∀ i : grid1.Coords, EltTy.bits .f32 = 32 ∨ (Rect.block (s := S1x32) S1x32.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S16000x1.size a ≤ S800000x1.size a
  hwx1_6 : ∀ i : grid1.Coords, EltTy.bits .f32 = 32 ∨ (Rect.block (s := S800000x1) S16000x1.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S16000x64.size a ≤ S800000x64.size a
  hwx2_0 : ∀ i : grid2.Coords, EltTy.bits .f32 = 32 ∨ (Rect.block (s := S800000x64) S16000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S16000x1.size a ≤ S800000x1.size a
  hwx2_1 : ∀ i : grid2.Coords, EltTy.bits .f32 = 32 ∨ (Rect.block (s := S800000x1) S16000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S16000x64.size a ≤ S800000x64.size a
  hwx2_2 : ∀ i : grid2.Coords, EltTy.bits .f32 = 32 ∨ (Rect.block (s := S800000x64) S16000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S50000x64.size a
  hwx3_0 : ∀ i : grid3.Coords, EltTy.bits .f32 = 32 ∨ (Rect.block (s := S50000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x64.size a ≤ S50000x64.size a
  hwx3_1 : ∀ i : grid3.Coords, EltTy.bits .f32 = 32 ∨ (Rect.block (s := S50000x64) S5000x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x1.size a ≤ S1x1.size a
  hwx3_2 : ∀ i : grid3.Coords, EltTy.bits .f32 = 32 ∨ (Rect.block (s := S1x1) S1x1.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x128.size a ≤ S50000x128.size a
  hwx3_3 : ∀ i : grid3.Coords, EltTy.bits .f32 = 32 ∨ (Rect.block (s := S50000x128) S5000x128.size (cc3_transform_3 i) (hinb3_3 i)).WholeWords (EltTy.packing .f32)

variable [Facts₀]

def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x1_S800000x1_S800000x1_1_0_0_1 : ScatterDims S50000x1 S800000x1 S800000x1 where
  updateWindowDims := [1]
  insertedWindowDims := [0]
  scatterDimsToOperandDims := [0]
  indexVectorDim := 1
  wf := scatter_S50000x1_S800000x1_S800000x1_1_0_0_1_wf
def gather_S50000x1_S800000x1_S800000x1_1_0_n_n_0_1_11 : GatherDims S50000x1 S800000x1 S800000x1 where
  offsetDims := [1]
  collapsedSliceDims := [0]
  operandBatchingDims := []
  startIndicesBatchingDims := []
  startIndexMap := [0]
  indexVectorDim := 1
  sliceSizes := ![1, 1]
  wf := gather_S50000x1_S800000x1_S800000x1_1_0_n_n_0_1_11_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v16) S16000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v23) S16000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v5) S16000x32.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v25) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v27) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v29) S1x32.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v30) S16000x1.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v23) S16000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v42) S16000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v44) S16000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v47) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v1) S5000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v48) S1x1.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v49) S5000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S50000x128 : Shape := ⟨2, ![50000, 128]⟩
abbrev S400000x32 : Shape := ⟨2, ![400000, 32]⟩
abbrev S2x400000 : Shape := ⟨2, ![2, 400000]⟩
abbrev S128x64 : Shape := ⟨2, ![128, 64]⟩
abbrev S64 : Shape := ⟨1, ![64]⟩
abbrev S160x1 : Shape := ⟨2, ![160, 1]⟩
abbrev S_ : Shape := ⟨0, ![]⟩
abbrev S400000x2 : Shape := ⟨2, ![400000, 2]⟩
abbrev S800000x2 : Shape := ⟨2, ![800000, 2]⟩
abbrev S800000x32 : Shape := ⟨2, ![800000, 32]⟩
abbrev S800000x1 : Shape := ⟨2, ![800000, 1]⟩
abbrev S800000 : Shape := ⟨1, ![800000]⟩
abbrev S50000x64 : Shape := ⟨2, ![50000, 64]⟩
abbrev S1x64 : Shape := ⟨2, ![1, 64]⟩
abbrev S800000x64 : Shape := ⟨2, ![800000, 64]⟩
abbrev S800000x160 : Shape := ⟨2, ![800000, 160]⟩
abbrev S50000x1 : Shape := ⟨2, ![50000, 1]⟩
abbrev S1x1 : Shape := ⟨2, ![1, 1]⟩
abbrev S50000 : Shape := ⟨1, ![50000]⟩

abbrev nBuf : Space → Nat
  | .hbm => 119
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S400000x32, .f32⟩
  | .hbm, ⟨2, _⟩ => ⟨S2x400000, .i32⟩
  | .hbm, ⟨3, _⟩ => ⟨S128x64, .f32⟩
  | .hbm, ⟨4, _⟩ => ⟨S64, .f32⟩
  | .hbm, ⟨5, _⟩ => ⟨S160x1, .f32⟩
  | .hbm, ⟨6, _⟩ => ⟨S_, .f32⟩
  | .hbm, ⟨7, _⟩ => ⟨S400000x2, .i32⟩
  | .hbm, ⟨8, _⟩ => ⟨S400000x2, .i32⟩
  | .hbm, ⟨9, _⟩ => ⟨S800000x2, .i32⟩
  | .hbm, ⟨10, _⟩ => ⟨S800000x32, .f32⟩
  | .hbm, ⟨11, _⟩ => ⟨S800000x1, .i32⟩
  | .hbm, ⟨12, _⟩ => ⟨S800000, .i32⟩
  | .hbm, ⟨13, _⟩ => ⟨S800000x1, .i32⟩
  | .hbm, ⟨14, _⟩ => ⟨S800000, .i32⟩
  | .hbm, ⟨15, _⟩ => ⟨S50000x64, .f32⟩
  | .hbm, ⟨16, _⟩ => ⟨S1x64, .f32⟩
  | .hbm, ⟨17, _⟩ => ⟨S50000x64, .f32⟩
  | .hbm, ⟨18, _⟩ => ⟨S50000x64, .f32⟩
  | .hbm, ⟨19, _⟩ => ⟨S_, .i32⟩
  | .hbm, ⟨20, _⟩ => ⟨S800000, .i32⟩
  | .hbm, ⟨21, _⟩ => ⟨S800000, .i1⟩
  | .hbm, ⟨22, _⟩ => ⟨S_, .i32⟩
  | .hbm, ⟨23, _⟩ => ⟨S800000, .i32⟩
  | .hbm, ⟨24, _⟩ => ⟨S800000, .i32⟩
  | .hbm, ⟨25, _⟩ => ⟨S800000, .i32⟩
  | .hbm, ⟨26, _⟩ => ⟨S800000x1, .i32⟩
  | .hbm, ⟨27, _⟩ => ⟨S800000x64, .f32⟩
  | .hbm, ⟨28, _⟩ => ⟨S_, .i32⟩
  | .hbm, ⟨29, _⟩ => ⟨S800000, .i32⟩
  | .hbm, ⟨30, _⟩ => ⟨S800000, .i1⟩
  | .hbm, ⟨31, _⟩ => ⟨S_, .i32⟩
  | .hbm, ⟨32, _⟩ => ⟨S800000, .i32⟩
  | .hbm, ⟨33, _⟩ => ⟨S800000, .i32⟩
  | .hbm, ⟨34, _⟩ => ⟨S800000, .i32⟩
  | .hbm, ⟨35, _⟩ => ⟨S800000x1, .i32⟩
  | .hbm, ⟨36, _⟩ => ⟨S800000x64, .f32⟩
  | .hbm, ⟨37, _⟩ => ⟨S800000x160, .f32⟩
  | .hbm, ⟨38, _⟩ => ⟨S800000x1, .f32⟩
  | .hbm, ⟨39, _⟩ => ⟨S_, .f32⟩
  | .hbm, ⟨40, _⟩ => ⟨S_, .f32⟩
  | .hbm, ⟨41, _⟩ => ⟨S800000x1, .f32⟩
  | .hbm, ⟨42, _⟩ => ⟨S800000x1, .i1⟩
  | .hbm, ⟨43, _⟩ => ⟨S_, .f32⟩
  | .hbm, ⟨44, _⟩ => ⟨S800000x1, .f32⟩
  | .hbm, ⟨45, _⟩ => ⟨S800000x1, .f32⟩
  | .hbm, ⟨46, _⟩ => ⟨S800000x1, .f32⟩
  | .hbm, ⟨47, _⟩ => ⟨S800000x1, .f32⟩
  | .hbm, ⟨48, _⟩ => ⟨S_, .f32⟩
  | .hbm, ⟨49, _⟩ => ⟨S50000x1, .f32⟩
  | .hbm, ⟨50, _⟩ => ⟨S800000x1, .i32⟩
  | .hbm, ⟨51, _⟩ => ⟨S50000x1, .f32⟩
  | .hbm, ⟨52, _⟩ => ⟨S_, .i32⟩
  | .hbm, ⟨53, _⟩ => ⟨S800000, .i32⟩
  | .hbm, ⟨54, _⟩ => ⟨S800000, .i1⟩
  | .hbm, ⟨55, _⟩ => ⟨S_, .i32⟩
  | .hbm, ⟨56, _⟩ => ⟨S800000, .i32⟩
  | .hbm, ⟨57, _⟩ => ⟨S800000, .i32⟩
  | .hbm, ⟨58, _⟩ => ⟨S800000, .i32⟩
  | .hbm, ⟨59, _⟩ => ⟨S800000x1, .i32⟩
  | .hbm, ⟨60, _⟩ => ⟨S800000x1, .f32⟩
  | .hbm, ⟨61, _⟩ => ⟨S800000x1, .f32⟩
  | .hbm, ⟨62, _⟩ => ⟨S800000x1, .f32⟩
  | .hbm, ⟨63, _⟩ => ⟨S_, .i32⟩
  | .hbm, ⟨64, _⟩ => ⟨S_, .f32⟩
  | .hbm, ⟨65, _⟩ => ⟨S_, .f32⟩
  | .hbm, ⟨66, _⟩ => ⟨S1x1, .f32⟩
  | .hbm, ⟨67, _⟩ => ⟨S_, .f32⟩
  | .hbm, ⟨68, _⟩ => ⟨S1x1, .f32⟩
  | .hbm, ⟨69, _⟩ => ⟨S1x1, .f32⟩
  | .hbm, ⟨70, _⟩ => ⟨S800000x1, .f32⟩
  | .hbm, ⟨71, _⟩ => ⟨S800000x1, .f32⟩
  | .hbm, ⟨72, _⟩ => ⟨S800000x1, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S_, .i1⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S_, .i32⟩
  | .hbm, ⟨85, _⟩ => ⟨S800000, .i32⟩
  | .hbm, ⟨86, _⟩ => ⟨S800000, .i1⟩
  | .hbm, ⟨87, _⟩ => ⟨S_, .i32⟩
  | .hbm, ⟨88, _⟩ => ⟨S800000, .i32⟩
  | .hbm, ⟨89, _⟩ => ⟨S800000, .i32⟩
  | .hbm, ⟨90, _⟩ => ⟨S800000, .i32⟩
  | .hbm, ⟨91, _⟩ => ⟨S800000x1, .i32⟩
  | .hbm, ⟨92, _⟩ => ⟨S800000x64, .f32⟩
  | .hbm, ⟨93, _⟩ => ⟨S800000x64, .f32⟩
  | .hbm, ⟨94, _⟩ => ⟨S800000x64, .f32⟩
  | .hbm, ⟨95, _⟩ => ⟨S_, .f32⟩
  | .hbm, ⟨96, _⟩ => ⟨S50000x64, .f32⟩
  | .hbm, ⟨97, _⟩ => ⟨S800000x1, .i32⟩
  | .hbm, ⟨98, _⟩ => ⟨S50000x64, .f32⟩
  | .hbm, ⟨99, _⟩ => ⟨S50000x64, .f32⟩
  | .hbm, ⟨100, _⟩ => ⟨S_, .f32⟩
  | .hbm, ⟨101, _⟩ => ⟨S50000, .f32⟩
  | .hbm, ⟨102, _⟩ => ⟨S50000x1, .f32⟩
  | .hbm, ⟨103, _⟩ => ⟨S50000x1, .f32⟩
  | .hbm, ⟨104, _⟩ => ⟨S_, .f32⟩
  | .hbm, ⟨105, _⟩ => ⟨S50000x1, .f32⟩
  | .hbm, ⟨106, _⟩ => ⟨S50000x1, .f32⟩
  | .hbm, ⟨107, _⟩ => ⟨S50000x64, .f32⟩
  | .hbm, ⟨108, _⟩ => ⟨S50000x64, .f32⟩
  | .hbm, ⟨109, _⟩ => ⟨S50000x64, .f32⟩
  | .hbm, ⟨110, _⟩ => ⟨S_, .f32⟩
  | .hbm, ⟨111, _⟩ => ⟨S50000, .f32⟩
  | .hbm, ⟨112, _⟩ => ⟨S50000x1, .f32⟩
  | .hbm, ⟨113, _⟩ => ⟨S50000x1, .f32⟩
  | .hbm, ⟨114, _⟩ => ⟨S50000x64, .f32⟩
  | .hbm, ⟨115, _⟩ => ⟨S50000x64, .f32⟩
  | .hbm, ⟨116, _⟩ => ⟨S50000x64, .f32⟩
  | .hbm, ⟨117, _⟩ => ⟨S50000x64, .f32⟩
  | .hbm, ⟨118, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_c : Ref sig .tc := ⟨.hbm, 19, rfl⟩
abbrev main_v12 : Ref sig .tc := ⟨.hbm, 20, rfl⟩
abbrev main_v13 : Ref sig .tc := ⟨.hbm, 21, rfl⟩
abbrev main_c_0 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_c_1 : Ref sig .tc := ⟨.hbm, 28, rfl⟩
abbrev main_v19 : Ref sig .tc := ⟨.hbm, 29, rfl⟩
abbrev main_v20 : Ref sig .tc := ⟨.hbm, 30, rfl⟩
abbrev main_c_2 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst : Ref sig .tc := ⟨.hbm, 39, rfl⟩
abbrev main_call0_cst : Ref sig .tc := ⟨.hbm, 40, rfl⟩
abbrev main_call0_v0 : Ref sig .tc := ⟨.hbm, 41, rfl⟩
abbrev main_call0_v1 : Ref sig .tc := ⟨.hbm, 42, rfl⟩
abbrev main_call0_v2 : Ref sig .tc := ⟨.hbm, 43, rfl⟩
abbrev main_call0_v3 : Ref sig .tc := ⟨.hbm, 44, rfl⟩
abbrev main_call0_v4 : Ref sig .tc := ⟨.hbm, 45, rfl⟩
abbrev main_v28 : Ref sig .tc := ⟨.hbm, 46, rfl⟩
abbrev main_v29 : Ref sig .tc := ⟨.hbm, 47, rfl⟩
abbrev main_cst_3 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_c_4 : Ref sig .tc := ⟨.hbm, 52, rfl⟩
abbrev main_v33 : Ref sig .tc := ⟨.hbm, 53, rfl⟩
abbrev main_v34 : Ref sig .tc := ⟨.hbm, 54, rfl⟩
abbrev main_c_5 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_c_6 : Ref sig .tc := ⟨.hbm, 63, rfl⟩
abbrev main_call1_cst : Ref sig .tc := ⟨.hbm, 64, rfl⟩
abbrev main_call1_v0 : Ref sig .tc := ⟨.hbm, 65, rfl⟩
abbrev main_call1_v1 : Ref sig .tc := ⟨.hbm, 66, rfl⟩
abbrev main_call1_cst_0 : Ref sig .tc := ⟨.hbm, 67, rfl⟩
abbrev main_call1_v2 : Ref sig .tc := ⟨.hbm, 68, rfl⟩
abbrev main_call1_v3 : Ref sig .tc := ⟨.hbm, 69, rfl⟩
abbrev main_call1_v4 : Ref sig .tc := ⟨.hbm, 70, rfl⟩
abbrev main_call1_v5 : Ref sig .tc := ⟨.hbm, 71, rfl⟩
abbrev main_call1_v6 : Ref sig .tc := ⟨.hbm, 72, rfl⟩
abbrev main_call1_v7 : Ref sig .tc := ⟨.hbm, 73, rfl⟩
abbrev main_call1_cst_1 : Ref sig .tc := ⟨.hbm, 74, rfl⟩
abbrev main_call1_v8 : Ref sig .tc := ⟨.hbm, 75, rfl⟩
abbrev main_call1_cst_2 : Ref sig .tc := ⟨.hbm, 76, rfl⟩
abbrev main_call1_v9 : Ref sig .tc := ⟨.hbm, 77, rfl⟩
abbrev main_call1_v10 : Ref sig .tc := ⟨.hbm, 78, rfl⟩
abbrev main_call1_cst_3 : Ref sig .tc := ⟨.hbm, 79, rfl⟩
abbrev main_call1_v11 : Ref sig .tc := ⟨.hbm, 80, rfl⟩
abbrev main_call1_cst_4 : Ref sig .tc := ⟨.hbm, 81, rfl⟩
abbrev main_call1_call0_v0 : Ref sig .tc := ⟨.hbm, 82, rfl⟩
abbrev main_v42 : Ref sig .tc := ⟨.hbm, 83, rfl⟩
abbrev main_c_7 : Ref sig .tc := ⟨.hbm, 84, rfl⟩
abbrev main_v43 : Ref sig .tc := ⟨.hbm, 85, rfl⟩
abbrev main_v44 : Ref sig .tc := ⟨.hbm, 86, rfl⟩
abbrev main_c_8 : Ref sig .tc := ⟨.hbm, 87, rfl⟩
abbrev main_v45 : Ref sig .tc := ⟨.hbm, 88, rfl⟩
abbrev main_v46 : Ref sig .tc := ⟨.hbm, 89, rfl⟩
abbrev main_v47 : Ref sig .tc := ⟨.hbm, 90, rfl⟩
abbrev main_v48 : Ref sig .tc := ⟨.hbm, 91, rfl⟩
abbrev main_v49 : Ref sig .tc := ⟨.hbm, 92, rfl⟩
abbrev main_v50 : Ref sig .tc := ⟨.hbm, 93, rfl⟩
abbrev main_v51 : Ref sig .tc := ⟨.hbm, 94, rfl⟩
abbrev main_cst_9 : Ref sig .tc := ⟨.hbm, 95, rfl⟩
abbrev main_v52 : Ref sig .tc := ⟨.hbm, 96, rfl⟩
abbrev main_v53 : Ref sig .tc := ⟨.hbm, 97, rfl⟩
abbrev main_v54 : Ref sig .tc := ⟨.hbm, 98, rfl⟩
abbrev main_call2_v0 : Ref sig .tc := ⟨.hbm, 99, rfl⟩
abbrev main_call2_cst : Ref sig .tc := ⟨.hbm, 100, rfl⟩
abbrev main_call2_v1 : Ref sig .tc := ⟨.hbm, 101, rfl⟩
abbrev main_call2_v2 : Ref sig .tc := ⟨.hbm, 102, rfl⟩
abbrev main_v55 : Ref sig .tc := ⟨.hbm, 103, rfl⟩
abbrev main_cst_10 : Ref sig .tc := ⟨.hbm, 104, rfl⟩
abbrev main_v56 : Ref sig .tc := ⟨.hbm, 105, rfl⟩
abbrev main_v57 : Ref sig .tc := ⟨.hbm, 106, rfl⟩
abbrev main_v58 : Ref sig .tc := ⟨.hbm, 107, rfl⟩
abbrev main_v59 : Ref sig .tc := ⟨.hbm, 108, rfl⟩
abbrev main_call3_v0 : Ref sig .tc := ⟨.hbm, 109, rfl⟩
abbrev main_call3_cst : Ref sig .tc := ⟨.hbm, 110, rfl⟩
abbrev main_call3_v1 : Ref sig .tc := ⟨.hbm, 111, rfl⟩
abbrev main_call3_v2 : Ref sig .tc := ⟨.hbm, 112, rfl⟩
abbrev main_v60 : Ref sig .tc := ⟨.hbm, 113, rfl⟩
abbrev main_v61 : Ref sig .tc := ⟨.hbm, 114, rfl⟩
abbrev main_v62 : Ref sig .tc := ⟨.hbm, 115, rfl⟩
abbrev main_v63 : Ref sig .tc := ⟨.hbm, 116, rfl⟩
abbrev main_v64 : Ref sig .tc := ⟨.hbm, 117, rfl⟩
abbrev main_v65 : Ref sig .tc := ⟨.hbm, 118, rfl⟩

abbrev nD : Nat := 1
abbrev τ : Topo := Topo.v7x

variable {F : FTy → Type} [FloatOps F]

class Facts₀ : Prop where
  shapeCasts_S2x400000_S400000x2 : S2x400000.ShapeCasts S400000x2
  concatenates_S400000x2_S400000x2_S800000x2_d0 : Shape.Concatenates [S400000x2, S400000x2] S800000x2 0
  concatenates_S400000x32_S400000x32_S800000x32_d0 : Shape.Concatenates [S400000x32, S400000x32] S800000x32 0
  slices_S800000x2_S800000x1_0_0 : S800000x2.Slices ![0, 0] S800000x1
  shapeCasts_S800000x1_S800000 : S800000x1.ShapeCasts S800000
  slices_S800000x2_S800000x1_0_1 : S800000x2.Slices ![0, 1] S800000x1
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S800000 : S_.BroadcastsInDim S800000 (![] : Fin 0 → Fin S800000.rank)
  bcast_S800000_S800000x1_0 : S800000.BroadcastsInDim S800000x1 (![0] : Fin 1 → Fin S800000x1.rank)
  concatenates_S800000x64_S800000x64_S800000x32_S800000x160_d1 : Shape.Concatenates [S800000x64, S800000x64, S800000x32] S800000x160 1
  bcast_S_S800000x1 : S_.BroadcastsInDim S800000x1 (![] : Fin 0 → Fin S800000x1.rank)
  bcast_S_S50000x1 : S_.BroadcastsInDim S50000x1 (![] : Fin 0 → Fin S50000x1.rank)
  reducesTo_S800000x1_S_d0_1 : S800000x1.ReducesTo [0, 1] S_
  h_S_ : 0 < S_.numel
  bcast_S_S1x1 : S_.BroadcastsInDim S1x1 (![] : Fin 0 → Fin S1x1.rank)
  bcast_S1x1_S800000x1_0_1 : S1x1.BroadcastsInDim S800000x1 (![0, 1] : Fin 2 → Fin S800000x1.rank)
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  reducesTo_S50000x64_S50000_d1 : S50000x64.ReducesTo [1] S50000
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  concatenates_S50000x64_S50000x64_S50000x128_d1 : Shape.Concatenates [S50000x64, S50000x64] S50000x128 1
  dot_S50000x128_S128x64_S50000x64_1_0_0_1_n_n_wf : DotDims.WF S50000x128 S128x64 S50000x64 [1] [0] [0] [1] [] []
  gather_S50000x64_S800000x1_S800000x64_1_0_n_n_0_1_164_wf : GatherDims.WF S50000x64 S800000x1 S800000x64 [1] [0] [] [0] [] 1 ![1, 64]
  dot_S800000x160_S160x1_S800000x1_1_0_0_1_n_n_wf : DotDims.WF S800000x160 S160x1 S800000x1 [1] [0] [0] [1] [] []
  scatter_S50000x1_S800000x1_S800000x1_1_0_0_1_wf : ScatterDims.WF S50000x1 S800000x1 S800000x1 [1] [0] [0] 1
  gather_S50000x1_S800000x1_S800000x1_1_0_n_n_0_1_11_wf : GatherDims.WF S50000x1 S800000x1 S800000x1 [1] [0] [] [0] [] 1 ![1, 1]
  scatter_S50000x64_S800000x1_S800000x64_1_0_0_1_wf : ScatterDims.WF S50000x64 S800000x1 S800000x64 [1] [0] [0] 1

variable [Facts₀]

def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S800000x160_S160x1_S800000x1_1_0_0_1_n_n : DotDims S800000x160 S160x1 S800000x1 where
  lhsContracting := [1]
  rhsContracting := [0]
  lhsNonContracting := [0]
  rhsNonContracting := [1]
  lhsBatch := []
  rhsBatch := []
  wf := dot_S800000x160_S160x1_S800000x1_1_0_0_1_n_n_wf
def scatter_S50000x1_S800000x1_S800000x1_1_0_0_1 : ScatterDims S50000x1 S800000x1 S800000x1 where
  updateWindowDims := [1]
  insertedWindowDims := [0]
  scatterDimsToOperandDims := [0]
  indexVectorDim := 1
  wf := scatter_S50000x1_S800000x1_S800000x1_1_0_0_1_wf
def gather_S50000x1_S800000x1_S800000x1_1_0_n_n_0_1_11 : GatherDims S50000x1 S800000x1 S800000x1 where
  offsetDims := [1]
  collapsedSliceDims := [0]
  operandBatchingDims := []
  startIndicesBatchingDims := []
  startIndexMap := [0]
  indexVectorDim := 1
  sliceSizes := ![1, 1]
  wf := gather_S50000x1_S800000x1_S800000x1_1_0_n_n_0_1_11_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

class Facts : Prop extends Facts₀ where

variable [Facts]
-- ==== Proof.Spec.lean ====
/-
  The reference's computation, stage by stage, as named functions of whole arrays at the ideal instance.

  One graph-attention layer over N = 50000 nodes and 2E = 800000 directed edges (each of the E listed pairs taken in
  both directions). With h = x · W + b the projected node rows, s and d the source and destination node of every
  directed edge, and a the attention vector over the concatenation [h_s, h_d, edge features]:
    att   = exp (leakyRelu ([h_s, h_d, ef] · a))                     one positive weight per directed edge
    attN  = log (att / Σ_{edges with the same source} att)            the log of the softmax over a node's out-edges
    var   = the unbiased variance of attN over all directed edges
    msg_n = Σ_{edges with source n} h_d · attN                        the aggregated message of node n
    out   = [h, msg / max (‖msg‖, ε) · ‖h‖ · scale]                   the message norm, beside h
  Every function below is one of these stages, written with the host operations the reference itself uses, so that
  the reference's run ends at `final` and `variance` of its arguments by reading its operations in order. The gathers,
  the scatter-adds, the integer index chains and the variance are never opened: both programs apply the same ones.
-/
import proofs.«138567_j75642964017820_1_alg».proof.ReferenceIdeal
import Idealize.ShloMosaic.PureOps.Ideal

noncomputable section

namespace Cert.Spec

open Idealize.ShloMosaic Cert.ReferenceIdeal
open Cert.ReferenceIdeal.Facts₀ Cert.ReferenceIdeal.Facts

variable [Cert.ReferenceIdeal.Facts]

/-- A float array at the ideal instance: one extended real per index. -/
abbrev FV (S : Shape) : Type := FVec Ideal S .f32
/-- A 32-bit integer array. -/
abbrev IV (S : Shape) : Type := IVec S 32

/-! ## The edge list: both directions of every pair, as (source, destination) columns -/

/-- The E pairs read row-major out of the 2 × E table, followed by the same pairs reversed: 2E directed edges. -/
def pairs (e : IV S2x400000) : IV S800000x2 :=
  concatenate S800000x2 0
    [⟨S400000x2, shapeCast S400000x2 e shapeCasts_S2x400000_S400000x2⟩,
     ⟨S400000x2, Host.reverse [1] (shapeCast S400000x2 e shapeCasts_S2x400000_S400000x2)⟩]
    concatenates_S400000x2_S400000x2_S800000x2_d0

/-- The source node of every directed edge. -/
def src (e : IV S2x400000) : IV S800000 :=
  shapeCast S800000 (extractStridedSlice S800000x1 ![0, 0] (pairs e) slices_S800000x2_S800000x1_0_0) shapeCasts_S800000x1_S800000

/-- The destination node of every directed edge. -/
def dst (e : IV S2x400000) : IV S800000 :=
  shapeCast S800000 (extractStridedSlice S800000x1 ![0, 1] (pairs e) slices_S800000x2_S800000x1_0_1) shapeCasts_S800000x1_S800000

/-- A node index as a gather reads it: a negative index counts from the end (n ↦ n + 50000), as a column. -/
def wrap (s : IV S800000) : IV S800000x1 :=
  broadcastInDim S800000x1 ![0] bcast_S800000_S800000x1_0
    (select (cmpi .slt s (broadcastInDim S800000 ![] bcast_S_S800000 (constantI S_ 32 0#32)))
      (addi s (broadcastInDim S800000 ![] bcast_S_S800000 (constantI S_ 32 50000#32))) s)

/-- A node index as a scatter reads it: the index itself, as a column. -/
def col (s : IV S800000) : IV S800000x1 :=
  broadcastInDim S800000x1 ![0] bcast_S800000_S800000x1_0 s

/-- The rows of a node table at the nodes `s` names, one per directed edge. -/
def rows (h : FV S50000x64) (s : IV S800000) : FV S800000x64 :=
  Host.gather gather_S50000x64_S800000x1_S800000x64_1_0_n_n_0_1_164 h (wrap s)

/-- The edge features once per direction. -/
def both (ef : FV S400000x32) : FV S800000x32 :=
  concatenate S800000x32 0 [⟨S400000x32, ef⟩, ⟨S400000x32, ef⟩] concatenates_S400000x32_S400000x32_S800000x32_d0

/-! ## The stages -/

/-- The projected node rows h = x · W + b. -/
def hv (x : FV S50000x128) (W : FV S128x64) (b : FV S64) : FV S50000x64 :=
  addf (Host.dotGeneral dot_S50000x128_S128x64_S50000x64_1_0_0_1_n_n none x W)
    (broadcastInDim S50000x64 ![0, 1] bcast_S1x64_S50000x64_0_1 (broadcastInDim S1x64 ![1] bcast_S64_S1x64_1 b))

/-- leakyRelu with slope 0.2: s where s ≥ 0, else 0.2 · s. -/
def leaky (s : FV S800000x1) : FV S800000x1 :=
  select (cmpf .oge s (broadcastInDim S800000x1 ![] bcast_S_S800000x1 (constant S_ .f32 0x00000000#32))) s
    (mulf (broadcastInDim S800000x1 ![] bcast_S_S800000x1 (id (constant S_ .f32 0x3E4CCCCD#32))) s)

/-- The attention weight of every directed edge: exp (leakyRelu ([h_s, h_d, ef] · a)). -/
def att (hs hd : FV S800000x64) (ef : FV S800000x32) (a : FV S160x1) : FV S800000x1 :=
  Host.exp (leaky (Host.dotGeneral dot_S800000x160_S160x1_S800000x1_1_0_0_1_n_n none
    (concatenate S800000x160 1 [⟨S800000x64, hs⟩, ⟨S800000x64, hd⟩, ⟨S800000x32, ef⟩]
      concatenates_S800000x64_S800000x64_S800000x32_S800000x160_d1) a))

/-- log (att / the sum of att over the edges with the same source). -/
def attNorm (s : IV S800000) (w : FV S800000x1) : FV S800000x1 :=
  Host.log (Host.divf w
    (Host.gather gather_S50000x1_S800000x1_S800000x1_1_0_n_n_0_1_11
      (Host.scatterAdd scatter_S50000x1_S800000x1_S800000x1_1_0_0_1
        (broadcastInDim S50000x1 ![] bcast_S_S50000x1 (constant S_ .f32 0x00000000#32)) (col s) w)
      (wrap s)))

/-- The mean of an array over all 800000 edges, as a 1 × 1 array. -/
def mean (v : FV S800000x1) : FV S1x1 :=
  Host.divf (broadcastInDim S1x1 ![] bcast_S_S1x1 (Host.reduceAdd v (constant S_ .f32 0x00000000#32) reducesTo_S800000x1_S_d0_1 h_S_))
    (broadcastInDim S1x1 ![] bcast_S_S1x1 (constant S_ .f32 0x49435000#32))

/-- The squared deviations from the mean. -/
def sqdev (v : FV S800000x1) : FV S800000x1 :=
  mulf (subf v (broadcastInDim S800000x1 ![0, 1] bcast_S1x1_S800000x1_0_1 (mean v)))
    (subf v (broadcastInDim S800000x1 ![0, 1] bcast_S1x1_S800000x1_0_1 (mean v)))

/-- The divisor 800000 − 1 of the unbiased variance. -/
def dof : FV S_ :=
  subf (constant S_ .f32 0x49435000#32) (sitofp .f32 (constantI S_ 32 1#32))

/-- The unbiased variance over all directed edges (the library's own guard "divisor > 0, else not-a-number" kept). -/
def var (v : FV S800000x1) : FV S_ :=
  select (cmpf .ogt dof (constant S_ .f32 0x00000000#32))
    (Host.divf (Host.reduceAdd (sqdev v) (constant S_ .f32 0x00000000#32) reducesTo_S800000x1_S_d0_1 h_S_) dof)
    (id (constant S_ .f32 0x7FC00000#32))

/-- One directed edge's contribution to its source's message: h_d · attN. -/
def contrib (hd : FV S800000x64) (an : FV S800000x1) : FV S800000x64 :=
  mulf hd (broadcastInDim S800000x64 ![0, 1] bcast_S800000x1_S800000x64_0_1 an)

/-- The contributions summed per source node. -/
def msg (s : IV S800000) (mc : FV S800000x64) : FV S50000x64 :=
  Host.scatterAdd scatter_S50000x64_S800000x1_S800000x64_1_0_0_1
    (broadcastInDim S50000x64 ![] bcast_S_S50000x64 (constant S_ .f32 0x00000000#32)) (col s) mc

/-- The Euclidean norm of every row, as a column. -/
def norm (h : FV S50000x64) : FV S50000x1 :=
  Host.sqrt (broadcastInDim S50000x1 ![0] bcast_S50000_S50000x1_0
    (Host.reduceAdd (mulf h h) (constant S_ .f32 0x00000000#32) reducesTo_S50000x64_S50000_d1 h_S_))

/-- The normalised message, rescaled: msg / max (‖msg‖, ε) · ‖h‖ · scale. -/
def agg (mg h : FV S50000x64) (sc : FV S_) : FV S50000x64 :=
  mulf (mulf (Host.divf mg (broadcastInDim S50000x64 ![0, 1] bcast_S50000x1_S50000x64_0_1
      (maximumf (norm mg) (broadcastInDim S50000x1 ![] bcast_S_S50000x1 (constant S_ .f32 0x2B8CBCCC#32)))))
    (broadcastInDim S50000x64 ![0, 1] bcast_S50000x1_S50000x64_0_1 (norm h)))
    (broadcastInDim S50000x64 ![] bcast_S_S50000x64 sc)

/-- The embedding: h beside the rescaled message. -/
def embed (mg h : FV S50000x64) (sc : FV S_) : FV S50000x128 :=
  concatenate S50000x128 1 [⟨S50000x64, h⟩, ⟨S50000x64, agg mg h sc⟩] concatenates_S50000x64_S50000x64_S50000x128_d1

/-! ## The whole computation -/

/-- The log-softmax attention of every directed edge, from the arguments. -/
def attN (x : FV S50000x128) (ef : FV S400000x32) (e : IV S2x400000) (W : FV S128x64) (b : FV S64) (a : FV S160x1) : FV S800000x1 :=
  attNorm (src e) (att (rows (hv x W b) (src e)) (rows (hv x W b) (dst e)) (both ef) a)

/-- The first result. -/
def final (x : FV S50000x128) (ef : FV S400000x32) (e : IV S2x400000) (W : FV S128x64) (b : FV S64) (a : FV S160x1) (sc : FV S_) : FV S50000x128 :=
  embed (msg (src e) (contrib (rows (hv x W b) (dst e)) (attN x ef e W b a))) (hv x W b) sc

/-- The second result. -/
def variance (x : FV S50000x128) (ef : FV S400000x32) (e : IV S2x400000) (W : FV S128x64) (b : FV S64) (a : FV S160x1) : FV S_ :=
  var (attN x ef e W b a)

end Cert.Spec

end
-- ==== Proof.Stage0.lean ====
/- Region 0 (the projection): the array the pipeline leaves is h = x · W + b of the region's inputs. -/
import proofs.«138567_j75642964017820_1_alg».proof.Proof.Gen.KernelIdeal.Frame
import proofs.«138567_j75642964017820_1_alg».proof.Proof.Gen.ReferenceIdeal
import proofs.«138567_j75642964017820_1_alg».proof.Proof.Spec
import Idealize.ShloMosaic.Lib.Pipeline.Value
import Idealize.ShloMosaic.Lib.KernelVsHost
import Idealize.ShloMosaic.Lib.StackMember

noncomputable section

namespace Cert.Stage0

open Idealize.ShloMosaic Idealize.ShloMosaic.TcCoe Idealize.SL.Sem
open Idealize.ShloMosaic.ValueIdx Idealize.ShloMosaic.StackMember
open Cert.KernelIdeal Cert.KernelIdeal.Gen

/-- The TensorCore's buffer contents when the region is entered: a parameter. -/
abbrev Vals : Type := (c : Dev nD) → (b : Ref sig .tc) → Buf (Elt Ideal) ((c : Thread nD τ).loc b)

/-! ## One entry of h, on each side

Both sides are a row of x against a column of W, summed over the 128 shared coordinates, plus one bias entry. -/

/-- The projected rows at node r and feature q: the sum over k of x[r,k] · W[k,q], plus b[q]. The bias reaches
    every row through a one-row matrix, whose row 0 is b. -/
theorem hv_apply (x : FVec Ideal S50000x128 .f32) (W : FVec Ideal S128x64 .f32) (b : FVec Ideal S64 .f32)
    (r : Fin 50000) (q : Fin 64) :
    Cert.Spec.hv x W b (ix2 r q) = (∑ k : Fin 128, x (ix2 r k) * W (ix2 k q)) + b (ix1 q) := by
  unfold Cert.Spec.hv
  rw [addf_apply]
  congr 1
  · exact dotGeneral_plain_apply (m := 50000) (k := 128) (n := 64) none x W r q
  · rw [broadcastInDim_oneRow_apply]
    refine broadcastInDim_apply ![1] _ b (ix2 (0 : Fin 1) q) (ix1 q) ?_
    intro a
    match a with
    | ⟨0, _⟩ => rfl

/-- What the body computes from a block of 5000 rows of x, the whole of W and the bias row, at row p of the block
    and feature q: the same sum over k, plus the bias row's entry q. Narrowing x and W to bf16 changes nothing at
    the extended reals, and the product accumulates into zero. -/
theorem body_apply (x0 : Vec Ideal S5000x128 .f32) (x1 : Vec Ideal S128x64 .f32) (x2 : Vec Ideal S1x64 .f32)
    (p : Fin 5000) (q : Fin 64) :
    k0_pay1 x0 x1 x2 (ix2 p q) = (∑ k : Fin 128, x0 (ix2 p k) * x1 (ix2 k q)) + x2 (ix2 (0 : Fin 1) q) := by
  unfold k0_pay1
  show addf (F := Ideal) (matmul dot_S5000x128_S128x64_S5000x64_1_0_0_1_n_n none (truncf .bf16 x0 bitsLt_bf16_f32)
        (truncf .bf16 x1 bitsLt_bf16_f32) (constant S5000x64 .f32 0x00000000#32))
      (broadcastTo S5000x64 (shapeCast S1x64 (x2 : FVec Ideal S1x64 .f32) shapeCasts_S1x64_S1x64)
        broadcasts_S1x64_S5000x64) (ix2 p q) = _
  rw [addf_apply, matmul_zero_eq_dotGeneral, shapeCast_self]
  congr 1
  · exact dotGeneral_plain_apply (m := 5000) (k := 128) (n := 64) none
      (truncf .bf16 x0 bitsLt_bf16_f32) (truncf .bf16 x1 bitsLt_bf16_f32) p q
  · refine broadcastTo_apply x2 _ (ix2 p q) (ix2 (0 : Fin 1) q) ?_
    intro a
    match a with
    | ⟨0, _⟩ => rfl
    | ⟨1, _⟩ => rfl

/-! ## The blocks of the four windows

The grid has ten points. At point t the x window holds rows 5000 t … 5000 t + 4999 of x and the output window
writes the same rows of the result; the W window and the bias window hold their whole arrays at every point. -/

theorem hz : (![0, 0] : Fin 2 → Nat) = fun _ => 0 := funext fun a => by fin_cases a <;> rfl

/-- The block indices, decided over the ten points: (t, 0) for x and for the output, (0, 0) for W and the bias row. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row p of x's block at point t is row 5000 t + p of x. -/
theorem xblk_apply (V : Vals) (c : Dev nD) (t : Fin cfg0.N) (p : Fin 5000) (k : Fin 128) (r : Fin 50000)
    (hr : r.val = t.val * 5000 + p.val) :
    (iblk0 V c 0 t : Vec Ideal S5000x128 .f32) (ix2 p k) = (V c main_arg0 : FVec Ideal S50000x128 .f32) (ix2 r k) := by
  obtain ⟨e0, e1, -⟩ := idx_facts t
  unfold iblk0
  rw [View.read_apply]
  show V c main_arg0 _ = V c main_arg0 _
  congr 1
  funext a
  apply Fin.ext
  match a with
  | ⟨0, _⟩ => show win0_0.index t (0 : Fin 2) * 5000 + 1 * p.val = r.val; omega
  | ⟨1, _⟩ => show win0_0.index t (1 : Fin 2) * 128 + 1 * k.val = k.val; omega

/-- W's block at any point is W. -/
theorem wblk_apply (V : Vals) (c : Dev nD) (t : Fin cfg0.N) (k : Fin 128) (q : Fin 64) :
    (iblk0 V c 1 t : Vec Ideal S128x64 .f32) (ix2 k q) = (V c main_arg3 : FVec Ideal S128x64 .f32) (ix2 k q) := by
  obtain ⟨-, -, e2, e3, -⟩ := idx_facts t
  unfold iblk0
  rw [View.read_apply]
  show V c main_arg3 _ = V c main_arg3 _
  congr 1
  funext a
  apply Fin.ext
  match a with
  | ⟨0, _⟩ => show win0_1.index t (0 : Fin 2) * 128 + 1 * k.val = k.val; omega
  | ⟨1, _⟩ => show win0_1.index t (1 : Fin 2) * 64 + 1 * q.val = q.val; omega

/-- The bias window's block at any point is its one-row array. -/
theorem bblk_apply (V : Vals) (c : Dev nD) (t : Fin cfg0.N) (z : Fin 1) (q : Fin 64) :
    (iblk0 V c 2 t : Vec Ideal S1x64 .f32) (ix2 z q) = (V c main_v0 : FVec Ideal S1x64 .f32) (ix2 z q) := by
  obtain ⟨-, -, -, -, e4, e5, -⟩ := idx_facts t
  unfold iblk0
  rw [View.read_apply]
  show V c main_v0 _ = V c main_v0 _
  congr 1
  funext a
  apply Fin.ext
  match a with
  | ⟨0, _⟩ => show win0_2.index t (0 : Fin 2) * 1 + 1 * z.val = z.val; omega
  | ⟨1, _⟩ => show win0_2.index t (1 : Fin 2) * 64 + 1 * q.val = q.val; omega

/-- The bias as one row, read at (0, q), is the bias at q. -/
theorem biasRow_apply (b : FVec Ideal S64 .f32) (q : Fin 64) :
    shapeCast S1x64 b shapeCasts_S64_S1x64 (ix2 (0 : Fin 1) q) = b (ix1 q) :=
  shapeCast_apply b shapeCasts_S64_S1x64 (ix2 (0 : Fin 1) q) (ix1 q) (by
    rw [Shape.rowMajor_val_two, Shape.rowMajor_val_one]
    show q.val = 0 * 64 + q.val
    omega)

/-! ## From the blocks to the array -/

/-- What point t writes back is block t of h: at row p of the block and feature q both sides are the sum over k of
    x[5000 t + p, k] · W[k, q], plus b[q]. -/
theorem flushed_eq (V : Vals) (c : Dev nD) (b : FVec Ideal S64 .f32)
    (hb : (V c main_v0 : FVec Ideal S1x64 .f32) = shapeCast S1x64 b shapeCasts_S64_S1x64) (t : Fin cfg0.N) :
    (dat0 V c).flushed 3 t = ((cfg0.win 3).blk t).view.read (Elt Ideal)
      (Cert.Spec.hv (V c main_arg0 : FVec Ideal S50000x128 .f32) (V c main_arg3 : FVec Ideal S128x64 .f32) b) := by
  show (cfg0.win 3).cut (grid0.coords t) ((dat0 V c).after 3 t) = _
  rw [after0_3]
  unfold out0_3
  rw [View.canon_unit_zero hz]
  simp only [View.ld_unit_zero (S := S5000x128) hz, View.ld_unit_zero (S := S128x64) hz, View.ld_unit_zero (S := S1x64) hz]
  obtain ⟨-, -, -, -, -, -, e6, e7⟩ := idx_facts t
  have hN : cfg0.N = 10 := N_0
  have htN : t.val < 10 := hN ▸ t.isLt
  refine funext fun (j : S5000x64.Idx) => ?_
  obtain ⟨p, q, rfl⟩ : ∃ (p : Fin 5000) (q : Fin 64), j = ix2 p q := ⟨j 0, j 1, eq_ix2 j⟩
  have hr : t.val * 5000 + p.val < 50000 := by have := p.isLt; omega
  have hemb : ((cfg0.win 3).blk t).view.emb (ix2 p q) = (ix2 (⟨t.val * 5000 + p.val, hr⟩ : Fin 50000) q : S50000x64.Idx) := by
    funext a
    apply Fin.ext
    match a with
    | ⟨0, _⟩ => show win0_3.index t (0 : Fin 2) * 5000 + 1 * p.val = t.val * 5000 + p.val; omega
    | ⟨1, _⟩ => show win0_3.index t (1 : Fin 2) * 64 + 1 * q.val = q.val; omega
  show k0_pay1 (iblk0 V c 0 t) (iblk0 V c 1 t) (iblk0 V c 2 t) (ix2 p q)
    = Cert.Spec.hv (V c main_arg0 : FVec Ideal S50000x128 .f32) (V c main_arg3 : FVec Ideal S128x64 .f32) b
        (((cfg0.win 3).blk t).view.emb (ix2 p q))
  refine (body_apply _ _ _ p q).trans (Eq.trans ?_ (congrArg _ hemb.symm))
  refine Eq.trans ?_ (hv_apply _ _ b ⟨t.val * 5000 + p.val, hr⟩ q).symm
  refine congrArg₂ (· + ·) (Finset.sum_congr rfl fun k _ => ?_) ?_
  · rw [xblk_apply V c t p k ⟨t.val * 5000 + p.val, hr⟩ rfl, wblk_apply V c t k q]
  · rw [bblk_apply V c t 0 q, hb, biasRow_apply]

/-- An index of the result is in point t's block iff each coordinate is in the block's range on its axis. -/
theorem mem_blk (t : Fin cfg0.N) (i : S50000x64.Idx) :
    i ∈ ((cfg0.win 3).blk t).view.set ↔ ∀ a : Fin 2, win0_3.index t a * S5000x64.size a ≤ (i a).val
      ∧ (i a).val < win0_3.index t a * S5000x64.size a + S5000x64.size a := by
  show i ∈ ((View.whole main_v1).slice (win0_3.rect t)).set ↔ _
  rw [View.set_slice_whole, Rect.mem_set_unit]
  exact Iff.rfl

/-- Every index of the result is in some point's block: row r is in the block of point r / 5000. -/
theorem covered (i : S50000x64.Idx) :
    ∃ t : Fin cfg0.N, (cfg0.win 3).flush t = true ∧ i ∈ ((cfg0.win 3).blk t).view.set := by
  have h0 : (i 0).val < 50000 := (i 0).isLt
  have h1 : (i 1).val < 64 := (i 1).isLt
  have hN : cfg0.N = 10 := N_0
  obtain ⟨t, ht⟩ : ∃ t : Fin cfg0.N, t.val = (i 0).val / 5000 := ⟨⟨(i 0).val / 5000, by rw [hN]; omega⟩, rfl⟩
  obtain ⟨-, -, -, -, -, -, e6, e7⟩ := idx_facts t
  refine ⟨t, flush0_3 t, ?_⟩
  rw [mem_blk]
  intro a
  match a with
  | ⟨0, _⟩ =>
    show win0_3.index t (0 : Fin 2) * 5000 ≤ (i 0).val ∧ (i 0).val < win0_3.index t (0 : Fin 2) * 5000 + 5000
    omega
  | ⟨1, _⟩ =>
    show win0_3.index t (1 : Fin 2) * 64 ≤ (i 1).val ∧ (i 1).val < win0_3.index t (1 : Fin 2) * 64 + 64
    omega

/-- After region 0 its output array holds x · W + b, where the bias window's array is the bias as one row. -/
theorem value (V : Vals) (c : Dev nD) (b : FVec Ideal S64 .f32)
    (hb : (V c main_v0 : FVec Ideal S1x64 .f32) = shapeCast S1x64 b shapeCasts_S64_S1x64) :
    ((dat0 V c).arrAt 3 cfg0.N : FVec Ideal S50000x64 .f32)
      = Cert.Spec.hv (V c main_arg0 : FVec Ideal S50000x128 .f32) (V c main_arg3 : FVec Ideal S128x64 .f32) b :=
  (dat0 V c).arrAt_eq_of_cover 3 _ (fun t _ => flushed_eq V c b hb t) covered

end Cert.Stage0

end
-- ==== Proof.Stage1.lean ====
/- Region 1 (the attention weights): the array the pipeline leaves is exp (leakyRelu ([h_s, h_d, ef] · a)). -/
import proofs.«138567_j75642964017820_1_alg».proof.Proof.Gen.KernelIdeal.Frame
import proofs.«138567_j75642964017820_1_alg».proof.Proof.Gen.ReferenceIdeal
import proofs.«138567_j75642964017820_1_alg».proof.Proof.Spec
import Idealize.ShloMosaic.Lib.ValueIdx
import Idealize.ShloMosaic.Lib.Pipeline.Value
import Idealize.ShloMosaic.PureOps.Ideal.Laws
import Mathlib.Algebra.BigOperators.Fin

noncomputable section

namespace Cert.Stage1

open Idealize.ShloMosaic Idealize.ShloMosaic.TcCoe Idealize.SL.Sem
open Idealize.ShloMosaic.ValueIdx
open Cert.KernelIdeal Cert.KernelIdeal.Gen

/-- The TensorCore's buffer contents when the region is entered: a parameter. -/
abbrev Vals : Type := (c : Dev nD) → (b : Ref sig .tc) → Buf (Elt Ideal) ((c : Thread nD τ).loc b)

/-- The scalar tail both programs apply to a row's score: leakyRelu with slope 0.2 (the score itself where it is
    at least 0, else 0.2 times it), then the exponential. The two float words are the same on both sides and are
    never evaluated. -/
def act (s : EReal) : EReal :=
  Ideal.exp (Scalar.select (Ideal.cmp .oge s (Ideal.ofBits .f32 0x00000000#32)) s (Ideal.ofBits .f32 0x3E4CCCCD#32 * s))

/-- The specification's pointwise tail, read at an index. -/
theorem spec_tail (s : FVec Ideal S800000x1 .f32) (i : S800000x1.Idx) :
    Host.exp (Cert.Spec.leaky s) i = act (s i) := rfl

/-- The kernel's pointwise tail (compare against the zero splat, multiply by the 0.2 splat, select, exponential),
    read at an index of a block. -/
theorem kernel_tail (v : FVec Ideal S16000x1 .f32) (j : S16000x1.Idx) :
    exp (select (cmpf .oge v (broadcast S16000x1 (Scalar.ofBits (F := Ideal) .f32 0x00000000#32))) v
      (mulf (broadcast S16000x1 (Scalar.ofBits (F := Ideal) .f32 0x3E4CCCCD#32)) v)) j = act (v j) := rfl

/-- A sum over 160 = 64 + 64 + 32 consecutive positions, cut at 64 and at 128. -/
theorem sum_160 (f : Fin 160 → EReal) :
    ∑ k : Fin 160, f k
      = (∑ k : Fin 64, f ⟨k.val, by omega⟩ + ∑ k : Fin 64, f ⟨64 + k.val, by omega⟩) + ∑ k : Fin 32, f ⟨128 + k.val, by omega⟩ := by
  have h := Fin.sum_univ_add (M := EReal) (a := 64 + 64) (b := 32) f
  have h' := Fin.sum_univ_add (M := EReal) (a := 64) (b := 64) (fun i => f (Fin.castAdd 32 i))
  refine h.trans ?_
  rw [h']
  rfl

/-- The score of directed edge `r`: its source row against the first 64 entries of the attention vector, its
    destination row against the next 64, its feature row against the last 32. -/
def score (hs hd : FVec Ideal S800000x64 .f32) (ef : FVec Ideal S800000x32 .f32) (a : FVec Ideal S160x1 .f32)
    (r : Fin 800000) : EReal :=
  (∑ k : Fin 64, hs (ix2 r k) * a (ix2 (⟨k.val, by omega⟩ : Fin 160) (0 : Fin 1))
    + ∑ k : Fin 64, hd (ix2 r k) * a (ix2 (⟨64 + k.val, by omega⟩ : Fin 160) (0 : Fin 1)))
  + ∑ k : Fin 32, ef (ix2 r k) * a (ix2 (⟨128 + k.val, by omega⟩ : Fin 160) (0 : Fin 1))

/-- The product of the 800000 × 160 array with the 160 × 1 vector, at row `r`: the sum over the 160 columns. -/
theorem dot_apply (C : FVec Ideal Cert.ReferenceIdeal.S800000x160 .f32) (a : FVec Ideal S160x1 .f32) (r : Fin 800000) :
    Host.dotGeneral Cert.ReferenceIdeal.dot_S800000x160_S160x1_S800000x1_1_0_0_1_n_n none C a (ix2 r (0 : Fin 1))
      = ∑ k : Fin 160, C (ix2 r k) * a (ix2 k (0 : Fin 1)) := by
  show FloatOps.dotGeneral _ none _ C a (ix2 r (0 : Fin 1)) = _
  rw [Ideal.dotGeneral_apply,
    ← Equiv.sum_comp (contrEquiv1 Cert.ReferenceIdeal.dot_S800000x160_S160x1_S800000x1_1_0_0_1_n_n 160 rfl rfl).symm]
  refine Finset.sum_congr rfl fun k _ => ?_
  have c2 := contrEquiv1_symm_val Cert.ReferenceIdeal.dot_S800000x160_S160x1_S800000x1_1_0_0_1_n_n 160 rfl rfl k
  have l2 : Cert.ReferenceIdeal.dot_S800000x160_S160x1_S800000x1_1_0_0_1_n_n.lhsIdx (ix2 r (0 : Fin 1))
      ((contrEquiv1 _ 160 rfl rfl).symm k) = ix2 r k := by
    funext ax; apply Fin.ext
    match ax with
    | ⟨0, _⟩ => simp [DotDims.lhsIdx, Cert.ReferenceIdeal.dot_S800000x160_S160x1_S800000x1_1_0_0_1_n_n]; rfl
    | ⟨1, _⟩ => simp [DotDims.lhsIdx, Cert.ReferenceIdeal.dot_S800000x160_S160x1_S800000x1_1_0_0_1_n_n]; exact c2
  have r2 : Cert.ReferenceIdeal.dot_S800000x160_S160x1_S800000x1_1_0_0_1_n_n.rhsIdx (ix2 r (0 : Fin 1))
      ((contrEquiv1 _ 160 rfl rfl).symm k) = ix2 k (0 : Fin 1) := by
    funext ax; apply Fin.ext
    match ax with
    | ⟨0, _⟩ => simp [DotDims.rhsIdx, Cert.ReferenceIdeal.dot_S800000x160_S160x1_S800000x1_1_0_0_1_n_n]; exact c2
    | ⟨1, _⟩ => simp [DotDims.rhsIdx, Cert.ReferenceIdeal.dot_S800000x160_S160x1_S800000x1_1_0_0_1_n_n]
  rw [l2, r2]

/-- The three arrays side by side, read in the first 64 columns: the first array. -/
theorem cat_fst (hs hd : FVec Ideal S800000x64 .f32) (ef : FVec Ideal S800000x32 .f32) (r : Fin 800000) (k : Fin 64) :
    concatenate Cert.ReferenceIdeal.S800000x160 1 [⟨S800000x64, hs⟩, ⟨S800000x64, hd⟩, ⟨S800000x32, ef⟩]
        Cert.ReferenceIdeal.Facts₀.concatenates_S800000x64_S800000x64_S800000x32_S800000x160_d1 (ix2 r (⟨k.val, by omega⟩ : Fin 160))
      = hs (ix2 r k) := by
  refine concatenate_apply_piece (t := Cert.ReferenceIdeal.S800000x160) 1 [⟨S800000x64, hs⟩, ⟨S800000x64, hd⟩, ⟨S800000x32, ef⟩] _ _ 0 (by simp) S800000x64 hs rfl rfl 0 rfl (ix2 r k) (fun b hb => ?_) ?_
  · match b with
    | ⟨0, _⟩ => rfl
    | ⟨1, _⟩ => exact absurd rfl hb
  · show 0 + k.val = k.val
    omega

/-- … in the next 64 columns: the second array. -/
theorem cat_snd (hs hd : FVec Ideal S800000x64 .f32) (ef : FVec Ideal S800000x32 .f32) (r : Fin 800000) (k : Fin 64) :
    concatenate Cert.ReferenceIdeal.S800000x160 1 [⟨S800000x64, hs⟩, ⟨S800000x64, hd⟩, ⟨S800000x32, ef⟩]
        Cert.ReferenceIdeal.Facts₀.concatenates_S800000x64_S800000x64_S800000x32_S800000x160_d1 (ix2 r (⟨64 + k.val, by omega⟩ : Fin 160))
      = hd (ix2 r k) := by
  refine concatenate_apply_piece (t := Cert.ReferenceIdeal.S800000x160) 1 [⟨S800000x64, hs⟩, ⟨S800000x64, hd⟩, ⟨S800000x32, ef⟩] _ _ 1 (by simp) S800000x64 hd rfl rfl 64 rfl (ix2 r k) (fun b hb => ?_) ?_
  · match b with
    | ⟨0, _⟩ => rfl
    | ⟨1, _⟩ => exact absurd rfl hb
  · rfl

/-- … in the last 32 columns: the third array. -/
theorem cat_trd (hs hd : FVec Ideal S800000x64 .f32) (ef : FVec Ideal S800000x32 .f32) (r : Fin 800000) (k : Fin 32) :
    concatenate Cert.ReferenceIdeal.S800000x160 1 [⟨S800000x64, hs⟩, ⟨S800000x64, hd⟩, ⟨S800000x32, ef⟩]
        Cert.ReferenceIdeal.Facts₀.concatenates_S800000x64_S800000x64_S800000x32_S800000x160_d1 (ix2 r (⟨128 + k.val, by omega⟩ : Fin 160))
      = ef (ix2 r k) := by
  refine concatenate_apply_piece (t := Cert.ReferenceIdeal.S800000x160) 1 [⟨S800000x64, hs⟩, ⟨S800000x64, hd⟩, ⟨S800000x32, ef⟩] _ _ 2 (by simp) S800000x32 ef rfl rfl 128 rfl (ix2 r k) (fun b hb => ?_) ?_
  · match b with
    | ⟨0, _⟩ => rfl
    | ⟨1, _⟩ => exact absurd rfl hb
  · rfl

/-- THE SPECIFICATION AT A ROW: the attention weight of edge `r` is the tail of its score. -/
theorem spec_apply (hs hd : FVec Ideal S800000x64 .f32) (ef : FVec Ideal S800000x32 .f32) (a : FVec Ideal S160x1 .f32)
    (r : Fin 800000) :
    Cert.Spec.att hs hd ef a (ix2 r (0 : Fin 1)) = act (score hs hd ef a r) := by
  unfold Cert.Spec.att
  refine (spec_tail _ _).trans (congrArg act ?_)
  refine (dot_apply _ a r).trans ?_
  rw [sum_160]
  unfold score
  refine congrArg₂ (· + ·) (congrArg₂ (· + ·) ?_ ?_) ?_
  · exact Finset.sum_congr rfl fun k _ => congrArg (· * _) (cat_fst hs hd ef r k)
  · exact Finset.sum_congr rfl fun k _ => congrArg (· * _) (cat_snd hs hd ef r k)
  · exact Finset.sum_congr rfl fun k _ => congrArg (· * _) (cat_trd hs hd ef r k)

/-- One lane sum of the body over 64 lanes: row `p` of a block against a one-row vector (the row broadcast down the
    block, multiplied entry by entry, summed along the lanes, the sums stood up as a column). -/
theorem row_dot64 (x : FVec Ideal S16000x64 .f32) (w : FVec Ideal S1x64 .f32) (p : Fin 16000) :
    shapeCast S16000x1
        (multiReduction .add [1] S16000
          (mulf (shapeCast S16000x64 x shapeCasts_S16000x64_S16000x64)
            (broadcastTo S16000x64 (shapeCast S1x64 w shapeCasts_S1x64_S1x64) broadcasts_S1x64_S16000x64))
          0x00000000#32 reduces_S16000x64_S16000 (.inl rfl) rfl)
        shapeCasts_S16000_S16000x1 (ix2 p (0 : Fin 1))
      = ∑ k : Fin 64, x (ix2 p k) * w (ix2 (0 : Fin 1) k) := by
  refine (shapeCast_apply _ _ (ix2 p (0 : Fin 1)) (ix1 p) ?_).trans ?_
  · rw [Shape.rowMajor_val_one, Shape.rowMajor_val_two]
    show p.val = p.val * 1 + 0
    omega
  refine (Ideal.multiReduction_add_single _ _ _ _ _ (ix1 p)).trans ?_
  refine Finset.sum_congr rfl fun (k : Fin 64) _ => ?_
  rw [shapeCast_self, shapeCast_self]
  refine congrArg₂ (· * ·) (congrArg x ?_) (broadcastTo_apply _ _ _ (ix2 (0 : Fin 1) k) fun a => ?_)
  · funext a; apply Fin.ext
    match a with
    | ⟨0, _⟩ => rfl
    | ⟨1, _⟩ => rfl
  · match a with
    | ⟨0, _⟩ => rfl
    | ⟨1, _⟩ => rfl

/-- The same over 32 lanes. -/
theorem row_dot32 (x : FVec Ideal S16000x32 .f32) (w : FVec Ideal S1x32 .f32) (p : Fin 16000) :
    shapeCast S16000x1
        (multiReduction .add [1] S16000
          (mulf (shapeCast S16000x32 x shapeCasts_S16000x32_S16000x32)
            (broadcastTo S16000x32 (shapeCast S1x32 w shapeCasts_S1x32_S1x32) broadcasts_S1x32_S16000x32))
          0x00000000#32 reduces_S16000x32_S16000 (.inl rfl) rfl)
        shapeCasts_S16000_S16000x1 (ix2 p (0 : Fin 1))
      = ∑ k : Fin 32, x (ix2 p k) * w (ix2 (0 : Fin 1) k) := by
  refine (shapeCast_apply _ _ (ix2 p (0 : Fin 1)) (ix1 p) ?_).trans ?_
  · rw [Shape.rowMajor_val_one, Shape.rowMajor_val_two]
    show p.val = p.val * 1 + 0
    omega
  refine (Ideal.multiReduction_add_single _ _ _ _ _ (ix1 p)).trans ?_
  refine Finset.sum_congr rfl fun (k : Fin 32) _ => ?_
  rw [shapeCast_self, shapeCast_self]
  refine congrArg₂ (· * ·) (congrArg x ?_) (broadcastTo_apply _ _ _ (ix2 (0 : Fin 1) k) fun a => ?_)
  · funext a; apply Fin.ext
    match a with
    | ⟨0, _⟩ => rfl
    | ⟨1, _⟩ => rfl
  · match a with
    | ⟨0, _⟩ => rfl
    | ⟨1, _⟩ => rfl

/-- THE BODY'S STORED VALUE AT A ROW OF THE BLOCK: the tail of the three lane sums added in the body's order. -/
theorem pay_apply (x0 : FVec Ideal S16000x64 .f32) (w0 : FVec Ideal S1x64 .f32) (x1 : FVec Ideal S16000x64 .f32)
    (w1 : FVec Ideal S1x64 .f32) (x2 : FVec Ideal S16000x32 .f32) (w2 : FVec Ideal S1x32 .f32) (p : Fin 16000) :
    (k1_pay1 (F := Ideal) x0 w0 x1 w1 x2 w2) (ix2 p (0 : Fin 1))
      = act ((∑ k : Fin 64, x0 (ix2 p k) * w0 (ix2 (0 : Fin 1) k) + ∑ k : Fin 64, x1 (ix2 p k) * w1 (ix2 (0 : Fin 1) k))
          + ∑ k : Fin 32, x2 (ix2 p k) * w2 (ix2 (0 : Fin 1) k)) := by
  unfold k1_pay1
  refine (kernel_tail _ _).trans (congrArg act ?_)
  exact congrArg₂ (· + ·) (congrArg₂ (· + ·) (row_dot64 x0 w0 p) (row_dot64 x1 w1 p)) (row_dot32 x2 w2 p)

/-! ## The blocks -/

theorem hz : (![0, 0] : Fin 2 → Nat) = fun _ => 0 := funext fun a => by fin_cases a <;> rfl

/-- The printed index maps over the 50 grid points: the three row-block inputs and the output sit at block row
    `t`, block column 0; the three one-row vectors are whole (block 0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- Row `p` of the source-row block at point `t` is row `16000 t + p` of the array. -/
theorem blk_hs (V : Vals) (c : Dev nD) (t : Fin cfg1.N) (p : Fin 16000) (k : Fin 64) (r : Fin 800000)
    (hr : r.val = t.val * 16000 + p.val) :
    (iblk1 V c 0 t : FVec Ideal S16000x64 .f32) (ix2 p k) = (V c main_v16 : FVec Ideal S800000x64 .f32) (ix2 r k) := by
  obtain ⟨e0, e1, -⟩ := idx_facts t
  unfold iblk1
  rw [View.read_apply]
  show V c main_v16 _ = V c main_v16 _
  congr 1
  funext ax; apply Fin.ext
  match ax with
  | ⟨0, _⟩ => show win1_0.index t (0 : Fin 2) * 16000 + 1 * p.val = r.val; rw [e0, hr]; omega
  | ⟨1, _⟩ => show win1_0.index t (1 : Fin 2) * 64 + 1 * k.val = k.val; rw [e1]; omega

/-- The same for the destination-row block. -/
theorem blk_hd (V : Vals) (c : Dev nD) (t : Fin cfg1.N) (p : Fin 16000) (k : Fin 64) (r : Fin 800000)
    (hr : r.val = t.val * 16000 + p.val) :
    (iblk1 V c 1 t : FVec Ideal S16000x64 .f32) (ix2 p k) = (V c main_v23 : FVec Ideal S800000x64 .f32) (ix2 r k) := by
  obtain ⟨-, -, e0, e1, -⟩ := idx_facts t
  unfold iblk1
  rw [View.read_apply]
  show V c main_v23 _ = V c main_v23 _
  congr 1
  funext ax; apply Fin.ext
  match ax with
  | ⟨0, _⟩ => show win1_1.index t (0 : Fin 2) * 16000 + 1 * p.val = r.val; rw [e0, hr]; omega
  | ⟨1, _⟩ => show win1_1.index t (1 : Fin 2) * 64 + 1 * k.val = k.val; rw [e1]; omega

/-- The same for the edge-feature block. -/
theorem blk_ef (V : Vals) (c : Dev nD) (t : Fin cfg1.N) (p : Fin 16000) (k : Fin 32) (r : Fin 800000)
    (hr : r.val = t.val * 16000 + p.val) :
    (iblk1 V c 2 t : FVec Ideal S16000x32 .f32) (ix2 p k) = (V c main_v5 : FVec Ideal S800000x32 .f32) (ix2 r k) := by
  obtain ⟨-, -, -, -, e0, e1, -⟩ := idx_facts t
  unfold iblk1
  rw [View.read_apply]
  show V c main_v5 _ = V c main_v5 _
  congr 1
  funext ax; apply Fin.ext
  match ax with
  | ⟨0, _⟩ => show win1_2.index t (0 : Fin 2) * 16000 + 1 * p.val = r.val; rw [e0, hr]; omega
  | ⟨1, _⟩ => show win1_2.index t (1 : Fin 2) * 32 + 1 * k.val = k.val; rw [e1]; omega

/-- Each one-row vector's block is the whole vector, at every point. -/
theorem blk_a1 (V : Vals) (c : Dev nD) (t : Fin cfg1.N) (k : Fin 64) :
    (iblk1 V c 3 t : FVec Ideal S1x64 .f32) (ix2 (0 : Fin 1) k) = (V c main_v25 : FVec Ideal S1x64 .f32) (ix2 (0 : Fin 1) k) := by
  obtain ⟨-, -, -, -, -, -, e0, e1, -⟩ := idx_facts t
  unfold iblk1
  rw [View.read_apply]
  show V c main_v25 _ = V c main_v25 _
  congr 1
  funext ax; apply Fin.ext
  match ax with
  | ⟨0, _⟩ => show win1_3.index t (0 : Fin 2) * 1 + 1 * 0 = 0; rw [e0]
  | ⟨1, _⟩ => show win1_3.index t (1 : Fin 2) * 64 + 1 * k.val = k.val; rw [e1]; omega

theorem blk_a2 (V : Vals) (c : Dev nD) (t : Fin cfg1.N) (k : Fin 64) :
    (iblk1 V c 4 t : FVec Ideal S1x64 .f32) (ix2 (0 : Fin 1) k) = (V c main_v27 : FVec Ideal S1x64 .f32) (ix2 (0 : Fin 1) k) := by
  obtain ⟨-, -, -, -, -, -, -, -, e0, e1, -⟩ := idx_facts t
  unfold iblk1
  rw [View.read_apply]
  show V c main_v27 _ = V c main_v27 _
  congr 1
  funext ax; apply Fin.ext
  match ax with
  | ⟨0, _⟩ => show win1_4.index t (0 : Fin 2) * 1 + 1 * 0 = 0; rw [e0]
  | ⟨1, _⟩ => show win1_4.index t (1 : Fin 2) * 64 + 1 * k.val = k.val; rw [e1]; omega

theorem blk_a3 (V : Vals) (c : Dev nD) (t : Fin cfg1.N) (k : Fin 32) :
    (iblk1 V c 5 t : FVec Ideal S1x32 .f32) (ix2 (0 : Fin 1) k) = (V c main_v29 : FVec Ideal S1x32 .f32) (ix2 (0 : Fin 1) k) := by
  obtain ⟨-, -, -, -, -, -, -, -, -, -, e0, e1, -⟩ := idx_facts t
  unfold iblk1
  rw [View.read_apply]
  show V c main_v29 _ = V c main_v29 _
  congr 1
  funext ax; apply Fin.ext
  match ax with
  | ⟨0, _⟩ => show win1_5.index t (0 : Fin 2) * 1 + 1 * 0 = 0; rw [e0]
  | ⟨1, _⟩ => show win1_5.index t (1 : Fin 2) * 32 + 1 * k.val = k.val; rw [e1]; omega

/-! ## The attention vector's slices as rows -/

/-- Entry `k` of the row made of 64 consecutive entries of the attention vector from position `o` on is entry
    `o + k` of the vector. -/
theorem slice_row64 (a : FVec Ideal S160x1 .f32) (o : Nat) (h : S160x1.Slices ![o, 0] S64x1) (k : Fin 64) (kk : Fin 160)
    (hkk : kk.val = o + k.val) :
    shapeCast S1x64 (extractStridedSlice S64x1 ![o, 0] a h) shapeCasts_S64x1_S1x64 (ix2 (0 : Fin 1) k)
      = a (ix2 kk (0 : Fin 1)) := by
  refine (shapeCast_apply _ _ (ix2 (0 : Fin 1) k) (ix2 k (0 : Fin 1)) ?_).trans ?_
  · rw [Shape.rowMajor_val_two, Shape.rowMajor_val_two]
    show k.val * 1 + 0 = 0 * 64 + k.val
    omega
  refine extractStridedSlice_apply _ _ _ (ix2 k (0 : Fin 1)) (ix2 kk (0 : Fin 1)) fun ax => ?_
  match ax with
  | ⟨0, _⟩ => exact hkk
  | ⟨1, _⟩ => rfl

/-- The same for a row of 32 entries. -/
theorem slice_row32 (a : FVec Ideal S160x1 .f32) (o : Nat) (h : S160x1.Slices ![o, 0] S32x1) (k : Fin 32) (kk : Fin 160)
    (hkk : kk.val = o + k.val) :
    shapeCast S1x32 (extractStridedSlice S32x1 ![o, 0] a h) shapeCasts_S32x1_S1x32 (ix2 (0 : Fin 1) k)
      = a (ix2 kk (0 : Fin 1)) := by
  refine (shapeCast_apply _ _ (ix2 (0 : Fin 1) k) (ix2 k (0 : Fin 1)) ?_).trans ?_
  · rw [Shape.rowMajor_val_two, Shape.rowMajor_val_two]
    show k.val * 1 + 0 = 0 * 32 + k.val
    omega
  refine extractStridedSlice_apply _ _ _ (ix2 k (0 : Fin 1)) (ix2 kk (0 : Fin 1)) fun ax => ?_
  match ax with
  | ⟨0, _⟩ => exact hkk
  | ⟨1, _⟩ => rfl

/-! ## What a point writes back, the cover, the array -/

/-- WHAT POINT `t` WRITES BACK is block `t` of the specification's array: row `p` of the block is the tail of the
    three lane sums over the blocks' rows, which are rows `16000 t + p` of the three input arrays against the three
    slices of the attention vector — the score of edge `16000 t + p` with its sum over 160 columns cut at 64 and 128. -/
theorem flushed_eq (V : Vals) (c : Dev nD) (a : FVec Ideal S160x1 .f32)
    (h1 : (V c main_v25 : FVec Ideal S1x64 .f32) = shapeCast S1x64 (extractStridedSlice S64x1 ![0, 0] a slices_S160x1_S64x1_0_0) shapeCasts_S64x1_S1x64)
    (h2 : (V c main_v27 : FVec Ideal S1x64 .f32) = shapeCast S1x64 (extractStridedSlice S64x1 ![64, 0] a slices_S160x1_S64x1_64_0) shapeCasts_S64x1_S1x64)
    (h3 : (V c main_v29 : FVec Ideal S1x32 .f32) = shapeCast S1x32 (extractStridedSlice S32x1 ![128, 0] a slices_S160x1_S32x1_128_0) shapeCasts_S32x1_S1x32)
    (t : Fin cfg1.N) :
    (dat1 V c).flushed 6 t = ((cfg1.win 6).blk t).view.read (Elt Ideal)
      (Cert.Spec.att (V c main_v16 : FVec Ideal S800000x64 .f32) (V c main_v23 : FVec Ideal S800000x64 .f32)
        (V c main_v5 : FVec Ideal S800000x32 .f32) a) := by
  show (cfg1.win 6).cut (grid1.coords t) ((dat1 V c).after 6 t) = _
  rw [after1_6]
  unfold out1_6
  rw [View.canon_unit_zero hz]
  simp only [View.ld_unit_zero (S := S16000x64) hz, View.ld_unit_zero (S := S1x64) hz,
    View.ld_unit_zero (S := S16000x32) hz, View.ld_unit_zero (S := S1x32) hz]
  have hN : grid1.N = 50 := N_1
  have ht : t.val < 50 := hN ▸ t.isLt
  obtain ⟨-, -, -, -, -, -, -, -, -, -, -, -, e0, e1⟩ := idx_facts t
  funext j
  obtain ⟨p, q, rfl⟩ : ∃ (p : Fin 16000) (q : Fin 1), j = ix2 p q := ⟨j 0, j 1, eq_ix2 j⟩
  obtain rfl : q = 0 := Subsingleton.elim _ _
  have hr : t.val * 16000 + p.val < 800000 := by have := p.isLt; omega
  refine (pay_apply (iblk1 V c 0 t) (iblk1 V c 3 t) (iblk1 V c 1 t) (iblk1 V c 4 t) (iblk1 V c 2 t) (iblk1 V c 5 t) p).trans ?_
  rw [View.read_apply]
  have hi : ((cfg1.win 6).blk t).view.emb (ix2 p (0 : Fin 1)) = ix2 (⟨t.val * 16000 + p.val, hr⟩ : Fin 800000) (0 : Fin 1) := by
    funext ax; apply Fin.ext
    match ax with
    | ⟨0, _⟩ => show win1_6.index t (0 : Fin 2) * 16000 + 1 * p.val = t.val * 16000 + p.val; rw [e0]; omega
    | ⟨1, _⟩ => show win1_6.index t (1 : Fin 2) * 1 + 1 * 0 = 0; rw [e1]
  rw [hi]
  refine Eq.trans (congrArg act ?_) (spec_apply _ _ _ a ⟨t.val * 16000 + p.val, hr⟩).symm
  unfold score
  refine congrArg₂ (· + ·) (congrArg₂ (· + ·) ?_ ?_) ?_
  · refine Finset.sum_congr rfl fun k _ => congrArg₂ (· * ·) (blk_hs V c t p k _ rfl) ?_
    rw [blk_a1, h1]
    exact slice_row64 a 0 _ k _ (by show k.val = 0 + k.val; omega)
  · refine Finset.sum_congr rfl fun k _ => congrArg₂ (· * ·) (blk_hd V c t p k _ rfl) ?_
    rw [blk_a2, h2]
    exact slice_row64 a 64 _ k _ rfl
  · refine Finset.sum_congr rfl fun k _ => congrArg₂ (· * ·) (blk_ef V c t p k _ rfl) ?_
    rw [blk_a3, h3]
    exact slice_row32 a 128 _ k _ rfl

/-- An index of the array is in point `t`'s block iff each coordinate is in the block's range on its axis. -/
theorem mem_blk (t : Fin cfg1.N) (i : S800000x1.Idx) :
    i ∈ ((cfg1.win 6).blk t).view.set
      ↔ ∀ ax : Fin 2, win1_6.index t ax * S16000x1.size ax ≤ (i ax).val ∧ (i ax).val < win1_6.index t ax * S16000x1.size ax + S16000x1.size ax := by
  show i ∈ ((View.whole main_v30).slice (win1_6.rect t)).set ↔ _
  rw [View.set_slice_whole, Rect.mem_set_unit]
  exact Iff.rfl

/-- The 50 blocks of 16000 rows cover the 800000 rows: row `r` is in the block of point `r / 16000`. -/
theorem cover (i : S800000x1.Idx) :
    ∃ t : Fin cfg1.N, (cfg1.win 6).flush t = true ∧ i ∈ ((cfg1.win 6).blk t).view.set := by
  have hi0 : (i 0).val < 800000 := (i 0).isLt
  have hi1 : (i 1).val < 1 := (i 1).isLt
  have hN : grid1.N = 50 := N_1
  have ht : (i 0).val / 16000 < cfg1.N := by show _ < grid1.N; rw [hN]; omega
  obtain ⟨-, -, -, -, -, -, -, -, -, -, -, -, e0, e1⟩ := idx_facts ⟨(i 0).val / 16000, ht⟩
  refine ⟨⟨(i 0).val / 16000, ht⟩, flush1_6 _, ?_⟩
  rw [mem_blk]
  intro ax
  match ax with
  | ⟨0, _⟩ =>
    show win1_6.index ⟨(i 0).val / 16000, ht⟩ (0 : Fin 2) * 16000 ≤ (i 0).val
      ∧ (i 0).val < win1_6.index ⟨(i 0).val / 16000, ht⟩ (0 : Fin 2) * 16000 + 16000
    rw [e0]
    show (i 0).val / 16000 * 16000 ≤ (i 0).val ∧ (i 0).val < (i 0).val / 16000 * 16000 + 16000
    omega
  | ⟨1, _⟩ =>
    show win1_6.index ⟨(i 0).val / 16000, ht⟩ (1 : Fin 2) * 1 ≤ (i 1).val
      ∧ (i 1).val < win1_6.index ⟨(i 0).val / 16000, ht⟩ (1 : Fin 2) * 1 + 1
    rw [e1]
    omega

/-- After region 1 its output array holds the attention weight of every directed edge, where the three vector
    windows' arrays are the three slices of the attention vector `a`, each as one row. -/
theorem value (V : Vals) (c : Dev nD) (a : FVec Ideal S160x1 .f32)
    (h1 : (V c main_v25 : FVec Ideal S1x64 .f32) = shapeCast S1x64 (extractStridedSlice S64x1 ![0, 0] a slices_S160x1_S64x1_0_0) shapeCasts_S64x1_S1x64)
    (h2 : (V c main_v27 : FVec Ideal S1x64 .f32) = shapeCast S1x64 (extractStridedSlice S64x1 ![64, 0] a slices_S160x1_S64x1_64_0) shapeCasts_S64x1_S1x64)
    (h3 : (V c main_v29 : FVec Ideal S1x32 .f32) = shapeCast S1x32 (extractStridedSlice S32x1 ![128, 0] a slices_S160x1_S32x1_128_0) shapeCasts_S32x1_S1x32) :
    ((dat1 V c).arrAt 6 cfg1.N : FVec Ideal S800000x1 .f32)
      = Cert.Spec.att (V c main_v16 : FVec Ideal S800000x64 .f32) (V c main_v23 : FVec Ideal S800000x64 .f32)
          (V c main_v5 : FVec Ideal S800000x32 .f32) a :=
  (dat1 V c).arrAt_eq_of_cover 6 _ (fun t _ => flushed_eq V c a h1 h2 h3 t) cover

end Cert.Stage1

end
-- ==== Proof.Stage2.lean ====
/- Region 2 (the edge contributions): the array the pipeline leaves is h_d · attN, row by row. -/
import proofs.«138567_j75642964017820_1_alg».proof.Proof.Gen.KernelIdeal.Frame
import proofs.«138567_j75642964017820_1_alg».proof.Proof.Gen.ReferenceIdeal
import proofs.«138567_j75642964017820_1_alg».proof.Proof.Spec
import Idealize.ShloMosaic.Lib.Pipeline.Value
import Idealize.ShloMosaic.Lib.ValueIdx

noncomputable section

namespace Cert.Stage2

open Idealize.ShloMosaic Idealize.ShloMosaic.TcCoe Idealize.SL.Sem
open Cert.KernelIdeal Cert.KernelIdeal.Gen

/-- The TensorCore's buffer contents when the region is entered: a parameter. -/
abbrev Vals : Type := (c : Dev nD) → (b : Ref sig .tc) → Buf (Elt Ideal) ((c : Thread nD τ).loc b)

section Blocks

open Idealize.ShloMosaic.ValueIdx
open Idealize.ShloMosaic.Pipeline (Dat)

/-! ## One entry of the product, in the body and in the specification

Both programs multiply the h_d entry at (row, lane) by the row's single attN entry: the body broadcasts the
[16000, 1] column of a block along the 64 lanes, the specification the [800000, 1] column of the whole array. -/

/-- The two spellings of "offset zero on both axes". -/
theorem zeroOffsets : (![0, 0] : Fin 2 → Nat) = fun _ => 0 := funext fun a => by fin_cases a <;> rfl

/-- The body's product at row `r`, lane `q` of a block: the block's h_d entry there times the block's attN entry of row `r`. -/
theorem body_apply (x0 : FVec Ideal S16000x64 .f32) (x1 : FVec Ideal S16000x1 .f32) (r : Fin 16000) (q : Fin 64) :
    k2_pay1 (F := Ideal) x0 x1 (ix2 r q) = x0 (ix2 r q) * x1 (ix2 r (0 : Fin 1)) := by
  unfold k2_pay1
  show mulf (shapeCast S16000x64 x0 _) (broadcastTo S16000x64 (shapeCast S16000x1 x1 _) _) (ix2 r q) = _
  rw [mulf_apply, shapeCast_self, shapeCast_self]
  refine congrArg (x0 (ix2 r q) * ·) ?_
  refine broadcastTo_apply x1 _ (ix2 r q) (ix2 r (0 : Fin 1)) fun a => ?_
  match a with
  | ⟨0, _⟩ => rfl
  | ⟨1, _⟩ => rfl

/-- The specification's product at row `r`, lane `q` of the whole array: the h_d entry there times the attN entry of row `r`. -/
theorem contrib_apply (hd : Cert.Spec.FV S800000x64) (an : Cert.Spec.FV S800000x1) (r : Fin 800000) (q : Fin 64) :
    Cert.Spec.contrib hd an (ix2 r q) = hd (ix2 r q) * an (ix2 r (0 : Fin 1)) := by
  unfold Cert.Spec.contrib
  rw [mulf_apply]
  refine congrArg (hd (ix2 r q) * ·) ?_
  refine broadcastInDim_apply _ _ an (ix2 r q) (ix2 r (0 : Fin 1)) fun a => ?_
  match a with
  | ⟨0, _⟩ => rfl
  | ⟨1, _⟩ => rfl

/-! ## The blocks: point `t` handles rows 16000 t … 16000 t + 15999 of all three arrays -/

/-- The printed index maps over the 50 grid points: every window's block index is (t, 0). -/
theorem blockIndex : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0 :=
  (by decide +kernel : ∀ t : Fin grid2.N, _)

/-- Row `r`, lane `q` of the h_d block fetched at point `t` is row 16000 t + r, lane `q` of h_d. -/
theorem hdBlock_apply (V : Vals) (c : Dev nD) (t : Fin cfg2.N) (r : Fin 16000) (q : Fin 64) (i : S800000x64.Idx)
    (h0 : (i 0).val = 16000 * t.val + r.val) (h1 : (i 1).val = q.val) :
    (iblk2 V c 0 t : Vec Ideal S16000x64 .f32) (ix2 r q) = (V c main_v23 : FVec Ideal S800000x64 .f32) i := by
  obtain ⟨e0, e1, -⟩ := blockIndex t
  unfold iblk2
  rw [View.read_apply]
  show (V c main_v23 : FVec Ideal S800000x64 .f32) _ = _
  refine congrArg _ (funext fun a => Fin.ext ?_)
  match a with
  | ⟨0, _⟩ => show win2_0.index t (0 : Fin 2) * 16000 + 1 * r.val = (i 0).val; omega
  | ⟨1, _⟩ => show win2_0.index t (1 : Fin 2) * 64 + 1 * q.val = (i 1).val; omega

/-- Row `r` of the attN block fetched at point `t` is row 16000 t + r of attN. -/
theorem anBlock_apply (V : Vals) (c : Dev nD) (t : Fin cfg2.N) (r : Fin 16000) (i : S800000x1.Idx)
    (h0 : (i 0).val = 16000 * t.val + r.val) :
    (iblk2 V c 1 t : Vec Ideal S16000x1 .f32) (ix2 r (0 : Fin 1)) = (V c main_v42 : FVec Ideal S800000x1 .f32) i := by
  obtain ⟨-, -, e2, e3, -⟩ := blockIndex t
  unfold iblk2
  rw [View.read_apply]
  show (V c main_v42 : FVec Ideal S800000x1 .f32) _ = _
  refine congrArg _ (funext fun a => Fin.ext ?_)
  have h1 : (i 1).val < 1 := (i 1).isLt
  match a with
  | ⟨0, _⟩ => show win2_1.index t (0 : Fin 2) * 16000 + 1 * r.val = (i 0).val; omega
  | ⟨1, _⟩ => show win2_1.index t (1 : Fin 2) * 1 + 1 * (0 : Fin 1).val = (i 1).val; rw [e3]; show 0 * 1 + 1 * 0 = _; omega

/-- What point `t` writes back is the specification's array read through the point's block of the output. -/
theorem flushed_eq (V : Vals) (c : Dev nD) (t : Fin cfg2.N) :
    (dat2 V c).flushed 2 t = ((cfg2.win 2).blk t).view.read (Elt Ideal)
      (Cert.Spec.contrib (V c main_v23 : FVec Ideal S800000x64 .f32) (V c main_v42 : FVec Ideal S800000x1 .f32)) := by
  show (cfg2.win 2).cut (grid2.coords t) ((dat2 V c).after 2 t) = _
  rw [after2_2]
  unfold out2_2
  rw [View.canon_unit_zero zeroOffsets]
  simp only [View.ld_unit_zero (S := S16000x64) zeroOffsets, View.ld_unit_zero (S := S16000x1) zeroOffsets]
  obtain ⟨-, -, -, -, e4, e5⟩ := blockIndex t
  have hN : cfg2.N = 50 := N_2
  have ht : t.val < 50 := by have := t.isLt; omega
  funext j
  obtain ⟨r, q, rfl⟩ : ∃ (r : Fin 16000) (q : Fin 64), j = ix2 r q := ⟨j 0, j 1, eq_ix2 j⟩
  show k2_pay1 (F := Ideal) (iblk2 V c 0 t) (iblk2 V c 1 t) (ix2 r q)
    = Cert.Spec.contrib (V c main_v23 : FVec Ideal S800000x64 .f32) (V c main_v42 : FVec Ideal S800000x1 .f32)
        (((cfg2.win 2).blk t).view.emb (ix2 r q))
  have hrow : 16000 * t.val + r.val < 800000 := by have := r.isLt; omega
  have hi : ((cfg2.win 2).blk t).view.emb (ix2 r q) = ix2 (⟨16000 * t.val + r.val, hrow⟩ : Fin 800000) q := by
    funext a; apply Fin.ext
    match a with
    | ⟨0, _⟩ => show win2_2.index t (0 : Fin 2) * 16000 + 1 * r.val = 16000 * t.val + r.val; omega
    | ⟨1, _⟩ => show win2_2.index t (1 : Fin 2) * 64 + 1 * q.val = q.val; omega
  rw [hi, contrib_apply, body_apply (iblk2 V c 0 t) (iblk2 V c 1 t) r q,
    hdBlock_apply V c t r q (ix2 (⟨16000 * t.val + r.val, hrow⟩ : Fin 800000) q) rfl rfl,
    anBlock_apply V c t r (ix2 (⟨16000 * t.val + r.val, hrow⟩ : Fin 800000) (0 : Fin 1)) rfl]

/-- An index of the output array is in point `t`'s block iff each coordinate is in the block's range on its axis. -/
theorem mem_block (t : Fin cfg2.N) (i : S800000x64.Idx) :
    i ∈ ((cfg2.win 2).blk t).view.set ↔ ∀ a : Fin 2, win2_2.index t a * S16000x64.size a ≤ (i a).val
      ∧ (i a).val < win2_2.index t a * S16000x64.size a + S16000x64.size a := by
  show i ∈ ((View.whole main_v44).slice (win2_2.rect t)).set ↔ _
  rw [View.set_slice_whole, Rect.mem_set_unit]
  exact Iff.rfl

/-- The 50 row blocks fill the output array: row `r` is written back by point `r / 16000`. -/
theorem covered (i : S800000x64.Idx) :
    ∃ t : Fin cfg2.N, (cfg2.win 2).flush t = true ∧ i ∈ ((cfg2.win 2).blk t).view.set := by
  have hN : cfg2.N = 50 := N_2
  have hi0 : (i 0).val < 800000 := (i 0).isLt
  have hi1 : (i 1).val < 64 := (i 1).isLt
  have hlt : (i 0).val / 16000 < cfg2.N := by rw [hN]; omega
  obtain ⟨-, -, -, -, e4, e5⟩ := blockIndex ⟨(i 0).val / 16000, hlt⟩
  have e4' : win2_2.index ⟨(i 0).val / 16000, hlt⟩ (0 : Fin 2) = (i 0).val / 16000 := e4
  refine ⟨⟨(i 0).val / 16000, hlt⟩, flush2_2 _, ?_⟩
  rw [mem_block]
  intro a
  match a with
  | ⟨0, _⟩ =>
    show win2_2.index ⟨(i 0).val / 16000, hlt⟩ (0 : Fin 2) * 16000 ≤ (i 0).val
      ∧ (i 0).val < win2_2.index ⟨(i 0).val / 16000, hlt⟩ (0 : Fin 2) * 16000 + 16000
    omega
  | ⟨1, _⟩ =>
    show win2_2.index ⟨(i 0).val / 16000, hlt⟩ (1 : Fin 2) * 64 ≤ (i 1).val
      ∧ (i 1).val < win2_2.index ⟨(i 0).val / 16000, hlt⟩ (1 : Fin 2) * 64 + 64
    omega

end Blocks

/-- After region 2 its output array holds every directed edge's contribution h_d · attN. -/
theorem value (V : Vals) (c : Dev nD) :
    ((dat2 V c).arrAt 2 cfg2.N : FVec Ideal S800000x64 .f32)
      = Cert.Spec.contrib (V c main_v23 : FVec Ideal S800000x64 .f32) (V c main_v42 : FVec Ideal S800000x1 .f32) :=
  (dat2 V c).arrAt_eq_of_cover 2
    (Cert.Spec.contrib (V c main_v23 : FVec Ideal S800000x64 .f32) (V c main_v42 : FVec Ideal S800000x1 .f32))
    (fun t _ => flushed_eq V c t) covered

end Cert.Stage2

end
-- ==== Proof.Stage3.lean ====
/- Region 3 (the message norm): the array the pipeline leaves is [h, msg / max (‖msg‖, ε) · ‖h‖ · scale]. -/
import proofs.«138567_j75642964017820_1_alg».proof.Proof.Gen.KernelIdeal.Frame
import proofs.«138567_j75642964017820_1_alg».proof.Proof.Gen.ReferenceIdeal
import proofs.«138567_j75642964017820_1_alg».proof.Proof.Spec
import Idealize.ShloMosaic.Lib.Pipeline.Value
import Idealize.ShloMosaic.Lib.ValueIdx
import Idealize.ShloMosaic.PureOps.Ideal.Laws

noncomputable section

namespace Cert.Stage3

open Idealize.ShloMosaic Idealize.ShloMosaic.TcCoe Idealize.SL.Sem
open Idealize.ShloMosaic.ValueIdx
open Cert.KernelIdeal Cert.KernelIdeal.Gen

/-- The TensorCore's buffer contents when the region is entered: a parameter. -/
abbrev Vals : Type := (c : Dev nD) → (b : Ref sig .tc) → Buf (Elt Ideal) ((c : Thread nD τ).loc b)

variable {α : Type}

/-! ## Reading the layout operations at an index -/

/-- A column broadcast along the lanes (host form) reads the row's one entry. -/
theorem bcastCol_apply {n m : Nat} (v : (⟨2, ![n, 1]⟩ : Shape).Idx → α)
    (dims : Fin 2 → Fin 2) (hd0 : dims 0 = 0) (hd1 : dims 1 = 1)
    (hb : (⟨2, ![n, 1]⟩ : Shape).BroadcastsInDim ⟨2, ![n, m]⟩ dims) (r : Fin n) (q : Fin m) :
    broadcastInDim ⟨2, ![n, m]⟩ dims hb v (ix2 r q) = v (ix2 r (0 : Fin 1)) := by
  refine broadcastInDim_apply dims hb v (ix2 r q) (ix2 r (0 : Fin 1)) fun a => ?_
  match a with
  | ⟨0, _⟩ =>
    show r.val = if n = 1 then 0 else (ix2 r q (dims 0)).val
    rw [hd0]
    show r.val = if n = 1 then 0 else r.val
    have := r.isLt
    split <;> omega
  | ⟨1, _⟩ => rfl

/-- A vector made a column (host form) reads the vector's entry. -/
theorem bcastVecCol_apply {n : Nat} (v : (⟨1, ![n]⟩ : Shape).Idx → α)
    (dims : Fin 1 → Fin 2) (hd0 : dims 0 = 0)
    (hb : (⟨1, ![n]⟩ : Shape).BroadcastsInDim ⟨2, ![n, 1]⟩ dims) (r : Fin n) (u : Fin 1) :
    broadcastInDim ⟨2, ![n, 1]⟩ dims hb v (ix2 r u) = v (ix1 r) := by
  refine broadcastInDim_apply dims hb v (ix2 r u) (ix1 r) fun a => ?_
  match a with
  | ⟨0, _⟩ =>
    show r.val = if n = 1 then 0 else (ix2 r u (dims 0)).val
    rw [hd0]
    show r.val = if n = 1 then 0 else r.val
    have := r.isLt
    split <;> omega

/-- A scalar broadcast (host form) reads the scalar. -/
theorem bcastScalar_apply {t : Shape} (v : (⟨0, ![]⟩ : Shape).Idx → α) (dims : Fin 0 → Fin t.rank)
    (hb : (⟨0, ![]⟩ : Shape).BroadcastsInDim t dims) (j : t.Idx) :
    broadcastInDim t dims hb v j = v ix0 :=
  broadcastInDim_apply dims hb v j ix0 fun a => a.elim0

/-- A column broadcast along the lanes (vector form) reads the row's one entry. -/
theorem bcastToCol_apply {n m : Nat} (v : (⟨2, ![n, 1]⟩ : Shape).Idx → α)
    (hb : (⟨2, ![n, 1]⟩ : Shape).Broadcasts ⟨2, ![n, m]⟩) (r : Fin n) (q : Fin m) :
    broadcastTo ⟨2, ![n, m]⟩ v hb (ix2 r q) = v (ix2 r (0 : Fin 1)) := by
  refine broadcastTo_apply v hb (ix2 r q) (ix2 r (0 : Fin 1)) fun a => ?_
  match a with
  | ⟨0, _⟩ =>
    show r.val = if n = 1 then 0 else r.val
    have := r.isLt
    split <;> omega
  | ⟨1, _⟩ => rfl

/-- A vector cast to a column reads the vector's entry. -/
theorem castCol_apply {n : Nat} (v : (⟨1, ![n]⟩ : Shape).Idx → α)
    (hc : (⟨1, ![n]⟩ : Shape).ShapeCasts ⟨2, ![n, 1]⟩) (r : Fin n) (u : Fin 1) :
    shapeCast ⟨2, ![n, 1]⟩ v hc (ix2 r u) = v (ix1 r) :=
  shapeCast_apply v hc _ _ (by
    have hu : u.val = 0 := by omega
    rw [Shape.rowMajor_val_two, Shape.rowMajor_val_one]
    show r.val = r.val * 1 + u.val
    omega)

/-! ## The mathematics -/

/-- The threshold below which a norm is replaced: the float 1e-12. -/
abbrev eps : EReal := Ideal.ofBits .f32 0x2B8CBCCC#32

/-- The sum of the squares of row `r`. -/
def sqSum {n : Nat} (x : (⟨2, ![n, 64]⟩ : Shape).Idx → EReal) (r : Fin n) : EReal :=
  ∑ k : Fin 64, x (ix2 r k) * x (ix2 r k)

/-- Entry (r, q) of the embedding: h beside msg / max (‖msg‖, ε) · ‖h‖ · scale. -/
def entry {n : Nat} (mg h : (⟨2, ![n, 64]⟩ : Shape).Idx → EReal) (s : EReal) (r : Fin n) (q : Fin 128) : EReal :=
  if hq : q.val < 64 then h (ix2 r ⟨q.val, hq⟩)
  else Ideal.div (mg (ix2 r ⟨q.val - 64, by have := q.isLt; omega⟩)) (max (Ideal.sqrt (sqSum mg r)) eps)
        * Ideal.sqrt (sqSum h r) * s

/-- An entry depends only on its own row of the two tables. -/
theorem entry_congr {n n' : Nat} (mg h : (⟨2, ![n, 64]⟩ : Shape).Idx → EReal) (mg' h' : (⟨2, ![n', 64]⟩ : Shape).Idx → EReal)
    (s s' : EReal) (r : Fin n) (r' : Fin n') (q : Fin 128)
    (hm : ∀ k : Fin 64, mg (ix2 r k) = mg' (ix2 r' k)) (hh : ∀ k : Fin 64, h (ix2 r k) = h' (ix2 r' k)) (hs : s = s') :
    entry mg h s r q = entry mg' h' s' r' q := by
  unfold entry sqSum
  subst hs
  simp only [hm, hh]

/-! ## Row sums -/

/-- The index over row `r` with lane `k` put back. -/
theorem lift_row {n : Nat} (h : (⟨2, ![n, 64]⟩ : Shape).Reduces [1] ⟨1, ![n]⟩) (r : Fin n) (k : Fin 64) :
    h.lift (ix1 r) k = ix2 r k := by
  funext a
  match a with
  | ⟨0, _⟩ => exact Fin.ext rfl
  | ⟨1, _⟩ => exact Fin.ext rfl

/-- A lane sum of squares on the vector unit is the row's sum of squares. -/
theorem laneSum_apply {n : Nat} (x : FVec Ideal ⟨2, ![n, 64]⟩ .f32) (h : (⟨2, ![n, 64]⟩ : Shape).Reduces [1] ⟨1, ![n]⟩)
    (hφ : FKind.Formats .f32) (hacc : (0x00000000#32 : BitVec 32) = 0x00000000#32) (r : Fin n) :
    multiReduction .add [1] ⟨1, ![n]⟩ (mulf x x) 0x00000000#32 h hφ hacc (ix1 r) = sqSum x r := by
  refine (Ideal.multiReduction_add_single (mulf x x) 0x00000000#32 h hφ hacc (ix1 r)).trans ?_
  show ∑ k : Fin 64, mulf x x (h.lift (ix1 r) k) = _
  unfold sqSum
  refine Finset.sum_congr rfl fun k _ => ?_
  rw [lift_row h r k]
  rfl

/-- The host's sum of squares over the lanes, from zero, is the row's sum of squares. -/
theorem hostSum_apply {n : Nat} (x : FVec Ideal ⟨2, ![n, 64]⟩ .f32) (h' : (⟨2, ![n, 64]⟩ : Shape).ReducesTo [1] ⟨1, ![n]⟩)
    (h : (⟨2, ![n, 64]⟩ : Shape).Reduces [1] ⟨1, ![n]⟩) (hu : 0 < (⟨0, ![]⟩ : Shape).numel) (r : Fin n) :
    Host.reduceAdd (F := Ideal) (mulf x x) (constant (F := Ideal) ⟨0, ![]⟩ .f32 0x00000000#32) h' hu (ix1 r) = sqSum x r := by
  show Ideal.hostReduceAdd h' (mulf x x) (Ideal.ofBits .f32 0x00000000#32) (ix1 r) = _
  rw [Ideal.hostReduceAdd_single h' h, Ideal.ofBits_zero_f32, zero_add]
  show ∑ k : Fin 64, mulf x x (h.lift (ix1 r) k) = _
  unfold sqSum
  refine Finset.sum_congr rfl fun k _ => ?_
  rw [lift_row h r k]
  rfl

/-! ## Pointwise host operations at an index -/

theorem hostSqrt_apply {s : Shape} {φ : FTy} (a : FVec Ideal s φ) (i : s.Idx) : Host.sqrt a i = Ideal.sqrt (a i) := rfl
theorem hostDivf_apply {s : Shape} {φ : FTy} (a b : FVec Ideal s φ) (i : s.Idx) : Host.divf a b i = Ideal.div (a i) (b i) := rfl
theorem sqrt_apply {s : Shape} {φ : FTy} (a : FVec Ideal s φ) (i : s.Idx) : sqrt a i = Ideal.sqrt (a i) := rfl

/-! ## The specification at an index -/

/-- The row norm of the specification, at row `r`. -/
theorem norm_apply (x : FVec Ideal S50000x64 .f32) (r : Fin 50000) (u : Fin 1) :
    Cert.Spec.norm x (ix2 r u) = Ideal.sqrt (sqSum x r) := by
  unfold Cert.Spec.norm
  rw [hostSqrt_apply, bcastVecCol_apply _ _ rfl, hostSum_apply x _ (by decide)]

/-- The rescaled message of the specification, at (r, q). -/
theorem agg_apply (mg h : FVec Ideal S50000x64 .f32) (sc : FVec Ideal S_ .f32) (r : Fin 50000) (q : Fin 64) :
    Cert.Spec.agg mg h sc (ix2 r q)
      = Ideal.div (mg (ix2 r q)) (max (Ideal.sqrt (sqSum mg r)) eps) * Ideal.sqrt (sqSum h r) * sc ix0 := by
  unfold Cert.Spec.agg
  rw [mulf_apply, mulf_apply, hostDivf_apply, bcastCol_apply _ _ rfl rfl, bcastCol_apply _ _ rfl rfl, bcastScalar_apply,
    maximumf_apply, bcastScalar_apply, norm_apply, norm_apply]
  rfl

/-- The specification's embedding, at (r, q). -/
theorem embed_apply (mg h : FVec Ideal S50000x64 .f32) (sc : FVec Ideal S_ .f32) (r : Fin 50000) (q : Fin 128) :
    Cert.Spec.embed mg h sc (ix2 r q) = entry mg h (sc ix0) r q := by
  unfold Cert.Spec.embed entry
  by_cases hq : q.val < 64
  · rw [dif_pos hq]
    exact concatenate_pair_apply_left (1 : Fin 2) h _ _ (ix2 r q) rfl (ix2 r ⟨q.val, hq⟩)
      (fun b => match b with | ⟨0, _⟩ => rfl | ⟨1, _⟩ => rfl)
  · rw [dif_neg hq]
    have hq' : q.val - 64 < 64 := by have := q.isLt; omega
    refine (concatenate_pair_apply_right (s₂ := S50000x64) (1 : Fin 2) h _ _ (ix2 r q) rfl rfl (ix2 r (⟨q.val - 64, hq'⟩ : Fin 64)) ?_ ?_).trans ?_
    · intro b hb
      match b with
      | ⟨0, _⟩ => rfl
      | ⟨1, _⟩ => exact absurd rfl hb
    · show q.val - 64 + 64 = q.val
      omega
    · exact agg_apply mg h sc r ⟨q.val - 64, hq'⟩

/-! ## The kernel's payload at an index -/

/-- The one-by-one array's entry. -/
theorem extract_one (x2 : Vec Ideal S1x1 .f32) (hp : ∀ a, (![0, 0] : Fin 2 → Nat) a < S1x1.size a) :
    extractAt ![0, 0] x2 hp = x2 (ix2 (0 : Fin 1) (0 : Fin 1)) :=
  congrArg x2 (funext fun a => match a with | ⟨0, _⟩ => rfl | ⟨1, _⟩ => rfl)

/-- What the body stores, at (p, q) of its block: the entry of the embedding built from the three loaded blocks. -/
theorem pay_apply (x0 x1 : Vec Ideal S5000x64 .f32) (x2 : Vec Ideal S1x1 .f32) (p : Fin 5000) (q : Fin 128) :
    k3_pay1 (F := Ideal) x0 x1 x2 (ix2 p q) = entry x0 x1 (x2 (ix2 (0 : Fin 1) (0 : Fin 1))) p q := by
  unfold k3_pay1 entry
  simp only [shapeCast_self]
  by_cases hq : q.val < 64
  · rw [dif_pos hq]
    exact concatenate_pair_apply_left (1 : Fin 2) x1 _ _ (ix2 p q) rfl (ix2 p ⟨q.val, hq⟩)
      (fun b => match b with | ⟨0, _⟩ => rfl | ⟨1, _⟩ => rfl)
  · rw [dif_neg hq]
    have hq' : q.val - 64 < 64 := by have := q.isLt; omega
    refine (concatenate_pair_apply_right (s₂ := S5000x64) (1 : Fin 2) x1 _ _ (ix2 p q) rfl rfl (ix2 p (⟨q.val - 64, hq'⟩ : Fin 64)) ?_ ?_).trans ?_
    · intro b hb
      match b with
      | ⟨0, _⟩ => rfl
      | ⟨1, _⟩ => exact absurd rfl hb
    · show q.val - 64 + 64 = q.val
      omega
    · rw [mulf_apply, mulf_apply, divf_apply, bcastToCol_apply, bcastToCol_apply, broadcast_apply, maximumf_apply,
        broadcast_apply, sqrt_apply, sqrt_apply, castCol_apply, castCol_apply, laneSum_apply, laneSum_apply, extract_one]
      rfl

/-! ## From the blocks to the array -/

theorem hz : (![0, 0] : Fin 2 → Nat) = fun _ => 0 := funext fun a => by fin_cases a <;> rfl

/-- The windows' block indices over the grid: the two row tables and the output move with the grid point along the
    rows, the one-by-one array stays. -/
theorem idx_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- What grid point `t` writes back is rows 5000 t … 5000 t + 4999 of the embedding. -/
theorem flushed_eq (V : Vals) (c : Dev nD) (sc : FVec Ideal S_ .f32)
    (hs : (V c main_v48 : FVec Ideal S1x1 .f32) = shapeCast S1x1 sc shapeCasts_S_S1x1) (t : Fin cfg3.N) :
    (dat3 V c).flushed 3 t = ((cfg3.win 3).blk t).view.read (Elt Ideal)
      (Cert.Spec.embed (V c main_v47 : FVec Ideal S50000x64 .f32) (V c main_v1 : FVec Ideal S50000x64 .f32) sc) := by
  show (cfg3.win 3).cut (grid3.coords t) ((dat3 V c).after 3 t) = _
  rw [after3_3]
  unfold out3_3
  rw [View.canon_unit_zero hz]
  simp only [View.ld_unit_zero (S := S5000x64) hz, View.ld_unit_zero (S := S1x1) hz]
  obtain ⟨e00, e01, e10, e11, e20, e21, e30, e31⟩ := idx_facts t
  have ht : t.val < 10 := by have h1 := t.isLt; have h2 : cfg3.N = 10 := N_3; omega
  funext j
  obtain ⟨p, q, rfl⟩ : ∃ (p : Fin 5000) (q : Fin 128), j = ix2 p q := ⟨j 0, j 1, eq_ix2 j⟩
  have hr : 5000 * t.val + p.val < 50000 := by have := p.isLt; omega
  show k3_pay1 (F := Ideal) (iblk3 V c 0 t) (iblk3 V c 1 t) (iblk3 V c 2 t) (ix2 p q)
      = Cert.Spec.embed (V c main_v47 : FVec Ideal S50000x64 .f32) (V c main_v1 : FVec Ideal S50000x64 .f32) sc (((cfg3.win 3).blk t).view.emb (ix2 p q))
  have hemb : ((cfg3.win 3).blk t).view.emb (ix2 p q) = ix2 (⟨5000 * t.val + p.val, hr⟩ : Fin 50000) q := by
    funext a; apply Fin.ext
    match a with
    | ⟨0, _⟩ => show win3_3.index t (0 : Fin 2) * 5000 + 1 * p.val = 5000 * t.val + p.val; omega
    | ⟨1, _⟩ => show win3_3.index t (1 : Fin 2) * 128 + 1 * q.val = q.val; omega
  rw [hemb]
  refine (pay_apply _ _ _ p q).trans ?_
  refine Eq.trans ?_ (embed_apply _ _ sc ⟨5000 * t.val + p.val, hr⟩ q).symm
  refine entry_congr _ _ _ _ _ _ p ⟨5000 * t.val + p.val, hr⟩ q (fun k => ?_) (fun k => ?_) ?_
  · show V c main_v47 (((cfg3.win 0).blk t).view.emb (ix2 p k)) = V c main_v47 (ix2 (⟨5000 * t.val + p.val, hr⟩ : Fin 50000) k)
    congr 1
    funext a; apply Fin.ext
    match a with
    | ⟨0, _⟩ => show win3_0.index t (0 : Fin 2) * 5000 + 1 * p.val = 5000 * t.val + p.val; omega
    | ⟨1, _⟩ => show win3_0.index t (1 : Fin 2) * 64 + 1 * k.val = k.val; omega
  · show V c main_v1 (((cfg3.win 1).blk t).view.emb (ix2 p k)) = V c main_v1 (ix2 (⟨5000 * t.val + p.val, hr⟩ : Fin 50000) k)
    congr 1
    funext a; apply Fin.ext
    match a with
    | ⟨0, _⟩ => show win3_1.index t (0 : Fin 2) * 5000 + 1 * p.val = 5000 * t.val + p.val; omega
    | ⟨1, _⟩ => show win3_1.index t (1 : Fin 2) * 64 + 1 * k.val = k.val; omega
  · show (V c main_v48 : FVec Ideal S1x1 .f32) (((cfg3.win 2).blk t).view.emb (ix2 (0 : Fin 1) (0 : Fin 1))) = sc ix0
    rw [hs]
    refine shapeCast_apply sc _ _ ix0 ?_
    rw [Shape.rowMajor_val_two]
    show (Shape.rowMajorPi _ ix0).val = _
    rw [Shape.rowMajorPi_zero]
    show 0 = (win3_2.index t (0 : Fin 2) * 1 + 1 * 0) * 1 + (win3_2.index t (1 : Fin 2) * 1 + 1 * 0)
    omega

/-- An index of the output array is in grid point `t`'s block iff each coordinate is in the block's range. -/
theorem mem_blk (t : Fin cfg3.N) (i : S50000x128.Idx) :
    i ∈ ((cfg3.win 3).blk t).view.set
      ↔ ∀ a : Fin 2, win3_3.index t a * S5000x128.size a ≤ (i a).val ∧ (i a).val < win3_3.index t a * S5000x128.size a + S5000x128.size a := by
  show i ∈ ((View.whole main_v49).slice (win3_3.rect t)).set ↔ _
  rw [View.set_slice_whole, Rect.mem_set_unit]
  exact Iff.rfl

/-- The ten row blocks cover the output array: row `r` lies in the block of grid point `r / 5000`. -/
theorem cover (i : S50000x128.Idx) :
    ∃ t : Fin cfg3.N, (cfg3.win 3).flush t = true ∧ i ∈ ((cfg3.win 3).blk t).view.set := by
  have hi0 : (i 0).val < 50000 := (i 0).isLt
  have hi1 : (i 1).val < 128 := (i 1).isLt
  have hN : cfg3.N = 10 := N_3
  obtain ⟨t, ht⟩ : ∃ t : Fin cfg3.N, t.val = (i 0).val / 5000 := ⟨⟨(i 0).val / 5000, by omega⟩, rfl⟩
  obtain ⟨-, -, -, -, -, -, e30, e31⟩ := idx_facts t
  refine ⟨t, flush3_3 t, ?_⟩
  rw [mem_blk]
  intro a
  match a with
  | ⟨0, _⟩ =>
    show win3_3.index t (0 : Fin 2) * 5000 ≤ (i 0).val ∧ (i 0).val < win3_3.index t (0 : Fin 2) * 5000 + 5000
    omega
  | ⟨1, _⟩ =>
    show win3_3.index t (1 : Fin 2) * 128 ≤ (i 1).val ∧ (i 1).val < win3_3.index t (1 : Fin 2) * 128 + 128
    omega

/-- After region 3 its output array holds the embedding, where the scale window's array is the scalar as a 1 × 1 array. -/
theorem value (V : Vals) (c : Dev nD) (sc : FVec Ideal S_ .f32)
    (hs : (V c main_v48 : FVec Ideal S1x1 .f32) = shapeCast S1x1 sc shapeCasts_S_S1x1) :
    ((dat3 V c).arrAt 3 cfg3.N : FVec Ideal S50000x128 .f32)
      = Cert.Spec.embed (V c main_v47 : FVec Ideal S50000x64 .f32) (V c main_v1 : FVec Ideal S50000x64 .f32) sc :=
  (dat3 V c).arrAt_eq_of_cover 3 _ (fun t _ => flushed_eq V c sc hs t) cover

end Cert.Stage3

end
-- ==== Proof.KernelValue.lean ====
/-
  The idealized kernel's two results as functions of its arguments.

  The kernel program is four pipelined regions among stretches of host operations. Its buffer contents at each boundary
  are a fold from the launch memory: a host stretch applies its operations, a region replaces its output array by what
  its write-backs leave and keeps every other buffer. Read through that fold, boundary by boundary:
    after region 0   the projected node rows h = x · W + b                    (Stage0)
    host stretch 1   the edge list in both directions, the gathered rows h_s and h_d, the three slices of a
    after region 1   the attention weight of every directed edge               (Stage1)
    host stretch 2   its log-softmax over each node's out-edges, and that array's unbiased variance — the second result
    after region 2   every edge's contribution h_d · attN                      (Stage2)
    host stretch 3   the contributions summed per source node
    after region 3   the embedding [h, normalised message] — the first result  (Stage3)
  Each host stretch applies exactly the reference's operations, so the two results are the specification's
  `final` and `variance` of the arguments.
-/
import proofs.«138567_j75642964017820_1_alg».proof.Proof.Gen.KernelIdeal.Frame
import proofs.«138567_j75642964017820_1_alg».proof.Proof.Gen.ReferenceIdeal
import proofs.«138567_j75642964017820_1_alg».proof.Proof.Spec
import proofs.«138567_j75642964017820_1_alg».proof.Proof.Stage0
import proofs.«138567_j75642964017820_1_alg».proof.Proof.Stage1
import proofs.«138567_j75642964017820_1_alg».proof.Proof.Stage2
import proofs.«138567_j75642964017820_1_alg».proof.Proof.Stage3
import Idealize.ShloMosaic.Lib.StableHlo.Run

set_option maxRecDepth 16384

noncomputable section

namespace Cert.KernelValue

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg) (c : Dev nD)

/-! ## The arguments at launch -/

abbrev X : FVec Ideal S50000x128 .f32 := m ((c : Thread nD τ).loc main_arg0)
abbrev EF : FVec Ideal S400000x32 .f32 := m ((c : Thread nD τ).loc main_arg1)
abbrev E : IVec S2x400000 32 := m ((c : Thread nD τ).loc main_arg2)
abbrev Wt : FVec Ideal S128x64 .f32 := m ((c : Thread nD τ).loc main_arg3)
abbrev B : FVec Ideal S64 .f32 := m ((c : Thread nD τ).loc main_arg4)
abbrev A : FVec Ideal S160x1 .f32 := m ((c : Thread nD τ).loc main_arg5)
abbrev SC : FVec Ideal S_ .f32 := m ((c : Thread nD τ).loc main_arg6)

/-- The projected rows, the two index columns and the log-softmax attention, as the specification names them. -/
abbrev HV : FVec Ideal S50000x64 .f32 := Cert.Spec.hv (X m c) (Wt m c) (B m c)
abbrev SRC : IVec S800000 32 := Cert.Spec.src (E m c)
abbrev DST : IVec S800000 32 := Cert.Spec.dst (E m c)
abbrev ATT : FVec Ideal S800000x1 .f32 :=
  Cert.Spec.att (Cert.Spec.rows (HV m c) (SRC m c)) (Cert.Spec.rows (HV m c) (DST m c)) (Cert.Spec.both (EF m c)) (A m c)
abbrev AN : FVec Ideal S800000x1 .f32 := Cert.Spec.attNorm (SRC m c) (ATT m c)

/-! ## Region 0's entry: one host operation, the bias as a row -/

theorem W1_v0 : (W1 m ρ c (Proc.devRef .tc main_v0) : FVec Ideal S1x64 .f32) = shapeCast S1x64 (B m c) shapeCasts_S64_S1x64 := by
  show StableHlo.after hostOps0 (W0 m ρ c) (Proc.devRef .tc main_v0) = _
  after_results
  rfl

theorem W1_arg0 : (W1 m ρ c (Proc.devRef .tc main_arg0) : FVec Ideal S50000x128 .f32) = X m c := by
  show StableHlo.after hostOps0 (W0 m ρ c) (Proc.devRef .tc main_arg0) = _
  after_results
theorem W1_arg1 : (W1 m ρ c (Proc.devRef .tc main_arg1) : FVec Ideal S400000x32 .f32) = EF m c := by
  show StableHlo.after hostOps0 (W0 m ρ c) (Proc.devRef .tc main_arg1) = _
  after_results
theorem W1_arg2 : (W1 m ρ c (Proc.devRef .tc main_arg2) : IVec S2x400000 32) = E m c := by
  show StableHlo.after hostOps0 (W0 m ρ c) (Proc.devRef .tc main_arg2) = _
  after_results
theorem W1_arg3 : (W1 m ρ c (Proc.devRef .tc main_arg3) : FVec Ideal S128x64 .f32) = Wt m c := by
  show StableHlo.after hostOps0 (W0 m ρ c) (Proc.devRef .tc main_arg3) = _
  after_results
theorem W1_arg5 : (W1 m ρ c (Proc.devRef .tc main_arg5) : FVec Ideal S160x1 .f32) = A m c := by
  show StableHlo.after hostOps0 (W0 m ρ c) (Proc.devRef .tc main_arg5) = _
  after_results
theorem W1_arg6 : (W1 m ρ c (Proc.devRef .tc main_arg6) : FVec Ideal S_ .f32) = SC m c := by
  show StableHlo.after hostOps0 (W0 m ρ c) (Proc.devRef .tc main_arg6) = _
  after_results

/-! ## Region 0's exit: its output array is h; the buffers it does not touch are as entered -/

theorem W2_v1 : (W2 m ρ c (Proc.devRef .tc main_v1) : FVec Ideal S50000x64 .f32) = HV m c := by
  have h := Cert.Stage0.value (V1 m ρ) c (B m c) (W1_v0 m ρ c)
  rw [show (V1 m ρ c main_arg0 : FVec Ideal S50000x128 .f32) = X m c from W1_arg0 m ρ c,
      show (V1 m ρ c main_arg3 : FVec Ideal S128x64 .f32) = Wt m c from W1_arg3 m ρ c] at h
  exact (W2_arr m ρ c 3).trans h

theorem W2_arg1 : (W2 m ρ c (Proc.devRef .tc main_arg1) : FVec Ideal S400000x32 .f32) = EF m c :=
  (W2_of_ne m ρ c main_arg1 (by decide)).trans (W1_arg1 m ρ c)
theorem W2_arg2 : (W2 m ρ c (Proc.devRef .tc main_arg2) : IVec S2x400000 32) = E m c :=
  (W2_of_ne m ρ c main_arg2 (by decide)).trans (W1_arg2 m ρ c)
theorem W2_arg5 : (W2 m ρ c (Proc.devRef .tc main_arg5) : FVec Ideal S160x1 .f32) = A m c :=
  (W2_of_ne m ρ c main_arg5 (by decide)).trans (W1_arg5 m ρ c)
theorem W2_arg6 : (W2 m ρ c (Proc.devRef .tc main_arg6) : FVec Ideal S_ .f32) = SC m c :=
  (W2_of_ne m ρ c main_arg6 (by decide)).trans (W1_arg6 m ρ c)

/-! ## Region 1's entry: the edge list both ways, the gathered rows, the slices of the attention vector -/

theorem W3_v7 : (W3 m ρ c (Proc.devRef .tc main_v7) : IVec S800000 32) = SRC m c := by
  show StableHlo.after hostOps1 (W2 m ρ c) (Proc.devRef .tc main_v7) = _
  after_results
  rw [W2_arg2]
  rfl

theorem W3_v16 : (W3 m ρ c (Proc.devRef .tc main_v16) : FVec Ideal S800000x64 .f32) = Cert.Spec.rows (HV m c) (SRC m c) := by
  show StableHlo.after hostOps1 (W2 m ρ c) (Proc.devRef .tc main_v16) = _
  after_results
  rw [W2_arg2, W2_v1]
  rfl

theorem W3_v23 : (W3 m ρ c (Proc.devRef .tc main_v23) : FVec Ideal S800000x64 .f32) = Cert.Spec.rows (HV m c) (DST m c) := by
  show StableHlo.after hostOps1 (W2 m ρ c) (Proc.devRef .tc main_v23) = _
  after_results_simp
  repeat (first | rw [unary_result] | rw [reshape_result] | (rw [unary_result_ne]; rotate_left; decide) | (rw [reshape_result_ne]; rotate_left; decide))
  rw [W2_arg2, W2_v1]
  rfl

theorem W3_v5 : (W3 m ρ c (Proc.devRef .tc main_v5) : FVec Ideal S800000x32 .f32) = Cert.Spec.both (EF m c) := by
  show StableHlo.after hostOps1 (W2 m ρ c) (Proc.devRef .tc main_v5) = _
  after_results
  rw [W2_arg1]
  rfl

theorem W3_v25 : (W3 m ρ c (Proc.devRef .tc main_v25) : FVec Ideal S1x64 .f32)
    = shapeCast S1x64 (extractStridedSlice S64x1 ![0, 0] (A m c) slices_S160x1_S64x1_0_0) shapeCasts_S64x1_S1x64 := by
  show StableHlo.after hostOps1 (W2 m ρ c) (Proc.devRef .tc main_v25) = _
  after_results
  rw [W2_arg5]
  rfl

theorem W3_v27 : (W3 m ρ c (Proc.devRef .tc main_v27) : FVec Ideal S1x64 .f32)
    = shapeCast S1x64 (extractStridedSlice S64x1 ![64, 0] (A m c) slices_S160x1_S64x1_64_0) shapeCasts_S64x1_S1x64 := by
  show StableHlo.after hostOps1 (W2 m ρ c) (Proc.devRef .tc main_v27) = _
  after_results
  rw [W2_arg5]
  rfl

theorem W3_v29 : (W3 m ρ c (Proc.devRef .tc main_v29) : FVec Ideal S1x32 .f32)
    = shapeCast S1x32 (extractStridedSlice S32x1 ![128, 0] (A m c) slices_S160x1_S32x1_128_0) shapeCasts_S32x1_S1x32 := by
  show StableHlo.after hostOps1 (W2 m ρ c) (Proc.devRef .tc main_v29) = _
  after_results
  rw [W2_arg5]
  rfl

theorem W3_v1 : (W3 m ρ c (Proc.devRef .tc main_v1) : FVec Ideal S50000x64 .f32) = HV m c := by
  show StableHlo.after hostOps1 (W2 m ρ c) (Proc.devRef .tc main_v1) = _
  after_results
  exact W2_v1 m ρ c

theorem W3_arg6 : (W3 m ρ c (Proc.devRef .tc main_arg6) : FVec Ideal S_ .f32) = SC m c := by
  show StableHlo.after hostOps1 (W2 m ρ c) (Proc.devRef .tc main_arg6) = _
  after_results
  exact W2_arg6 m ρ c

/-! ## Region 1's exit: its output array is the attention weight of every directed edge -/

theorem W4_v30 : (W4 m ρ c (Proc.devRef .tc main_v30) : FVec Ideal S800000x1 .f32) = ATT m c := by
  have h := Cert.Stage1.value (V3 m ρ) c (A m c) (W3_v25 m ρ c) (W3_v27 m ρ c) (W3_v29 m ρ c)
  rw [show (V3 m ρ c main_v16 : FVec Ideal S800000x64 .f32) = _ from W3_v16 m ρ c,
      show (V3 m ρ c main_v23 : FVec Ideal S800000x64 .f32) = _ from W3_v23 m ρ c,
      show (V3 m ρ c main_v5 : FVec Ideal S800000x32 .f32) = _ from W3_v5 m ρ c] at h
  exact (W4_arr m ρ c 6).trans h

/-- An input window's array is left as entered. -/
theorem W4_v23 : (W4 m ρ c (Proc.devRef .tc main_v23) : FVec Ideal S800000x64 .f32) = Cert.Spec.rows (HV m c) (DST m c) :=
  ((W4_arr m ρ c 1).trans (((dat1 (V3 m ρ) c).arrAt_in 1 rfl _).trans (A_eq1 (V3 m ρ) c 1))).trans (W3_v23 m ρ c)

theorem W4_v7 : (W4 m ρ c (Proc.devRef .tc main_v7) : IVec S800000 32) = SRC m c :=
  (W4_of_ne m ρ c main_v7 (by decide)).trans (W3_v7 m ρ c)
theorem W4_v1 : (W4 m ρ c (Proc.devRef .tc main_v1) : FVec Ideal S50000x64 .f32) = HV m c :=
  (W4_of_ne m ρ c main_v1 (by decide)).trans (W3_v1 m ρ c)
theorem W4_arg6 : (W4 m ρ c (Proc.devRef .tc main_arg6) : FVec Ideal S_ .f32) = SC m c :=
  (W4_of_ne m ρ c main_arg6 (by decide)).trans (W3_arg6 m ρ c)

/-! ## Region 2's entry: the log-softmax attention, and its variance (the second result) -/

theorem W5_v42 : (W5 m ρ c (Proc.devRef .tc main_v42) : FVec Ideal S800000x1 .f32) = AN m c := by
  show StableHlo.after hostOps2 (W4 m ρ c) (Proc.devRef .tc main_v42) = _
  after_results_simp
  rw [W4_v7, W4_v30]
  rfl

theorem W5_c5 : (W5 m ρ c (Proc.devRef .tc main_c_5) : IVec S_ 32) = constantI S_ 32 1#32 := by
  show StableHlo.after hostOps2 (W4 m ρ c) (Proc.devRef .tc main_c_5) = _
  after_results

theorem W5_v23 : (W5 m ρ c (Proc.devRef .tc main_v23) : FVec Ideal S800000x64 .f32) = Cert.Spec.rows (HV m c) (DST m c) := by
  show StableHlo.after hostOps2 (W4 m ρ c) (Proc.devRef .tc main_v23) = _
  after_results
  exact W4_v23 m ρ c
theorem W5_v7 : (W5 m ρ c (Proc.devRef .tc main_v7) : IVec S800000 32) = SRC m c := by
  show StableHlo.after hostOps2 (W4 m ρ c) (Proc.devRef .tc main_v7) = _
  after_results
  exact W4_v7 m ρ c
theorem W5_v1 : (W5 m ρ c (Proc.devRef .tc main_v1) : FVec Ideal S50000x64 .f32) = HV m c := by
  show StableHlo.after hostOps2 (W4 m ρ c) (Proc.devRef .tc main_v1) = _
  after_results
  exact W4_v1 m ρ c
theorem W5_arg6 : (W5 m ρ c (Proc.devRef .tc main_arg6) : FVec Ideal S_ .f32) = SC m c := by
  show StableHlo.after hostOps2 (W4 m ρ c) (Proc.devRef .tc main_arg6) = _
  after_results
  exact W4_arg6 m ρ c

/-- Transporting contents to a buffer's type and back is the identity. -/
theorem ofBuf_toBuf {T : BufTy} (x : TRef sig T) (v : T.Contents (Elt Ideal)) : x.ofBuf (x.toBuf v) = v := by
  obtain ⟨r, h, h1, h2⟩ := x
  subst h
  rfl

/-- The variance call read at ANY contents of its two operand buffers: its twenty operations are the
    specification's `var` of the array they start from. -/
theorem var_read (Wv : Valuation τ sig (Elt Ideal)) (an : FVec Ideal S800000x1 .f32)
    (e42 : (Wv (Proc.devRef .tc main_v42) : FVec Ideal S800000x1 .f32) = an)
    (e5 : (Wv (Proc.devRef .tc main_c_5) : IVec S_ 32) = constantI S_ 32 1#32) :
    (StableHlo.after hostOps2_1 Wv (Proc.devRef .tc main_v43) : FVec Ideal S_ .f32) = Cert.Spec.var an := by
  have e42' : (TRef.of main_v42 : TRef sig ⟨S800000x1, .f32⟩).ofBuf (Wv (Proc.devRef .tc main_v42)) = an := e42
  have e5' : (TRef.of main_c_5 : TRef sig ⟨S_, .i32⟩).ofBuf (Wv (Proc.devRef .tc main_c_5)) = constantI S_ 32 1#32 := e5
  show (TRef.of main_v43 : TRef sig ⟨S_, .f32⟩).ofBuf (StableHlo.after hostOps2_1 Wv (Proc.devRef .tc main_v43)) = _
  after_results_simp
  simp only [ofBuf_toBuf]
  rw [e42', e5']
  unfold Cert.Spec.var Cert.Spec.sqdev Cert.Spec.mean Cert.Spec.dof
  rfl

theorem W6_v43 : (W6 m ρ c (Proc.devRef .tc main_v43) : FVec Ideal S_ .f32) = Cert.Spec.var (AN m c) :=
  var_read (W5 m ρ c) (AN m c) (W5_v42 m ρ c) (W5_c5 m ρ c)

theorem W6_v42 : (W6 m ρ c (Proc.devRef .tc main_v42) : FVec Ideal S800000x1 .f32) = AN m c := by
  have e := W5_v42 m ρ c
  show StableHlo.after hostOps2_1 (W5 m ρ c) (Proc.devRef .tc main_v42) = _
  generalize W5 m ρ c = Wv at e ⊢
  after_results
  exact e
theorem W6_v23 : (W6 m ρ c (Proc.devRef .tc main_v23) : FVec Ideal S800000x64 .f32) = Cert.Spec.rows (HV m c) (DST m c) := by
  have e := W5_v23 m ρ c
  show StableHlo.after hostOps2_1 (W5 m ρ c) (Proc.devRef .tc main_v23) = _
  generalize W5 m ρ c = Wv at e ⊢
  after_results
  exact e
theorem W6_v7 : (W6 m ρ c (Proc.devRef .tc main_v7) : IVec S800000 32) = SRC m c := by
  have e := W5_v7 m ρ c
  show StableHlo.after hostOps2_1 (W5 m ρ c) (Proc.devRef .tc main_v7) = _
  generalize W5 m ρ c = Wv at e ⊢
  after_results
  exact e
theorem W6_v1 : (W6 m ρ c (Proc.devRef .tc main_v1) : FVec Ideal S50000x64 .f32) = HV m c := by
  have e := W5_v1 m ρ c
  show StableHlo.after hostOps2_1 (W5 m ρ c) (Proc.devRef .tc main_v1) = _
  generalize W5 m ρ c = Wv at e ⊢
  after_results
  exact e
theorem W6_arg6 : (W6 m ρ c (Proc.devRef .tc main_arg6) : FVec Ideal S_ .f32) = SC m c := by
  have e := W5_arg6 m ρ c
  show StableHlo.after hostOps2_1 (W5 m ρ c) (Proc.devRef .tc main_arg6) = _
  generalize W5 m ρ c = Wv at e ⊢
  after_results
  exact e

/-! ## Region 2's exit: its output array is every edge's contribution -/

theorem W7_v44 : (W7 m ρ c (Proc.devRef .tc main_v44) : FVec Ideal S800000x64 .f32)
    = Cert.Spec.contrib (Cert.Spec.rows (HV m c) (DST m c)) (AN m c) := by
  have h := Cert.Stage2.value (V6 m ρ) c
  rw [show (V6 m ρ c main_v23 : FVec Ideal S800000x64 .f32) = _ from W6_v23 m ρ c,
      show (V6 m ρ c main_v42 : FVec Ideal S800000x1 .f32) = _ from W6_v42 m ρ c] at h
  exact (W7_arr m ρ c 2).trans h

theorem W7_v43 : (W7 m ρ c (Proc.devRef .tc main_v43) : FVec Ideal S_ .f32) = Cert.Spec.var (AN m c) :=
  (W7_of_ne m ρ c main_v43 (by decide)).trans (W6_v43 m ρ c)
theorem W7_v7 : (W7 m ρ c (Proc.devRef .tc main_v7) : IVec S800000 32) = SRC m c :=
  (W7_of_ne m ρ c main_v7 (by decide)).trans (W6_v7 m ρ c)
theorem W7_v1 : (W7 m ρ c (Proc.devRef .tc main_v1) : FVec Ideal S50000x64 .f32) = HV m c :=
  (W7_of_ne m ρ c main_v1 (by decide)).trans (W6_v1 m ρ c)
theorem W7_arg6 : (W7 m ρ c (Proc.devRef .tc main_arg6) : FVec Ideal S_ .f32) = SC m c :=
  (W7_of_ne m ρ c main_arg6 (by decide)).trans (W6_arg6 m ρ c)

/-! ## Region 3's entry: the contributions summed per source node; the scale as a 1 × 1 array -/

theorem W8_v47 : (W8 m ρ c (Proc.devRef .tc main_v47) : FVec Ideal S50000x64 .f32)
    = Cert.Spec.msg (SRC m c) (Cert.Spec.contrib (Cert.Spec.rows (HV m c) (DST m c)) (AN m c)) := by
  show StableHlo.after hostOps3 (W7 m ρ c) (Proc.devRef .tc main_v47) = _
  after_results
  rw [W7_v7, W7_v44]
  rfl

theorem W8_v48 : (W8 m ρ c (Proc.devRef .tc main_v48) : FVec Ideal S1x1 .f32) = shapeCast S1x1 (SC m c) shapeCasts_S_S1x1 := by
  show StableHlo.after hostOps3 (W7 m ρ c) (Proc.devRef .tc main_v48) = _
  after_results
  rw [W7_arg6]
  rfl

theorem W8_v1 : (W8 m ρ c (Proc.devRef .tc main_v1) : FVec Ideal S50000x64 .f32) = HV m c := by
  show StableHlo.after hostOps3 (W7 m ρ c) (Proc.devRef .tc main_v1) = _
  after_results
  exact W7_v1 m ρ c

theorem W8_v43 : (W8 m ρ c (Proc.devRef .tc main_v43) : FVec Ideal S_ .f32) = Cert.Spec.var (AN m c) := by
  show StableHlo.after hostOps3 (W7 m ρ c) (Proc.devRef .tc main_v43) = _
  after_results
  exact W7_v43 m ρ c

/-! ## The two results -/

/-- The first result buffer after the last region: the embedding of the arguments. -/
theorem W9_v49 : (W9 m ρ c (Proc.devRef .tc main_v49) : FVec Ideal S50000x128 .f32)
    = Cert.Spec.final (X m c) (EF m c) (E m c) (Wt m c) (B m c) (A m c) (SC m c) := by
  have h := Cert.Stage3.value (V8 m ρ) c (SC m c) (W8_v48 m ρ c)
  rw [show (V8 m ρ c main_v47 : FVec Ideal S50000x64 .f32) = _ from W8_v47 m ρ c,
      show (V8 m ρ c main_v1 : FVec Ideal S50000x64 .f32) = _ from W8_v1 m ρ c] at h
  exact (W9_arr m ρ c 3).trans h

/-- The second result buffer after the last region: the variance of the log-softmax attention. -/
theorem W9_v43 : (W9 m ρ c (Proc.devRef .tc main_v43) : FVec Ideal S_ .f32)
    = Cert.Spec.variance (X m c) (EF m c) (E m c) (Wt m c) (B m c) (A m c) :=
  (W9_of_ne m ρ c main_v43 (by decide)).trans (W8_v43 m ρ c)

end Cert.KernelValue

end
-- ==== Proof.RefRun.lean ====
/- The reference's run: every weakly fair execution of its @main terminates with the two results at the stage
   functions' composition (`Cert.Spec.final`, `Cert.Spec.variance`) of the arguments, the arguments unchanged. -/
import proofs.«138567_j75642964017820_1_alg».proof.Proof.Gen.ReferenceIdeal
import proofs.«138567_j75642964017820_1_alg».proof.Proof.Spec
import Idealize.ShloMosaic.Lib.StableHlo.Run
import Idealize.ShloMosaic.Lib.Pipeline.Regions

noncomputable section

namespace Cert.RefRun

open Cert.ReferenceIdeal Cert.ReferenceIdeal.Gen Idealize.ShloMosaic Idealize.ShloMosaic.TcCoe Idealize.SL.Sem Idealize.ShloMosaic.StableHlo

/-! ## The program as a list of operations

@main is a straight line of 112 host operations once its four calls are read at their call sites (the callee's
operations over the buffers the call names). The line is listed in ten consecutive stretches, one per stage of
the computation, so that each stage's result can be read back on its own. -/

variable {F : FTy → Type} [FloatOps F]

/-- Whole-array contents of shape `S` and element type `e`, for float values `F`. -/
abbrev C (F : FTy → Type) (S : Shape) (e : EltTy) : Type := (⟨S, e⟩ : BufTy).Contents (Elt F)

/-- Operations 1–12: the directed edge list (both directions of every pair), its source and destination columns,
    the edge features once per direction, and the projected node rows x · W + b. -/
def opsA : List (HloOp τ sig (Elt F)) :=
  [ reshape main_arg2 main_v0 rfl shapeCasts_S2x400000_S400000x2,
    unary main_v0 main_v1 (Host.reverse [1] : C F S400000x2 .i32 → C F S400000x2 .i32),
    binary main_v0 main_v1 main_v2 ((fun a b => concatenate S800000x2 0 [⟨S400000x2, a⟩, ⟨S400000x2, b⟩] concatenates_S400000x2_S400000x2_S800000x2_d0) : C F S400000x2 .i32 → C F S400000x2 .i32 → C F S800000x2 .i32),
    binary main_arg1 main_arg1 main_v3 ((fun a b => concatenate S800000x32 0 [⟨S400000x32, a⟩, ⟨S400000x32, b⟩] concatenates_S400000x32_S400000x32_S800000x32_d0) : C F S400000x32 .f32 → C F S400000x32 .f32 → C F S800000x32 .f32),
    unary main_v2 main_v4 ((extractStridedSlice S800000x1 ![0, 0] · slices_S800000x2_S800000x1_0_0) : C F S800000x2 .i32 → C F S800000x1 .i32),
    reshape main_v4 main_v5 rfl shapeCasts_S800000x1_S800000,
    unary main_v2 main_v6 ((extractStridedSlice S800000x1 ![0, 1] · slices_S800000x2_S800000x1_0_1) : C F S800000x2 .i32 → C F S800000x1 .i32),
    reshape main_v6 main_v7 rfl shapeCasts_S800000x1_S800000,
    binary main_arg0 main_arg3 main_v8 ((fun l r => Host.dotGeneral dot_S50000x128_S128x64_S50000x64_1_0_0_1_n_n none l r) : C F S50000x128 .f32 → C F S128x64 .f32 → C F S50000x64 .f32),
    unary main_arg4 main_v9 (broadcastInDim S1x64 ![1] bcast_S64_S1x64_1 : C F S64 .f32 → C F S1x64 .f32),
    unary main_v9 main_v10 (broadcastInDim S50000x64 ![0, 1] bcast_S1x64_S50000x64_0_1 : C F S1x64 .f32 → C F S50000x64 .f32),
    binary main_v8 main_v10 main_v11 (addf : C F S50000x64 .f32 → C F S50000x64 .f32 → C F S50000x64 .f32) ]

/-- Operations 13–21: the source column as a gather reads it, and the projected rows at every edge's source. -/
def opsB1 : List (HloOp τ sig (Elt F)) :=
  [ nullary main_c (constantI S_ 32 0#32),
    unary main_c main_v12 (broadcastInDim S800000 ![] bcast_S_S800000 : C F S_ .i32 → C F S800000 .i32),
    binary main_v5 main_v12 main_v13 (cmpi .slt : C F S800000 .i32 → C F S800000 .i32 → C F S800000 .i1),
    nullary main_c_0 (constantI S_ 32 50000#32),
    unary main_c_0 main_v14 (broadcastInDim S800000 ![] bcast_S_S800000 : C F S_ .i32 → C F S800000 .i32),
    binary main_v5 main_v14 main_v15 (addi : C F S800000 .i32 → C F S800000 .i32 → C F S800000 .i32),
    ternary main_v13 main_v15 main_v5 main_v16 (select : C F S800000 .i1 → C F S800000 .i32 → C F S800000 .i32 → C F S800000 .i32),
    unary main_v16 main_v17 (broadcastInDim S800000x1 ![0] bcast_S800000_S800000x1_0 : C F S800000 .i32 → C F S800000x1 .i32),
    binary main_v11 main_v17 main_v18 ((fun x i => Host.gather gather_S50000x64_S800000x1_S800000x64_1_0_n_n_0_1_164 x i) : C F S50000x64 .f32 → C F S800000x1 .i32 → C F S800000x64 .f32) ]

/-- Operations 22–30: the same for the destination column. -/
def opsB2 : List (HloOp τ sig (Elt F)) :=
  [ nullary main_c_1 (constantI S_ 32 0#32),
    unary main_c_1 main_v19 (broadcastInDim S800000 ![] bcast_S_S800000 : C F S_ .i32 → C F S800000 .i32),
    binary main_v7 main_v19 main_v20 (cmpi .slt : C F S800000 .i32 → C F S800000 .i32 → C F S800000 .i1),
    nullary main_c_2 (constantI S_ 32 50000#32),
    unary main_c_2 main_v21 (broadcastInDim S800000 ![] bcast_S_S800000 : C F S_ .i32 → C F S800000 .i32),
    binary main_v7 main_v21 main_v22 (addi : C F S800000 .i32 → C F S800000 .i32 → C F S800000 .i32),
    ternary main_v20 main_v22 main_v7 main_v23 (select : C F S800000 .i1 → C F S800000 .i32 → C F S800000 .i32 → C F S800000 .i32),
    unary main_v23 main_v24 (broadcastInDim S800000x1 ![0] bcast_S800000_S800000x1_0 : C F S800000 .i32 → C F S800000x1 .i32),
    binary main_v11 main_v24 main_v25 ((fun x i => Host.gather gather_S50000x64_S800000x1_S800000x64_1_0_n_n_0_1_164 x i) : C F S50000x64 .f32 → C F S800000x1 .i32 → C F S800000x64 .f32) ]

/-- Operations 31–41: the attention score of every edge — the concatenated rows against the attention vector, the
    leaky rectifier (the callee's six operations and its select, at the call's buffers), the exponential. -/
def opsB3 : List (HloOp τ sig (Elt F)) :=
  [ nary ![main_v18, main_v25, main_v3] main_v26 (fun u => concatenate S800000x160 1 [⟨S800000x64, u 0⟩, ⟨S800000x64, u 1⟩, ⟨S800000x32, u 2⟩] concatenates_S800000x64_S800000x64_S800000x32_S800000x160_d1),
    binary main_v26 main_arg5 main_v27 ((fun l r => Host.dotGeneral dot_S800000x160_S160x1_S800000x1_1_0_0_1_n_n none l r) : C F S800000x160 .f32 → C F S160x1 .f32 → C F S800000x1 .f32),
    nullary main_cst (constant S_ .f32 0x3E4CCCCD#32),
    TRef.nullary main_call0.cst (constant S_ .f32 0x00000000#32),
    TRef.unary main_call0.cst main_call0.v0 (broadcastInDim S800000x1 ![] bcast_S_S800000x1),
    TRef.binary (.of main_v27) main_call0.v0 main_call0.v1 (cmpf .oge),
    TRef.unary (.of main_cst) main_call0.v2 id,
    TRef.unary main_call0.v2 main_call0.v3 (broadcastInDim S800000x1 ![] bcast_S_S800000x1),
    TRef.binary main_call0.v3 (.of main_v27) main_call0.v4 mulf,
    TRef.ternary main_call0.v1 (.of main_v27) main_call0.v4 main_call0.call0.v0 select,
    unary main_v28 main_v29 (Host.exp : C F S800000x1 .f32 → C F S800000x1 .f32) ]

/-- Operations 42–56: the scores summed per source node, read back at every edge, and the logarithm of the
    quotient. -/
def opsC : List (HloOp τ sig (Elt F)) :=
  [ nullary main_cst_3 (constant S_ .f32 0x00000000#32),
    unary main_cst_3 main_v30 (broadcastInDim S50000x1 ![] bcast_S_S50000x1 : C F S_ .f32 → C F S50000x1 .f32),
    unary main_v5 main_v31 (broadcastInDim S800000x1 ![0] bcast_S800000_S800000x1_0 : C F S800000 .i32 → C F S800000x1 .i32),
    ternary main_v30 main_v31 main_v29 main_v32 ((fun x i u => Host.scatterAdd scatter_S50000x1_S800000x1_S800000x1_1_0_0_1 x i u) : C F S50000x1 .f32 → C F S800000x1 .i32 → C F S800000x1 .f32 → C F S50000x1 .f32),
    nullary main_c_4 (constantI S_ 32 0#32),
    unary main_c_4 main_v33 (broadcastInDim S800000 ![] bcast_S_S800000 : C F S_ .i32 → C F S800000 .i32),
    binary main_v5 main_v33 main_v34 (cmpi .slt : C F S800000 .i32 → C F S800000 .i32 → C F S800000 .i1),
    nullary main_c_5 (constantI S_ 32 50000#32),
    unary main_c_5 main_v35 (broadcastInDim S800000 ![] bcast_S_S800000 : C F S_ .i32 → C F S800000 .i32),
    binary main_v5 main_v35 main_v36 (addi : C F S800000 .i32 → C F S800000 .i32 → C F S800000 .i32),
    ternary main_v34 main_v36 main_v5 main_v37 (select : C F S800000 .i1 → C F S800000 .i32 → C F S800000 .i32 → C F S800000 .i32),
    unary main_v37 main_v38 (broadcastInDim S800000x1 ![0] bcast_S800000_S800000x1_0 : C F S800000 .i32 → C F S800000x1 .i32),
    binary main_v32 main_v38 main_v39 ((fun x i => Host.gather gather_S50000x1_S800000x1_S800000x1_1_0_n_n_0_1_11 x i) : C F S50000x1 .f32 → C F S800000x1 .i32 → C F S800000x1 .f32),
    binary main_v29 main_v39 main_v40 (Host.divf : C F S800000x1 .f32 → C F S800000x1 .f32 → C F S800000x1 .f32),
    unary main_v40 main_v41 (Host.log : C F S800000x1 .f32 → C F S800000x1 .f32) ]

/-- Operations 57–77: the unbiased variance over all edges (the callee's eighteen operations and its guarded
    select's two, at the call's buffers), after the constant 1 it is called with. -/
def opsD : List (HloOp τ sig (Elt F)) :=
  [ nullary main_c_6 (constantI S_ 32 1#32),
    TRef.nullary main_call1.cst (constant S_ .f32 0x00000000#32),
    TRef.binary (.of main_v41) main_call1.cst main_call1.v0 (fun x v => Host.reduceAdd x v reducesTo_S800000x1_S_d0_1 h_S_),
    TRef.unary main_call1.v0 main_call1.v1 (broadcastInDim S1x1 ![] bcast_S_S1x1),
    TRef.nullary main_call1.cst_0 (constant S_ .f32 0x49435000#32),
    TRef.unary main_call1.cst_0 main_call1.v2 (broadcastInDim S1x1 ![] bcast_S_S1x1),
    TRef.binary main_call1.v1 main_call1.v2 main_call1.v3 Host.divf,
    TRef.unary main_call1.v3 main_call1.v4 (broadcastInDim S800000x1 ![0, 1] bcast_S1x1_S800000x1_0_1),
    TRef.binary (.of main_v41) main_call1.v4 main_call1.v5 subf,
    TRef.binary main_call1.v5 main_call1.v5 main_call1.v6 mulf,
    TRef.unary (.of main_c_6) main_call1.v7 (sitofp .f32),
    TRef.nullary main_call1.cst_1 (constant S_ .f32 0x49435000#32),
    TRef.binary main_call1.cst_1 main_call1.v7 main_call1.v8 subf,
    TRef.nullary main_call1.cst_2 (constant S_ .f32 0x00000000#32),
    TRef.binary main_call1.v6 main_call1.cst_2 main_call1.v9 (fun x v => Host.reduceAdd x v reducesTo_S800000x1_S_d0_1 h_S_),
    TRef.binary main_call1.v9 main_call1.v8 main_call1.v10 Host.divf,
    TRef.nullary main_call1.cst_3 (constant S_ .f32 0x00000000#32),
    TRef.binary main_call1.v8 main_call1.cst_3 main_call1.v11 (cmpf .ogt),
    TRef.nullary main_call1.cst_4 (constant S_ .f32 0x7FC00000#32),
    TRef.unary main_call1.cst_4 main_call1.call0.v0 id,
    TRef.ternary main_call1.v11 main_call1.v10 main_call1.call0.v0 main_call1.call0.v1 select ]

/-- Operations 78–85: the destination column as a gather reads it, once more. -/
def opsE0 : List (HloOp τ sig (Elt F)) :=
  [ nullary main_c_7 (constantI S_ 32 0#32),
    unary main_c_7 main_v43 (broadcastInDim S800000 ![] bcast_S_S800000 : C F S_ .i32 → C F S800000 .i32),
    binary main_v7 main_v43 main_v44 (cmpi .slt : C F S800000 .i32 → C F S800000 .i32 → C F S800000 .i1),
    nullary main_c_8 (constantI S_ 32 50000#32),
    unary main_c_8 main_v45 (broadcastInDim S800000 ![] bcast_S_S800000 : C F S_ .i32 → C F S800000 .i32),
    binary main_v7 main_v45 main_v46 (addi : C F S800000 .i32 → C F S800000 .i32 → C F S800000 .i32),
    ternary main_v44 main_v46 main_v7 main_v47 (select : C F S800000 .i1 → C F S800000 .i32 → C F S800000 .i32 → C F S800000 .i32),
    unary main_v47 main_v48 (broadcastInDim S800000x1 ![0] bcast_S800000_S800000x1_0 : C F S800000 .i32 → C F S800000x1 .i32) ]

/-- Operations 86–92: every edge's contribution (its destination's projected row times its log-attention), summed
    per source node. -/
def opsE1 : List (HloOp τ sig (Elt F)) :=
  [ binary main_v11 main_v48 main_v49 ((fun x i => Host.gather gather_S50000x64_S800000x1_S800000x64_1_0_n_n_0_1_164 x i) : C F S50000x64 .f32 → C F S800000x1 .i32 → C F S800000x64 .f32),
    unary main_v41 main_v50 (broadcastInDim S800000x64 ![0, 1] bcast_S800000x1_S800000x64_0_1 : C F S800000x1 .f32 → C F S800000x64 .f32),
    binary main_v49 main_v50 main_v51 (mulf : C F S800000x64 .f32 → C F S800000x64 .f32 → C F S800000x64 .f32),
    nullary main_cst_9 (constant S_ .f32 0x00000000#32),
    unary main_cst_9 main_v52 (broadcastInDim S50000x64 ![] bcast_S_S50000x64 : C F S_ .f32 → C F S50000x64 .f32),
    unary main_v5 main_v53 (broadcastInDim S800000x1 ![0] bcast_S800000_S800000x1_0 : C F S800000 .i32 → C F S800000x1 .i32),
    ternary main_v52 main_v53 main_v51 main_v54 ((fun x i u => Host.scatterAdd scatter_S50000x64_S800000x1_S800000x64_1_0_0_1 x i u) : C F S50000x64 .f32 → C F S800000x1 .i32 → C F S800000x64 .f32 → C F S50000x64 .f32) ]

/-- Operations 93–111: the message's row norms (the norm's five operations at the first call's buffers), the
    normalised message, the projected rows' norms (the same five at the second call's), and the rescaling. -/
def opsG1 : List (HloOp τ sig (Elt F)) :=
  [ TRef.binary (.of main_v54) (.of main_v54) main_call2.v0 mulf,
    TRef.nullary main_call2.cst (constant S_ .f32 0x00000000#32),
    TRef.binary main_call2.v0 main_call2.cst main_call2.v1 (fun x v => Host.reduceAdd x v reducesTo_S50000x64_S50000_d1 h_S_),
    TRef.unary main_call2.v1 main_call2.v2 (broadcastInDim S50000x1 ![0] bcast_S50000_S50000x1_0),
    TRef.unary main_call2.v2 main_call2.v3 Host.sqrt,
    nullary main_cst_10 (constant S_ .f32 0x2B8CBCCC#32),
    unary main_cst_10 main_v56 (broadcastInDim S50000x1 ![] bcast_S_S50000x1 : C F S_ .f32 → C F S50000x1 .f32),
    binary main_v55 main_v56 main_v57 (maximumf : C F S50000x1 .f32 → C F S50000x1 .f32 → C F S50000x1 .f32),
    unary main_v57 main_v58 (broadcastInDim S50000x64 ![0, 1] bcast_S50000x1_S50000x64_0_1 : C F S50000x1 .f32 → C F S50000x64 .f32),
    binary main_v54 main_v58 main_v59 (Host.divf : C F S50000x64 .f32 → C F S50000x64 .f32 → C F S50000x64 .f32),
    TRef.binary (.of main_v11) (.of main_v11) main_call3.v0 mulf,
    TRef.nullary main_call3.cst (constant S_ .f32 0x00000000#32),
    TRef.binary main_call3.v0 main_call3.cst main_call3.v1 (fun x v => Host.reduceAdd x v reducesTo_S50000x64_S50000_d1 h_S_),
    TRef.unary main_call3.v1 main_call3.v2 (broadcastInDim S50000x1 ![0] bcast_S50000_S50000x1_0),
    TRef.unary main_call3.v2 main_call3.v3 Host.sqrt,
    unary main_v60 main_v61 (broadcastInDim S50000x64 ![0, 1] bcast_S50000x1_S50000x64_0_1 : C F S50000x1 .f32 → C F S50000x64 .f32),
    binary main_v59 main_v61 main_v62 (mulf : C F S50000x64 .f32 → C F S50000x64 .f32 → C F S50000x64 .f32),
    unary main_arg6 main_v63 (broadcastInDim S50000x64 ![] bcast_S_S50000x64 : C F S_ .f32 → C F S50000x64 .f32),
    binary main_v62 main_v63 main_v64 (mulf : C F S50000x64 .f32 → C F S50000x64 .f32 → C F S50000x64 .f32) ]

/-- Operation 112, the result: the projected rows beside the rescaled message. -/
def opsG2 : List (HloOp τ sig (Elt F)) :=
  [ binary main_v11 main_v64 main_v65 ((fun a b => concatenate S50000x128 1 [⟨S50000x64, a⟩, ⟨S50000x64, b⟩] concatenates_S50000x64_S50000x64_S50000x128_d1) : C F S50000x64 .f32 → C F S50000x64 .f32 → C F S50000x128 .f32) ]

/-- The first sixty statements of @main, as operations. -/
def ops0 : List (HloOp τ sig (Elt F)) := opsA ++ opsB1 ++ opsB2 ++ opsB3 ++ opsC ++ opsD ++ opsE0
/-- The last twenty. -/
def ops1 : List (HloOp τ sig (Elt F)) := opsE1 ++ opsG1 ++ opsG2
/-- The whole line. -/
def ops : List (HloOp τ sig (Elt F)) := ops0 ++ ops1

/-! ## @main is that line -/

open Idealize.ShloMosaic.Pipeline in
/-- The first window of @main is its stretch of the line: both sides are the same chain of steps once the calls
    are unfolded and the sequencing re-associated, which is a computation. -/
theorem part0_eq (c : Dev nD) : main_part0 (F := F) c = seq ops0 := by
  chain_rfl

open Idealize.ShloMosaic.Pipeline in
/-- The second window likewise. -/
theorem part1_eq (c : Dev nD) : main_part1 (F := F) c = seq ops1 := by
  chain_rfl

/-- @main runs its two windows in order: the whole line. -/
theorem main_eq (c : Dev nD) : main (F := F) c = seq ops := by
  show (main_part0 c >>= fun _ => main_part1 c) = seq (ops0 ++ ops1)
  rw [part0_eq, part1_eq, seq_append]

/-- Reading a line that is two stretches: the second read from where the first ends. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

/-! ## Reading one stretch back

What a buffer holds after a literal list of operations is a computation: each operation leaves its function's
value in its own result buffer and every other buffer as it was. A three-operand concatenate is the one shape whose
plain result keeps the operands' contents under a binder; the lemma below states it with each operand's contents at
its own reference, so that the reading goes on into the operands. -/

section Nary3
variable {Val : EltTy → Type} {x a b y : Ref sig .tc}

/-- An operation over a literal family of three references: its result with each operand's contents at its own
    reference. -/
theorem nary3_result
    (f : ((k : Fin 3) → ((![x, a, b] : Fin 3 → Ref sig .tc) k).ty.Contents Val) → y.ty.Contents Val) (hxs hy)
    (G : Valuation τ sig Val) :
    (nary (τ := τ) ![x, a, b] y f hxs hy).result G (Proc.devRef .tc y)
      = f (Fin.cons (G (Proc.devRef .tc x)) (Fin.cons (G (Proc.devRef .tc a)) (Fin.cons (G (Proc.devRef .tc b)) (fun i => i.elim0)))) := by
  rw [nary_result]; congr 1; funext k; fin_cases k <;> rfl

end Nary3

/-- The reading of a literal list, from the last operation back: at its own result buffer an operation's value, at
    any other reference (told apart by computation) what was there — the three-operand case read through. -/
macro "read_results" : tactic =>
  `(tactic| (simp only [after_cons, after_nil]
             repeat (first
               | rw [nullary_result] | rw [unary_result] | rw [binary_result] | rw [ternary_result]
               | rw [reshape_result] | rw [nary3_result]
               | (rw [nullary_result_ne]; rotate_left; decide)
               | (rw [unary_result_ne]; rotate_left; decide)
               | (rw [binary_result_ne]; rotate_left; decide)
               | (rw [ternary_result_ne]; rotate_left; decide)
               | (rw [reshape_result_ne]; rotate_left; decide)
               | (rw [nary_result_ne]; rotate_left; decide))))

/-! ## Typed references

An operation inside a called function is stated over typed references: its function is applied to the operand
buffers' contents moved to the value's type, and its value is moved back to the result buffer's type. Both
moves are along an equation of types that holds by computation; written back to back they cancel, and at a
literal reference each is the identity. These are stated over a variable contents, so that a reading never has
to compare two composed terms through such a move. -/

section Typed
variable {Val : EltTy → Type} {T : BufTy}

/-- Moving a value to a typed reference's buffer type and back gives the value. -/
theorem ofBuf_toBuf (x : TRef sig T) (v : T.Contents Val) : x.ofBuf (x.toBuf v) = v := by
  obtain ⟨r, h, h1, h2⟩ := x; subst h; rfl

end Typed

/-- At a literal reference whose type is the value's by computation, either move is the identity. -/
theorem ofBuf_v27 (v : C Ideal S800000x1 .f32) : (TRef.of main_v27 : TRef sig ⟨S800000x1, .f32⟩).ofBuf v = v := rfl
theorem ofBuf_cst (v : C Ideal S_ .f32) : (TRef.of main_cst : TRef sig ⟨S_, .f32⟩).ofBuf v = v := rfl
theorem toBuf_v28 (v : C Ideal S800000x1 .f32) : (TRef.of main_v28 : TRef sig ⟨S800000x1, .f32⟩).toBuf v = v := rfl
theorem ofBuf_v41 (v : C Ideal S800000x1 .f32) : (TRef.of main_v41 : TRef sig ⟨S800000x1, .f32⟩).ofBuf v = v := rfl
theorem ofBuf_c_6 (v : C Ideal S_ .i32) : (TRef.of main_c_6 : TRef sig ⟨S_, .i32⟩).ofBuf v = v := rfl
theorem toBuf_v42 (v : C Ideal S_ .f32) : (TRef.of main_v42 : TRef sig ⟨S_, .f32⟩).toBuf v = v := rfl
theorem ofBuf_v54 (v : C Ideal S50000x64 .f32) : (TRef.of main_v54 : TRef sig ⟨S50000x64, .f32⟩).ofBuf v = v := rfl
theorem ofBuf_v11 (v : C Ideal S50000x64 .f32) : (TRef.of main_v11 : TRef sig ⟨S50000x64, .f32⟩).ofBuf v = v := rfl
theorem toBuf_v55 (v : C Ideal S50000x1 .f32) : (TRef.of main_v55 : TRef sig ⟨S50000x1, .f32⟩).toBuf v = v := rfl
theorem toBuf_v60 (v : C Ideal S50000x1 .f32) : (TRef.of main_v60 : TRef sig ⟨S50000x1, .f32⟩).toBuf v = v := rfl

/-! ## The side conditions of the run: the buffers touched, nothing left undetermined, nothing scoped -/

/-- Each stretch's operations touch TensorCore references only. -/
theorem opsA_sub : (opsA (F := F)).Forall fun op => op.bufs ⊆ tcRefs τ sig := by
  unfold opsA
  simp only [List.Forall, reshape_bufs_sub, unary_bufs_sub, binary_bufs_sub, ternary_bufs_sub, nullary_bufs_sub, nary_bufs_sub, and_self]
theorem opsB1_sub : (opsB1 (F := F)).Forall fun op => op.bufs ⊆ tcRefs τ sig := by
  unfold opsB1
  simp only [List.Forall, reshape_bufs_sub, unary_bufs_sub, binary_bufs_sub, ternary_bufs_sub, nullary_bufs_sub, nary_bufs_sub, and_self]
theorem opsB2_sub : (opsB2 (F := F)).Forall fun op => op.bufs ⊆ tcRefs τ sig := by
  unfold opsB2
  simp only [List.Forall, reshape_bufs_sub, unary_bufs_sub, binary_bufs_sub, ternary_bufs_sub, nullary_bufs_sub, nary_bufs_sub, and_self]
theorem opsB3_sub : (opsB3 (F := F)).Forall fun op => op.bufs ⊆ tcRefs τ sig := by
  unfold opsB3
  simp only [List.Forall, reshape_bufs_sub, unary_bufs_sub, binary_bufs_sub, ternary_bufs_sub, nullary_bufs_sub, nary_bufs_sub, and_self]
theorem opsC_sub : (opsC (F := F)).Forall fun op => op.bufs ⊆ tcRefs τ sig := by
  unfold opsC
  simp only [List.Forall, reshape_bufs_sub, unary_bufs_sub, binary_bufs_sub, ternary_bufs_sub, nullary_bufs_sub, nary_bufs_sub, and_self]
theorem opsD_sub : (opsD (F := F)).Forall fun op => op.bufs ⊆ tcRefs τ sig := by
  unfold opsD
  simp only [List.Forall, reshape_bufs_sub, unary_bufs_sub, binary_bufs_sub, ternary_bufs_sub, nullary_bufs_sub, nary_bufs_sub, and_self]
theorem opsE0_sub : (opsE0 (F := F)).Forall fun op => op.bufs ⊆ tcRefs τ sig := by
  unfold opsE0
  simp only [List.Forall, reshape_bufs_sub, unary_bufs_sub, binary_bufs_sub, ternary_bufs_sub, nullary_bufs_sub, nary_bufs_sub, and_self]
theorem opsE1_sub : (opsE1 (F := F)).Forall fun op => op.bufs ⊆ tcRefs τ sig := by
  unfold opsE1
  simp only [List.Forall, reshape_bufs_sub, unary_bufs_sub, binary_bufs_sub, ternary_bufs_sub, nullary_bufs_sub, nary_bufs_sub, and_self]
theorem opsG1_sub : (opsG1 (F := F)).Forall fun op => op.bufs ⊆ tcRefs τ sig := by
  unfold opsG1
  simp only [List.Forall, reshape_bufs_sub, unary_bufs_sub, binary_bufs_sub, ternary_bufs_sub, nullary_bufs_sub, nary_bufs_sub, and_self]
theorem opsG2_sub : (opsG2 (F := F)).Forall fun op => op.bufs ⊆ tcRefs τ sig := by
  unfold opsG2
  simp only [List.Forall, reshape_bufs_sub, unary_bufs_sub, binary_bufs_sub, ternary_bufs_sub, nullary_bufs_sub, nary_bufs_sub, and_self]

/-- Every operation of the line touches TensorCore references only. -/
theorem ops_sub : (ops (F := F)).Forall fun op => op.bufs ⊆ tcRefs τ sig := by
  simp only [ops, ops0, ops1, List.forall_append, opsA_sub, opsB1_sub, opsB2_sub, opsB3_sub, opsC_sub, opsD_sub, opsE0_sub,
    opsE1_sub, opsG1_sub, opsG2_sub, and_self]

/-- Every operation of the line determines what it writes. -/
theorem ops_fresh : (ops (F := F)).Forall fun op => op.fresh = ∅ := by
  simp only [ops, ops0, ops1, opsA, opsB1, opsB2, opsB3, opsC, opsD, opsE0, opsE1, opsG1, opsG2, List.forall_append, List.Forall]
  repeat' apply And.intro
  all_goals rfl

/-- The signature scopes no TensorCore buffer and no semaphore. -/
theorem scopedRefs_eq : (Finset.univ.filter fun b : Ref sig .tc => b.isScoped) = ∅ := by decide
theorem scopedSems_eq : (Finset.univ.filter fun sm : SemLoc sig => sm.isScoped .tc) = ∅ := by decide

/-- The line's run: every weakly fair execution of @main terminates, each TensorCore buffer at the line's reading
    of the launch contents. -/
theorem run_line (m : (ℓ : Loc nD τ sig) → Buf (Elt F) ℓ) (ρ : Dev nD → PrngReg) :
    θ_run (defs (F := F)) (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ
    (fun _ => List.forall_iff_forall_mem.mp ops_fresh)

/-! ## The stages

What each stretch leaves in its result buffer, as the stage function of what its operand buffers held: the
stretch's operations read in order are the stage function's own definition. Every statement is over an arbitrary
valuation, so that no reading ever looks through an earlier stretch. -/

local notation "𝕍" => Valuation τ sig (Elt Ideal)
local notation "ρ[" r "]" => Proc.devRef (τ := τ) (sig := sig) (Proc.tc : Proc τ) r

theorem stageA_hv (V : 𝕍) : after (opsA (F := Ideal)) V ρ[main_v11]
    = Cert.Spec.hv (V ρ[main_arg0]) (V ρ[main_arg3]) (V ρ[main_arg4]) := by
  unfold opsA
  read_results
  rfl

theorem stageA_src (V : 𝕍) : after (opsA (F := Ideal)) V ρ[main_v5] = Cert.Spec.src (V ρ[main_arg2]) := by
  unfold opsA
  read_results
  rfl

theorem stageA_dst (V : 𝕍) : after (opsA (F := Ideal)) V ρ[main_v7] = Cert.Spec.dst (V ρ[main_arg2]) := by
  unfold opsA
  read_results
  rfl

theorem stageA_both (V : 𝕍) : after (opsA (F := Ideal)) V ρ[main_v3] = Cert.Spec.both (V ρ[main_arg1]) := by
  unfold opsA
  read_results
  rfl

theorem stageB1 (V : 𝕍) : after (opsB1 (F := Ideal)) V ρ[main_v18]
    = Cert.Spec.rows (V ρ[main_v11]) (V ρ[main_v5]) := by
  unfold opsB1
  read_results
  rfl

theorem stageB2 (V : 𝕍) : after (opsB2 (F := Ideal)) V ρ[main_v25]
    = Cert.Spec.rows (V ρ[main_v11]) (V ρ[main_v7]) := by
  unfold opsB2
  read_results
  rfl

theorem stageB3 (V : 𝕍) : after (opsB3 (F := Ideal)) V ρ[main_v29]
    = Cert.Spec.att (V ρ[main_v18]) (V ρ[main_v25]) (V ρ[main_v3]) (V ρ[main_arg5]) := by
  unfold opsB3
  read_results
  simp only [ofBuf_toBuf, toBuf_v28]
  rw [ofBuf_v27, ofBuf_cst]
  unfold Cert.Spec.att Cert.Spec.leaky
  rfl

theorem stageC (V : 𝕍) : after (opsC (F := Ideal)) V ρ[main_v41]
    = Cert.Spec.attNorm (V ρ[main_v5]) (V ρ[main_v29]) := by
  unfold opsC
  after_results_simp
  rfl

theorem stageD (V : 𝕍) : after (opsD (F := Ideal)) V ρ[main_v42] = Cert.Spec.var (V ρ[main_v41]) := by
  unfold opsD
  after_results_simp
  simp only [ofBuf_toBuf, toBuf_v42]
  rw [ofBuf_v41, ofBuf_c_6]
  unfold Cert.Spec.var Cert.Spec.sqdev Cert.Spec.mean Cert.Spec.dof
  rfl

theorem stageE0 (V : 𝕍) : after (opsE0 (F := Ideal)) V ρ[main_v48] = Cert.Spec.wrap (V ρ[main_v7]) := by
  unfold opsE0
  read_results
  rfl

theorem stageE1 (V : 𝕍) : after (opsE1 (F := Ideal)) V ρ[main_v54]
    = Cert.Spec.msg (V ρ[main_v5])
        (Cert.Spec.contrib (Host.gather gather_S50000x64_S800000x1_S800000x64_1_0_n_n_0_1_164 (V ρ[main_v11]) (V ρ[main_v48]))
          (V ρ[main_v41])) := by
  unfold opsE1
  read_results
  rfl

theorem stageG1 (V : 𝕍) : after (opsG1 (F := Ideal)) V ρ[main_v64]
    = Cert.Spec.agg (V ρ[main_v54]) (V ρ[main_v11]) (V ρ[main_arg6]) := by
  unfold opsG1
  after_results_simp
  simp only [ofBuf_toBuf, toBuf_v55, toBuf_v60]
  rw [ofBuf_v54, ofBuf_v11]
  unfold Cert.Spec.agg Cert.Spec.norm
  rfl

theorem stageG2 (V : 𝕍) : after (opsG2 (F := Ideal)) V ρ[main_v65]
    = concatenate S50000x128 1 [⟨S50000x64, V ρ[main_v11]⟩, ⟨S50000x64, V ρ[main_v64]⟩]
        concatenates_S50000x64_S50000x64_S50000x128_d1 := by
  unfold opsG2
  read_results

/-! ## What a stretch leaves alone

A buffer none of a stretch's operations writes holds after the stretch what it held before. Each stretch writes
the buffers of one list; a reference outside the list is told apart from each of them by computation. -/

/-- A result buffer named in a list is among the list's device buffers. -/
theorem wsub {W : List (Ref sig .tc)} {y : Ref sig .tc} (h : y ∈ W) :
    ({Proc.devRef (τ := τ) .tc y} : Finset (DevRef τ sig)) ⊆ (W.map (Proc.devRef (τ := τ) .tc)).toFinset :=
  Finset.singleton_subset_iff.mpr (List.mem_toFinset.mpr (List.mem_map_of_mem h))

/-- The buffers each stretch writes. -/
def WA : List (Ref sig .tc) :=
  [main_v0, main_v1, main_v2, main_v3, main_v4, main_v5, main_v6, main_v7, main_v8, main_v9, main_v10, main_v11]
@[inherit_doc WA] def WB1 : List (Ref sig .tc) :=
  [main_c, main_v12, main_v13, main_c_0, main_v14, main_v15, main_v16, main_v17, main_v18]
@[inherit_doc WA] def WB2 : List (Ref sig .tc) :=
  [main_c_1, main_v19, main_v20, main_c_2, main_v21, main_v22, main_v23, main_v24, main_v25]
@[inherit_doc WA] def WB3 : List (Ref sig .tc) :=
  [main_v26, main_v27, main_cst, main_call0_cst, main_call0_v0, main_call0_v1, main_call0_v2, main_call0_v3, main_call0_v4,
    main_v28, main_v29]
@[inherit_doc WA] def WC : List (Ref sig .tc) :=
  [main_cst_3, main_v30, main_v31, main_v32, main_c_4, main_v33, main_v34, main_c_5, main_v35, main_v36, main_v37, main_v38,
    main_v39, main_v40, main_v41]
@[inherit_doc WA] def WD : List (Ref sig .tc) :=
  [main_c_6, main_call1_cst, main_call1_v0, main_call1_v1, main_call1_cst_0, main_call1_v2, main_call1_v3, main_call1_v4,
    main_call1_v5, main_call1_v6, main_call1_v7, main_call1_cst_1, main_call1_v8, main_call1_cst_2, main_call1_v9,
    main_call1_v10, main_call1_cst_3, main_call1_v11, main_call1_cst_4, main_call1_call0_v0, main_v42]
@[inherit_doc WA] def WE0 : List (Ref sig .tc) :=
  [main_c_7, main_v43, main_v44, main_c_8, main_v45, main_v46, main_v47, main_v48]
@[inherit_doc WA] def WE1 : List (Ref sig .tc) :=
  [main_v49, main_v50, main_v51, main_cst_9, main_v52, main_v53, main_v54]
@[inherit_doc WA] def WG1 : List (Ref sig .tc) :=
  [main_call2_v0, main_call2_cst, main_call2_v1, main_call2_v2, main_v55, main_cst_10, main_v56, main_v57, main_v58, main_v59,
    main_call3_v0, main_call3_cst, main_call3_v1, main_call3_v2, main_v60, main_v61, main_v62, main_v63, main_v64]
@[inherit_doc WA] def WG2 : List (Ref sig .tc) := [main_v65]

/-- Each stretch leaves every buffer outside its list as it was. -/
theorem frameA (V : 𝕍) {r : Ref sig .tc} (hr : r ∉ WA) : after (opsA (F := Ideal)) V ρ[r] = V ρ[r] :=
  after_of_writes_sub _ V (W := WA) (by
    unfold opsA; simp only [List.Forall]; repeat' apply And.intro
    all_goals exact wsub (by decide)) hr
theorem frameB1 (V : 𝕍) {r : Ref sig .tc} (hr : r ∉ WB1) : after (opsB1 (F := Ideal)) V ρ[r] = V ρ[r] :=
  after_of_writes_sub _ V (W := WB1) (by
    unfold opsB1; simp only [List.Forall]; repeat' apply And.intro
    all_goals exact wsub (by decide)) hr
theorem frameB2 (V : 𝕍) {r : Ref sig .tc} (hr : r ∉ WB2) : after (opsB2 (F := Ideal)) V ρ[r] = V ρ[r] :=
  after_of_writes_sub _ V (W := WB2) (by
    unfold opsB2; simp only [List.Forall]; repeat' apply And.intro
    all_goals exact wsub (by decide)) hr
theorem frameB3 (V : 𝕍) {r : Ref sig .tc} (hr : r ∉ WB3) : after (opsB3 (F := Ideal)) V ρ[r] = V ρ[r] :=
  after_of_writes_sub _ V (W := WB3) (by
    unfold opsB3; simp only [List.Forall]; repeat' apply And.intro
    all_goals exact wsub (by decide)) hr
theorem frameC (V : 𝕍) {r : Ref sig .tc} (hr : r ∉ WC) : after (opsC (F := Ideal)) V ρ[r] = V ρ[r] :=
  after_of_writes_sub _ V (W := WC) (by
    unfold opsC; simp only [List.Forall]; repeat' apply And.intro
    all_goals exact wsub (by decide)) hr
theorem frameD (V : 𝕍) {r : Ref sig .tc} (hr : r ∉ WD) : after (opsD (F := Ideal)) V ρ[r] = V ρ[r] :=
  after_of_writes_sub _ V (W := WD) (by
    unfold opsD; simp only [List.Forall]; repeat' apply And.intro
    all_goals exact wsub (by decide)) hr
theorem frameE0 (V : 𝕍) {r : Ref sig .tc} (hr : r ∉ WE0) : after (opsE0 (F := Ideal)) V ρ[r] = V ρ[r] :=
  after_of_writes_sub _ V (W := WE0) (by
    unfold opsE0; simp only [List.Forall]; repeat' apply And.intro
    all_goals exact wsub (by decide)) hr
theorem frameE1 (V : 𝕍) {r : Ref sig .tc} (hr : r ∉ WE1) : after (opsE1 (F := Ideal)) V ρ[r] = V ρ[r] :=
  after_of_writes_sub _ V (W := WE1) (by
    unfold opsE1; simp only [List.Forall]; repeat' apply And.intro
    all_goals exact wsub (by decide)) hr
theorem frameG1 (V : 𝕍) {r : Ref sig .tc} (hr : r ∉ WG1) : after (opsG1 (F := Ideal)) V ρ[r] = V ρ[r] :=
  after_of_writes_sub _ V (W := WG1) (by
    unfold opsG1; simp only [List.Forall]; repeat' apply And.intro
    all_goals exact wsub (by decide)) hr
theorem frameG2 (V : 𝕍) {r : Ref sig .tc} (hr : r ∉ WG2) : after (opsG2 (F := Ideal)) V ρ[r] = V ρ[r] :=
  after_of_writes_sub _ V (W := WG2) (by
    unfold opsG2; simp only [List.Forall]; repeat' apply And.intro
    all_goals exact wsub (by decide)) hr

/-! ## The stretches composed

The buffers a later stretch reads, followed back through the stretches that leave them alone to the one that
wrote them. First through the first five stretches (operations 1–56), where the log-attention is complete and the
source and destination columns and the projected rows still stand; then through the rest. -/

section Compose
variable (V : 𝕍)

/-- The buffers' contents once the log-attention is complete. -/
local notation "V₅" => after (opsC (F := Ideal)) (after (opsB3 (F := Ideal)) (after (opsB2 (F := Ideal))
  (after (opsB1 (F := Ideal)) (after (opsA (F := Ideal)) V))))

theorem c_src : V₅ ρ[main_v5] = Cert.Spec.src (V ρ[main_arg2]) := by
  rw [frameC _ (r := main_v5) (by decide), frameB3 _ (r := main_v5) (by decide), frameB2 _ (r := main_v5) (by decide),
    frameB1 _ (r := main_v5) (by decide), stageA_src]

theorem c_dst : V₅ ρ[main_v7] = Cert.Spec.dst (V ρ[main_arg2]) := by
  rw [frameC _ (r := main_v7) (by decide), frameB3 _ (r := main_v7) (by decide), frameB2 _ (r := main_v7) (by decide),
    frameB1 _ (r := main_v7) (by decide), stageA_dst]

theorem c_hv : V₅ ρ[main_v11] = Cert.Spec.hv (V ρ[main_arg0]) (V ρ[main_arg3]) (V ρ[main_arg4]) := by
  rw [frameC _ (r := main_v11) (by decide), frameB3 _ (r := main_v11) (by decide), frameB2 _ (r := main_v11) (by decide),
    frameB1 _ (r := main_v11) (by decide), stageA_hv]

theorem c_arg6 : V₅ ρ[main_arg6] = V ρ[main_arg6] := by
  rw [frameC _ (r := main_arg6) (by decide), frameB3 _ (r := main_arg6) (by decide), frameB2 _ (r := main_arg6) (by decide),
    frameB1 _ (r := main_arg6) (by decide), frameA _ (r := main_arg6) (by decide)]

theorem c_attN : V₅ ρ[main_v41]
    = Cert.Spec.attN (V ρ[main_arg0]) (V ρ[main_arg1]) (V ρ[main_arg2]) (V ρ[main_arg3]) (V ρ[main_arg4]) (V ρ[main_arg5]) := by
  rw [stageC,
    stageB3, frameB3 _ (r := main_v5) (by decide),
    stageB2, frameB2 _ (r := main_v5) (by decide), frameB2 _ (r := main_v18) (by decide), frameB2 _ (r := main_v3) (by decide),
    frameB2 _ (r := main_arg5) (by decide),
    stageB1, frameB1 _ (r := main_v5) (by decide), frameB1 _ (r := main_v11) (by decide), frameB1 _ (r := main_v7) (by decide),
    frameB1 _ (r := main_v3) (by decide), frameB1 _ (r := main_arg5) (by decide),
    stageA_src, stageA_hv, stageA_dst, stageA_both, frameA _ (r := main_arg5) (by decide)]
  rfl

end Compose

/-- The first result buffer after the whole line: the embedding of the arguments. -/
theorem final_eq (V : 𝕍) : after (ops (F := Ideal)) V ρ[main_v65]
    = Cert.Spec.final (V ρ[main_arg0]) (V ρ[main_arg1]) (V ρ[main_arg2]) (V ρ[main_arg3]) (V ρ[main_arg4]) (V ρ[main_arg5])
        (V ρ[main_arg6]) := by
  simp only [ops, ops0, ops1, after_app]
  rw [stageG2,
    stageG1, frameG1 _ (r := main_v11) (by decide),
    stageE1, frameE1 _ (r := main_v11) (by decide), frameE1 _ (r := main_arg6) (by decide),
    stageE0, frameE0 _ (r := main_v5) (by decide), frameE0 _ (r := main_v11) (by decide), frameE0 _ (r := main_v41) (by decide),
    frameE0 _ (r := main_arg6) (by decide),
    frameD _ (r := main_v5) (by decide), frameD _ (r := main_v11) (by decide), frameD _ (r := main_v7) (by decide),
    frameD _ (r := main_v41) (by decide), frameD _ (r := main_arg6) (by decide),
    c_src, c_hv, c_dst, c_attN, c_arg6]
  rfl

/-- The second result buffer after the whole line: the variance of the log-attention. -/
theorem variance_eq (V : 𝕍) : after (ops (F := Ideal)) V ρ[main_v42]
    = Cert.Spec.variance (V ρ[main_arg0]) (V ρ[main_arg1]) (V ρ[main_arg2]) (V ρ[main_arg3]) (V ρ[main_arg4]) (V ρ[main_arg5]) := by
  simp only [ops, ops0, ops1, after_app]
  rw [frameG2 _ (r := main_v42) (by decide), frameG1 _ (r := main_v42) (by decide), frameE1 _ (r := main_v42) (by decide),
    frameE0 _ (r := main_v42) (by decide), stageD, c_attN]
  rfl

/-- A buffer no stretch writes holds after the whole line what it held at the launch. -/
theorem untouched (V : 𝕍) {r : Ref sig .tc} (hA : r ∉ WA) (hB1 : r ∉ WB1) (hB2 : r ∉ WB2) (hB3 : r ∉ WB3) (hC : r ∉ WC)
    (hD : r ∉ WD) (hE0 : r ∉ WE0) (hE1 : r ∉ WE1) (hG1 : r ∉ WG1) (hG2 : r ∉ WG2) :
    after (ops (F := Ideal)) V ρ[r] = V ρ[r] := by
  simp only [ops, ops0, ops1, after_app]
  rw [frameG2 _ hG2, frameG1 _ hG1, frameE1 _ hE1, frameE0 _ hE0, frameD _ hD, frameC _ hC, frameB3 _ hB3, frameB2 _ hB2,
    frameB1 _ hB1, frameA _ hA]

/-- An argument of @main is written by no stretch. -/
local macro "untouched_arg" : tactic =>
  `(tactic| exact untouched _ (by decide) (by decide) (by decide) (by decide) (by decide) (by decide) (by decide) (by decide)
      (by decide) (by decide))

/-! ## The run -/

/-- From any memory with zero counters every weakly fair execution of the reference terminates, its first result the
    embedding `Spec.final` and its second the variance `Spec.variance` of the arguments, the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v65) = Cert.Spec.final (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_v42) = Cert.Spec.variance (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) := by
  exact (θ_run defs _ _).mono (fun _ h c => ⟨(h c main_v65).trans (final_eq _), (h c main_v42).trans (variance_eq _),
      (h c main_arg0).trans (by untouched_arg), (h c main_arg1).trans (by untouched_arg), (h c main_arg2).trans (by untouched_arg),
      (h c main_arg3).trans (by untouched_arg), (h c main_arg4).trans (by untouched_arg), (h c main_arg5).trans (by untouched_arg),
      (h c main_arg6).trans (by untouched_arg)⟩)
    (run_line m ρ)

end Cert.RefRun

end
-- ==== Proof.lean ====
/-
  One graph-attention layer with a message norm: the Pallas kernel program against its jnp reference, over the extended reals.

  Both programs compute, for N = 50000 nodes and the 2E = 800000 directed edges obtained from E listed pairs,
    h     = x · W + b                                             the projected node rows
    att   = exp (leakyRelu ([h_s, h_d, ef] · a))                  one weight per directed edge (s, d its end nodes)
    attN  = log (att / Σ_{same source} att)                       the log-softmax over each node's out-edges
    var   = the unbiased variance of attN                         (second result)
    msg_n = Σ_{edges with source n} h_d · attN
    out   = [h, msg / max (‖msg‖, ε) · ‖h‖ · scale]              (first result)
  The kernel program runs four of these stages as pipelined regions — the projection (a bf16 matrix product accumulated
  in f32: at the ideal instance the casts are the identity, so it is the exact product), the attention weights (three
  lane sums against the three slices of a, which together are the reference's one product with the concatenated row),
  the edge contributions, and the message norm with the final concatenation — and everything between them (the edge
  list, the row gathers, the per-source sums, the log-softmax quotient, the variance) with the same host operations as
  the reference. So each region's output array is the specification's stage function of its input arrays
  (Stage0 … Stage3), the host stretches are the specification's own operations (KernelValue), and the reference's run
  ends at the same composition (RefRun): equal results from equal arguments. No finiteness of the inputs is used: only
  the commutativity and associativity of sums of extended reals, and reindexing.
  The rewrite ledger of the idealization is empty, so `preserves` asks nothing.
-/
import proofs.«138567_j75642964017820_1_alg».proof.Defs
import proofs.«138567_j75642964017820_1_alg».proof.Proof.Gen.Kernel
import proofs.«138567_j75642964017820_1_alg».proof.Proof.Gen.Kernel.Skeleton
import proofs.«138567_j75642964017820_1_alg».proof.Proof.Gen.Kernel.Launch
import proofs.«138567_j75642964017820_1_alg».proof.Proof.Gen.Kernel.Points
import proofs.«138567_j75642964017820_1_alg».proof.Proof.Gen.Kernel.Frame
import proofs.«138567_j75642964017820_1_alg».proof.Proof.Gen.KernelIdeal
import proofs.«138567_j75642964017820_1_alg».proof.Proof.Gen.KernelIdeal.Skeleton
import proofs.«138567_j75642964017820_1_alg».proof.Proof.Gen.KernelIdeal.Launch
import proofs.«138567_j75642964017820_1_alg».proof.Proof.Gen.KernelIdeal.Points
import proofs.«138567_j75642964017820_1_alg».proof.Proof.Gen.KernelIdeal.Frame
import proofs.«138567_j75642964017820_1_alg».proof.Proof.Gen.ReferenceIdeal
import proofs.«138567_j75642964017820_1_alg».proof.Proof.Gen.Pre_finite_inputs
import proofs.«138567_j75642964017820_1_alg».proof.Proof.KernelRun
import proofs.«138567_j75642964017820_1_alg».proof.Proof.KernelValue
import proofs.«138567_j75642964017820_1_alg».proof.Proof.RefRun
import Idealize.ShloMosaic.Adequacy
import Idealize.ShloMosaic.Init

noncomputable section

namespace Cert.Proof

open Idealize.ShloMosaic Idealize.ShloMosaic.TcCoe Idealize.SL.Sem

/-- The word-level kernel program terminates without a fault and leaves its arguments as launched. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- So does the reference: its run, the two results dropped. -/
theorem frame_referenceIdeal : Cert.frame_ReferenceIdeal := fun m ρ _ =>
  (θ_run Cert.ReferenceIdeal.defs _ _).mono (fun _ h c => (h c).2.2) (Cert.RefRun.run m ρ)

/-- The idealization rewrote no operation. -/
theorem preserves : Cert.preserves_Kernel_KernelIdeal := trivial

/-- From memories that agree on the arguments both programs end with the embedding and the variance of those
    arguments: the kernel program by the fold through its regions and host stretches, the reference by its run. -/
theorem algebraic : Cert.algebraic_KernelIdeal_ReferenceIdeal := by
  intro m ρ m' ρ' _ hagree
  refine ⟨fun c => Cert.Spec.final (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)),
    fun c => Cert.Spec.variance (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelValue.W9_v49 m ρ c), (h c).2.1.trans (Cert.KernelValue.W9_v43 m ρ c), (h c).2.2⟩)
      (Cert.KernelRun.run_results m ρ)
  · refine (θ_run Cert.ReferenceIdeal.defs _ _).mono (fun r h c => ⟨?_, ?_, (h c).2.2⟩) (Cert.RefRun.run m' ρ')
    · rw [(h c).1, (hagree c).1, (hagree c).2.1, (hagree c).2.2.1, (hagree c).2.2.2.1, (hagree c).2.2.2.2.1,
        (hagree c).2.2.2.2.2.1, (hagree c).2.2.2.2.2.2]
    · rw [(h c).2.1, (hagree c).1, (hagree c).2.1, (hagree c).2.2.1, (hagree c).2.2.2.1, (hagree c).2.2.2.2.1,
        (hagree c).2.2.2.2.2.1]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
